-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S8x1 : Shape := ⟨2, ![8, 1]⟩
abbrev S128x64 : Shape := ⟨2, ![128, 64]⟩
abbrev S64 : Shape := ⟨1, ![64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S8x1 : S_.BroadcastsInDim S8x1 (![] : Fin 0 → Fin S8x1.rank)
  reducesTo_S8x1_S_d0_1 : S8x1.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg5 : IVec S1600000 32) (main_arg6 : IVec S1600000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_c_6 : IVec S_ 32 := constantI S_ 32 0#32
  let main_v19 : IVec S1600000 32 := broadcastInDim S1600000 ![] bcast_S_S1600000 main_c_6
  let main_v20 : IVec S1600000 1 := cmpi .sge main_arg5 main_v19
  let main_c_7 : IVec S_ 1 := constantI S_ 1 1#1
  let main_v21 : IVec S_ 1 := (fun x v => Host.reduce IntOp.andi x v reducesTo_S1600000_S_d0 h_S_) main_v20 main_c_7
  let main_v22 : IVec S_ 1 := andi main_v18 main_v21
  let main_c_8 : IVec S_ 32 := constantI S_ 32 1#32
  let main_v23 : IVec S1600000 32 := broadcastInDim S1600000 ![] bcast_S_S1600000 main_c_8
  let main_v24 : IVec S1600000 1 := cmpi .sge main_arg6 main_v23
  let main_c_9 : IVec S_ 1 := constantI S_ 1 1#1
  let main_v25 : IVec S_ 1 := (fun x v => Host.reduce IntOp.andi x v reducesTo_S1600000_S_d0 h_S_) main_v24 main_c_9
  let main_v26 : IVec S_ 1 := andi main_v22 main_v25
  main_v26

def fn {F : FTy → Type} [FloatOps F] (main_arg0 : FVec F S100000x128 .f32) (main_arg1 : FVec F S8x1 .f32) (main_arg2 : FVec F S128x64 .f32) (main_arg3 : FVec F S64 .f32) (main_arg4 : IVec S1600000 32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S8x1 .f32 := Host.absf main_arg1
  let main_cst_0 : FVec F S_ .f32 := constant S_ .f32 0x7F800000#32
  let main_v5 : FVec F S8x1 .f32 := broadcastInDim S8x1 ![] bcast_S_S8x1 main_cst_0
  let main_v6 : IVec S8x1 1 := cmpf .olt main_v4 main_v5
  let main_c_1 : IVec S_ 1 := constantI S_ 1 1#1
  let main_v7 : IVec S_ 1 := (fun x v => Host.reduce IntOp.andi x v reducesTo_S8x1_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x128 : Shape := ⟨2, ![100000, 128]⟩
abbrev S8x1 : Shape := ⟨2, ![8, 1]⟩
abbrev S128x64 : Shape := ⟨2, ![128, 64]⟩
abbrev S64 : Shape := ⟨1, ![64]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S100000 : Shape := ⟨1, ![100000]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩

abbrev nBuf : Space → Nat
  | .hbm => 98
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S8x1, .f32⟩
  | .hbm, ⟨2, _⟩ => ⟨S128x64, .f32⟩
  | .hbm, ⟨3, _⟩ => ⟨S64, .f32⟩
  | .hbm, ⟨4, _⟩ => ⟨S1600000, .i32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S8x1, .f32⟩
  | .hbm, ⟨9, _⟩ => ⟨S8x1, .f32⟩
  | .hbm, ⟨10, _⟩ => ⟨S_, .f32⟩
  | .hbm, ⟨11, _⟩ => ⟨S8x1, .f32⟩
  | .hbm, ⟨12, _⟩ => ⟨S8x1, .i1⟩
  | .hbm, ⟨13, _⟩ => ⟨S_, .f32⟩
  | .hbm, ⟨14, _⟩ => ⟨S8x1, .f32⟩
  | .hbm, ⟨15, _⟩ => ⟨S8x1, .f32⟩
  | .hbm, ⟨16, _⟩ => ⟨S8x1, .f32⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1, .i32⟩
  | .hbm, ⟨37, _⟩ => ⟨S_, .i32⟩
  | .hbm, ⟨38, _⟩ => ⟨S1600000x1, .i32⟩
  | .hbm, ⟨39, _⟩ => ⟨S1600000x1, .i1⟩
  | .hbm, ⟨40, _⟩ => ⟨S1x1, .i32⟩
  | .hbm, ⟨41, _⟩ => ⟨S1600000x1, .i32⟩
  | .hbm, ⟨42, _⟩ => ⟨S1600000x1, .i1⟩
  | .hbm, ⟨43, _⟩ => ⟨S1600000x1, .i1⟩
  | .hbm, ⟨44, _⟩ => ⟨S_, .i1⟩
  | .hbm, ⟨45, _⟩ => ⟨S1600000, .i1⟩
  | .hbm, ⟨46, _⟩ => ⟨S1600000x1, .f32⟩
  | .hbm, ⟨47, _⟩ => ⟨S1600000x1, .i1⟩
  | .hbm, ⟨48, _⟩ => ⟨S_, .f32⟩
  | .hbm, ⟨49, _⟩ => ⟨S1600000x1, .f32⟩
  | .hbm, ⟨50, _⟩ => ⟨S1600000x1, .f32⟩
  | .hbm, ⟨51, _⟩ => ⟨S1600000, .f32⟩
  | .hbm, ⟨52, _⟩ => ⟨S_, .f32⟩
  | .hbm, ⟨53, _⟩ => ⟨S100000, .f32⟩
  | .hbm, ⟨54, _⟩ => ⟨S1600000x1, .i32⟩
  | .hbm, ⟨55, _⟩ => ⟨S100000, .f32⟩
  | .hbm, ⟨56, _⟩ => ⟨S_, .f32⟩
  | .hbm, ⟨57, _⟩ => ⟨S_, .f32⟩
  | .hbm, ⟨58, _⟩ => ⟨S100000, .f32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S1600000, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000, .f32⟩
  | .hbm, ⟨76, _⟩ => ⟨S1600000, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x64, .f32⟩
  | .hbm, ⟨86, _⟩ => ⟨S1600000x1, .f32⟩
  | .hbm, ⟨87, _⟩ => ⟨S1600000x64, .f32⟩
  | .hbm, ⟨88, _⟩ => ⟨S1600000x64, .f32⟩
  | .hbm, ⟨89, _⟩ => ⟨S_, .i32⟩
  | .hbm, ⟨90, _⟩ => ⟨S1600000, .i32⟩
  | .hbm, ⟨91, _⟩ => ⟨S1600000, .i1⟩
  | .hbm, ⟨92, _⟩ => ⟨S_, .i32⟩
  | .hbm, ⟨93, _⟩ => ⟨S1600000, .i32⟩
  | .hbm, ⟨94, _⟩ => ⟨S1600000, .i32⟩
  | .hbm, ⟨95, _⟩ => ⟨S1600000, .i32⟩
  | .hbm, ⟨96, _⟩ => ⟨S1600000x1, .i32⟩
  | .hbm, ⟨97, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_v2 : Ref sig .tc := ⟨.hbm, 16, rfl⟩
abbrev main_c : Ref sig .tc := ⟨.hbm, 17, rfl⟩
abbrev main_v3 : Ref sig .tc := ⟨.hbm, 18, rfl⟩
abbrev main_v4 : Ref sig .tc := ⟨.hbm, 19, rfl⟩
abbrev main_c_0 : Ref sig .tc := ⟨.hbm, 20, rfl⟩
abbrev main_c_1 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v5 : Ref sig .tc := ⟨.hbm, 27, rfl⟩
abbrev main_call2_c : Ref sig .tc := ⟨.hbm, 28, rfl⟩
abbrev main_call2_v0 : Ref sig .tc := ⟨.hbm, 29, rfl⟩
abbrev main_call2_v1 : Ref sig .tc := ⟨.hbm, 30, rfl⟩
abbrev main_call2_c_0 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_c_1 : Ref sig .tc := ⟨.hbm, 36, rfl⟩
abbrev main_call2_c_2 : Ref sig .tc := ⟨.hbm, 37, rfl⟩
abbrev main_call2_v6 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_call2_c_3 : Ref sig .tc := ⟨.hbm, 44, rfl⟩
abbrev main_call2_v12 : Ref sig .tc := ⟨.hbm, 45, rfl⟩
abbrev main_call2_v13 : Ref sig .tc := ⟨.hbm, 46, rfl⟩
abbrev main_call2_v14 : Ref sig .tc := ⟨.hbm, 47, rfl⟩
abbrev main_call2_cst : Ref sig .tc := ⟨.hbm, 48, rfl⟩
abbrev main_call2_v15 : Ref sig .tc := ⟨.hbm, 49, rfl⟩
abbrev main_v6 : Ref sig .tc := ⟨.hbm, 50, rfl⟩
abbrev main_v7 : Ref sig .tc := ⟨.hbm, 51, rfl⟩
abbrev main_cst_2 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_cst_3 : Ref sig .tc := ⟨.hbm, 56, rfl⟩
abbrev main_call3_v0 : Ref sig .tc := ⟨.hbm, 57, rfl⟩
abbrev main_call3_v1 : Ref sig .tc := ⟨.hbm, 58, rfl⟩
abbrev main_v11 : Ref sig .tc := ⟨.hbm, 59, rfl⟩
abbrev main_cst_4 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15_0 : Ref sig .tc := ⟨.hbm, 64, rfl⟩
abbrev main_v15_1 : Ref sig .tc := ⟨.hbm, 65, rfl⟩
abbrev main_v16 : Ref sig .tc := ⟨.hbm, 66, rfl⟩
abbrev main_c_5 : Ref sig .tc := ⟨.hbm, 67, rfl⟩
abbrev main_v17 : Ref sig .tc := ⟨.hbm, 68, rfl⟩
abbrev main_v18 : Ref sig .tc := ⟨.hbm, 69, rfl⟩
abbrev main_c_6 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_c_7 : Ref sig .tc := ⟨.hbm, 77, rfl⟩
abbrev main_v25 : Ref sig .tc := ⟨.hbm, 78, rfl⟩
abbrev main_v26 : Ref sig .tc := ⟨.hbm, 79, rfl⟩
abbrev main_c_8 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_c_9 : Ref sig .tc := ⟨.hbm, 89, rfl⟩
abbrev main_v35 : Ref sig .tc := ⟨.hbm, 90, rfl⟩
abbrev main_v36 : Ref sig .tc := ⟨.hbm, 91, rfl⟩
abbrev main_c_10 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S8x1 : S_.BroadcastsInDim S8x1 (![] : Fin 0 → Fin S8x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  shapeCasts_S1600000x1_S1600000 : S1600000x1.ShapeCasts S1600000
  bcast_S_S100000 : S_.BroadcastsInDim S100000 (![] : Fin 0 → Fin S100000.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  inb_S128x64_S128x64_0_0 : ∀ a, (![0, 0] : Fin 2 → Nat) a + S128x64.size a ≤ S128x64.size a
  h_S128x64 : 0 < S128x64.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  gather_S8x1_S1600000x1_S1600000x1_1_0_n_n_0_1_11_wf : GatherDims.WF S8x1 S1600000x1 S1600000x1 [1] [0] [] [0] [] 1 ![1, 1]
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)

variable [Facts₀]

def gather_S8x1_S1600000x1_S1600000x1_1_0_n_n_0_1_11 : GatherDims S8x1 S1600000x1 S1600000x1 where
  offsetDims := [1]
  collapsedSliceDims := [0]
  operandBatchingDims := []
  startIndicesBatchingDims := []
  startIndexMap := [0]
  indexVectorDim := 1
  sliceSizes := ![1, 1]
  wf := gather_S8x1_S1600000x1_S1600000x1_1_0_n_n_0_1_11_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15_1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S8x1 : Shape := ⟨2, ![8, 1]⟩
abbrev S128x64 : Shape := ⟨2, ![128, 64]⟩
abbrev S64 : Shape := ⟨1, ![64]⟩
abbrev S1600000 : Shape := ⟨1, ![1600000]⟩
abbrev S100000x64 : Shape := ⟨2, ![100000, 64]⟩
abbrev S_ : Shape := ⟨0, ![]⟩
abbrev S1600000x1 : Shape := ⟨2, ![1600000, 1]⟩
abbrev S100000 : Shape := ⟨1, ![100000]⟩
abbrev S100000x1 : Shape := ⟨2, ![100000, 1]⟩
abbrev S1600000x64 : Shape := ⟨2, ![1600000, 64]⟩
abbrev S1x64 : Shape := ⟨2, ![1, 64]⟩

abbrev nBuf : Space → Nat
  | .hbm => 65
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S8x1, .f32⟩
  | .hbm, ⟨2, _⟩ => ⟨S128x64, .f32⟩
  | .hbm, ⟨3, _⟩ => ⟨S64, .f32⟩
  | .hbm, ⟨4, _⟩ => ⟨S1600000, .i32⟩
  | .hbm, ⟨5, _⟩ => ⟨S1600000, .i32⟩
  | .hbm, ⟨6, _⟩ => ⟨S1600000, .i32⟩
  | .hbm, ⟨7, _⟩ => ⟨S100000x64, .f32⟩
  | .hbm, ⟨8, _⟩ => ⟨S_, .f32⟩
  | .hbm, ⟨9, _⟩ => ⟨S8x1, .f32⟩
  | .hbm, ⟨10, _⟩ => ⟨S8x1, .f32⟩
  | .hbm, ⟨11, _⟩ => ⟨S_, .f32⟩
  | .hbm, ⟨12, _⟩ => ⟨S8x1, .f32⟩
  | .hbm, ⟨13, _⟩ => ⟨S8x1, .i1⟩
  | .hbm, ⟨14, _⟩ => ⟨S_, .f32⟩
  | .hbm, ⟨15, _⟩ => ⟨S8x1, .f32⟩
  | .hbm, ⟨16, _⟩ => ⟨S8x1, .f32⟩
  | .hbm, ⟨17, _⟩ => ⟨S8x1, .f32⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x1, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000x1, .f32⟩
  | .hbm, ⟨43, _⟩ => ⟨S100000x128, .f32⟩
  | .hbm, ⟨44, _⟩ => ⟨S100000x128, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S1600000x64, .f32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_c_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_v17 : Ref sig .tc := ⟨.hbm, 38, rfl⟩
abbrev main_cst_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩

abbrev nD : Nat := 1
abbrev τ : Topo := Topo.v7x

variable {F : FTy → Type} [FloatOps F]

class Facts₀ : Prop where
  bcast_S_S8x1 : S_.BroadcastsInDim S8x1 (![] : Fin 0 → Fin S8x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000x1_S1600000 : S1600000x1.ShapeCasts S1600000
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x64_S100000x64_1_0_0_1_n_n_wf : DotDims.WF S100000x128 S128x64 S100000x64 [1] [0] [0] [1] [] []
  gather_S8x1_S1600000x1_S1600000x1_1_0_n_n_0_1_11_wf : GatherDims.WF S8x1 S1600000x1 S1600000x1 [1] [0] [] [0] [] 1 ![1, 1]
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S8x1_S1600000x1_S1600000x1_1_0_n_n_0_1_11 : GatherDims S8x1 S1600000x1 S1600000x1 where
  offsetDims := [1]
  collapsedSliceDims := [0]
  operandBatchingDims := []
  startIndicesBatchingDims := []
  startIndexMap := [0]
  indexVectorDim := 1
  sliceSizes := ![1, 1]
  wf := gather_S8x1_S1600000x1_S1600000x1_1_0_n_n_0_1_11_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibDots.lean ====
/-
  Three matrix products on the extended reals, each read at one entry as the sum over the contracted coordinate of the
  products of the operands' entries. General facts, about no particular program: the shapes are literal with variable
  extents, and the dimension record is given by its six axis lists with ANY proof of its side condition.
-/
import Idealize.ShloMosaic.PureOps.Ideal.Laws
import Idealize.ShloMosaic.Lib.ValueIdx

noncomputable section

namespace Cert.Lib.Dots

open Idealize.ShloMosaic Idealize.ShloMosaic.ValueIdx

/-- An M×K array times the transpose of an N×K array (both contract their second axis), accumulated into the all-zero
    array: entry (r, c) is the sum over k of A (r, k) · B (c, k). -/
theorem matmul_zero_rowsT_apply {M K N : Nat} {φ₁ φ₂ : FTy}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (r : Fin M) (c : Fin N) :
    matmul (F := Ideal) (⟨[1], [1], [0], [0], [], [], w⟩ : DotDims _ _ _) prec A B (constant ⟨2, ![M, N]⟩ .f32 0x00000000#32) (ix2 r c)
      = ∑ k : Fin K, A (ix2 r k) * B (ix2 c k) := by
  show FloatOps.matmul _ prec A B _ (ix2 r c) = _
  -- the entry is the sum over the contraction index; that index has one axis of extent K, so the sum runs over Fin K
  rw [Ideal.matmul_constant_zero_apply,
    ← Equiv.sum_comp (contrEquiv1 (⟨[1], [1], [0], [0], [], [], w⟩ : DotDims _ _ _) K rfl rfl).symm]
  refine Finset.sum_congr rfl fun k _ => ?_
  have c2 := contrEquiv1_symm_val
    (⟨[1], [1], [0], [0], [], [], w⟩ : DotDims ⟨2, ![M, K]⟩ ⟨2, ![N, K]⟩ ⟨2, ![M, N]⟩) K rfl rfl k
  -- the first operand is read at (row of the output, contracted coordinate)
  have l2 : (⟨[1], [1], [0], [0], [], [], w⟩ : DotDims ⟨2, ![M, K]⟩ ⟨2, ![N, K]⟩ ⟨2, ![M, N]⟩).lhsIdx (ix2 r c)
      ((contrEquiv1 _ K rfl rfl).symm k) = ix2 r k := by
    funext ax; apply Fin.ext
    match ax with
    | ⟨0, _⟩ => simp [DotDims.lhsIdx]; rfl
    | ⟨1, _⟩ => simp [DotDims.lhsIdx]; exact c2
  -- the second operand is read at (column of the output, contracted coordinate)
  have r2 : (⟨[1], [1], [0], [0], [], [], w⟩ : DotDims ⟨2, ![M, K]⟩ ⟨2, ![N, K]⟩ ⟨2, ![M, N]⟩).rhsIdx (ix2 r c)
      ((contrEquiv1 _ K rfl rfl).symm k) = ix2 c k := by
    funext ax; apply Fin.ext
    match ax with
    | ⟨0, _⟩ => simp [DotDims.rhsIdx]; rfl
    | ⟨1, _⟩ => simp [DotDims.rhsIdx]; exact c2
  rw [l2, r2]

/-- An M×K array times a K×N array, accumulated into the all-zero array: entry (r, c) is the sum over k of
    A (r, k) · B (k, c). -/
theorem matmul_zero_rowsCols_apply {M K N : Nat} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂) (r : Fin M) (c : Fin N) :
    matmul (F := Ideal) (⟨[1], [0], [0], [1], [], [], w⟩ : DotDims _ _ _) prec A B (constant ⟨2, ![M, N]⟩ .f32 0x00000000#32) (ix2 r c)
      = ∑ k : Fin K, A (ix2 r k) * B (ix2 k c) := by
  show FloatOps.matmul _ prec A B _ (ix2 r c) = _
  -- the entry is the sum over the contraction index; that index has one axis of extent K, so the sum runs over Fin K
  rw [Ideal.matmul_constant_zero_apply,
    ← Equiv.sum_comp (contrEquiv1 (⟨[1], [0], [0], [1], [], [], w⟩ : DotDims _ _ _) K rfl rfl).symm]
  refine Finset.sum_congr rfl fun k _ => ?_
  have c2 := contrEquiv1_symm_val
    (⟨[1], [0], [0], [1], [], [], w⟩ : DotDims ⟨2, ![M, K]⟩ ⟨2, ![K, N]⟩ ⟨2, ![M, N]⟩) K rfl rfl k
  -- the first operand is read at (row of the output, contracted coordinate)
  have l2 : (⟨[1], [0], [0], [1], [], [], w⟩ : DotDims ⟨2, ![M, K]⟩ ⟨2, ![K, N]⟩ ⟨2, ![M, N]⟩).lhsIdx (ix2 r c)
      ((contrEquiv1 _ K rfl rfl).symm k) = ix2 r k := by
    funext ax; apply Fin.ext
    match ax with
    | ⟨0, _⟩ => simp [DotDims.lhsIdx]; rfl
    | ⟨1, _⟩ => simp [DotDims.lhsIdx]; exact c2
  -- the second operand is read at (contracted coordinate, column of the output)
  have r2 : (⟨[1], [0], [0], [1], [], [], w⟩ : DotDims ⟨2, ![M, K]⟩ ⟨2, ![K, N]⟩ ⟨2, ![M, N]⟩).rhsIdx (ix2 r c)
      ((contrEquiv1 _ K rfl rfl).symm k) = ix2 k c := by
    funext ax; apply Fin.ext
    match ax with
    | ⟨0, _⟩ => simp [DotDims.rhsIdx]; exact c2
    | ⟨1, _⟩ => simp [DotDims.rhsIdx]; rfl
  rw [l2, r2]

/-- The host's product of a G×M×K array with the transpose of an N×K array (the last axis of the first against the
    last axis of the second, no batch axis): entry (g, m, c) is the sum over k of A (g, m, k) · B (c, k). -/
theorem dotGeneral_rank3_rowsT_apply {G M K N : Nat} {φ₁ φ₂ : FTy}
    (w : DotDims.WF ⟨3, ![G, M, K]⟩ ⟨2, ![N, K]⟩ ⟨3, ![G, M, N]⟩ [2] [1] [0, 1] [0] [] [])
    (prec : Option ContractPrecision) (A : FVec Ideal ⟨3, ![G, M, K]⟩ φ₁) (B : FVec Ideal ⟨2, ![N, K]⟩ φ₂)
    (g : Fin G) (m : Fin M) (c : Fin N) :
    Host.dotGeneral (F := Ideal) (⟨[2], [1], [0, 1], [0], [], [], w⟩ : DotDims _ _ _) prec A B (ix3 g m c)
      = ∑ k : Fin K, A (ix3 g m k) * B (ix2 c k) := by
  show FloatOps.dotGeneral _ prec _ A B (ix3 g m c) = _
  -- the entry is the sum over the contraction index; that index has one axis of extent K, so the sum runs over Fin K
  rw [Ideal.dotGeneral_apply,
    ← Equiv.sum_comp (contrEquiv1 (⟨[2], [1], [0, 1], [0], [], [], w⟩ : DotDims _ _ _) K rfl rfl).symm]
  refine Finset.sum_congr rfl fun k _ => ?_
  have c3 := contrEquiv1_symm_val
    (⟨[2], [1], [0, 1], [0], [], [], w⟩ : DotDims ⟨3, ![G, M, K]⟩ ⟨2, ![N, K]⟩ ⟨3, ![G, M, N]⟩) K rfl rfl k
  -- the first operand keeps the output's two leading coordinates and takes the contracted one last
  have l3 : (⟨[2], [1], [0, 1], [0], [], [], w⟩ : DotDims ⟨3, ![G, M, K]⟩ ⟨2, ![N, K]⟩ ⟨3, ![G, M, N]⟩).lhsIdx (ix3 g m c)
      ((contrEquiv1 _ K rfl rfl).symm k) = ix3 g m k := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  -- the second operand is read at (last coordinate of the output, contracted coordinate)
  have r3 : (⟨[2], [1], [0, 1], [0], [], [], w⟩ : DotDims ⟨3, ![G, M, K]⟩ ⟨2, ![N, K]⟩ ⟨3, ![G, M, N]⟩).rhsIdx (ix3 g m c)
      ((contrEquiv1 _ K rfl rfl).symm k) = ix2 c k := by
    funext ax; apply Fin.ext
    match ax with
    | ⟨0, _⟩ => simp [DotDims.rhsIdx]; rfl
    | ⟨1, _⟩ => simp [DotDims.rhsIdx]; exact c3
  rw [l3, r3]

end Cert.Lib.Dots

end
-- ==== Proof.KernelBlocks.lean ====
/-
  The two arrays the matrix-product region leaves, on the extended reals.

  The region runs over 20 grid points; point t reads rows 5000·t … 5000·t + 4999 of the feature array, the whole
  weight array and the whole 1×64 bias row, and writes the same rows of two result arrays: the product of the
  feature rows with the weights, and that product plus the bias row. A change of float format is the identity
  on the extended reals, so the product's entry (r, c) is the sum over k of feature (r, k) · weight (k, c). The 20
  row blocks tile the 100000 rows, so after the region the first result array is the whole product plus the bias
  broadcast down the rows, and the second the whole product.
-/
import proofs.«409179_j74852690035476_3_alg».proof.Proof.Gen.KernelIdeal.Frame
import proofs.«409179_j74852690035476_3_alg».proof.Proof.LibDots
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ)

/-- The whole product: entry (r, c) is the sum over k of feature (r, k) · weight (k, c). -/
def prodArr (feat : S100000x128.Idx → EReal) (wgt : S128x64.Idx → EReal) : S100000x64.Idx → EReal :=
  fun i => ∑ k : Fin 128, feat (ix2 (i 0) k) * wgt (ix2 k (i 1))

/-- The whole product with the bias row added to every row. -/
def biasedArr (feat : S100000x128.Idx → EReal) (wgt : S128x64.Idx → EReal) (bias : S1x64.Idx → EReal) :
    S100000x64.Idx → EReal :=
  fun i => prodArr feat wgt i + bias (ix2 0 (i 1))

theorem hz : (![0, 0] : Fin 2 → Nat) = fun _ => 0 := funext fun a => by fin_cases a <;> rfl

/-- One block's product at an entry: the sum over the contracted coordinate. -/
theorem pay1_apply (x0 : Vec Ideal S5000x128 .f32) (x1 : Vec Ideal S128x64 .f32) (p : Fin 5000) (q : Fin 64) :
    k0_pay1 x0 x1 (ix2 p q) = ∑ k : Fin 128, x0 (ix2 p k) * x1 (ix2 k q) := by
  unfold k0_pay1
  exact Cert.Lib.Dots.matmul_zero_rowsCols_apply (M := 5000) (K := 128) (N := 64) dot_S5000x128_S128x64_S5000x64_1_0_0_1_n_n.wf none
    (truncf .bf16 x0 bitsLt_bf16_f32) (truncf .bf16 x1 bitsLt_bf16_f32) p q

/-- One block's product plus the bias row at an entry. -/
theorem pay2_apply (x0 : Vec Ideal S5000x128 .f32) (x1 : Vec Ideal S128x64 .f32) (x2 : Vec Ideal S1x64 .f32)
    (p : Fin 5000) (q : Fin 64) :
    k0_pay2 x0 x1 x2 (ix2 p q) = (∑ k : Fin 128, x0 (ix2 p k) * x1 (ix2 k q)) + x2 (ix2 0 q) := by
  unfold k0_pay2
  show k0_pay1 x0 x1 (ix2 p q) + broadcastTo S5000x64 (shapeCast S1x64 x2 shapeCasts_S1x64_S1x64) broadcasts_S1x64_S5000x64 (ix2 p q) = _
  rw [pay1_apply, shapeCast_self]
  congr 1
  exact broadcastTo_apply x2 broadcasts_S1x64_S5000x64 (ix2 p q) (ix2 0 q) (fun a => match a with
    | ⟨0, _⟩ => rfl
    | ⟨1, _⟩ => rfl)

/-- The printed index maps, decided over the grid: the feature window and both result windows move down the rows
    together, every other block index is 0. -/
theorem idx_facts : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = win0_4.index t (0 : Fin 2) ∧ win0_3.index t (1 : Fin 2) = 0
    ∧ win0_4.index t (1 : Fin 2) = 0 ∧ win0_4.index t (0 : Fin 2) ≤ 19 :=
  (by decide +kernel : ∀ t : Fin grid0.N, _)

/-- Every row block is some point's. -/
theorem idx_onto : ∀ q0 : Fin 20, ∃ t : Fin cfg0.N, win0_4.index t = ![q0.val, 0] ∧ win0_3.index t = ![q0.val, 0] :=
  (by decide +kernel : ∀ q0 : Fin 20, ∃ t : Fin grid0.N, win0_4.index t = ![q0.val, 0] ∧ win0_3.index t = ![q0.val, 0])

/-- The feature block at a point, read at an entry, is the feature array at the block's row. -/
theorem feat_blk (c : Dev nD) (t : Fin cfg0.N) (p : Fin 5000) (k : Fin 128) (i : S100000x128.Idx)
    (h0 : (i 0).val = win0_4.index t (0 : Fin 2) * 5000 + p.val) (h1 : (i 1).val = k.val) :
    (iblk m c 0 t : Vec Ideal S5000x128 .f32) (ix2 p k) = (V m c main_arg0 : S100000x128.Idx → EReal) i := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 5000 + 1 * p.val = (i 0).val; rw [e0, h0]; omega
  | ⟨1, _⟩ => show win0_0.index t (1 : Fin 2) * 128 + 1 * k.val = (i 1).val; rw [e1, h1]; omega

/-- The weight block at any point is the weight array. -/
theorem wgt_blk (c : Dev nD) (t : Fin cfg0.N) (k : Fin 128) (q : Fin 64) (i : S128x64.Idx)
    (h0 : (i 0).val = k.val) (h1 : (i 1).val = q.val) :
    (iblk m c 1 t : Vec Ideal S128x64 .f32) (ix2 k q) = (V m c main_arg2 : S128x64.Idx → EReal) i := by
  obtain ⟨-, -, e2, e3, -⟩ := idx_facts t
  unfold iblk
  rw [View.read_apply]
  show V m c main_arg2 _ = V m c main_arg2 _
  congr 1
  funext a
  apply Fin.ext
  match a with
  | ⟨0, _⟩ => show win0_1.index t (0 : Fin 2) * 128 + 1 * k.val = (i 0).val; rw [e2, h0]; omega
  | ⟨1, _⟩ => show win0_1.index t (1 : Fin 2) * 64 + 1 * q.val = (i 1).val; rw [e3, h1]; omega

/-- The bias block at any point is the bias row. -/
theorem bias_blk (c : Dev nD) (t : Fin cfg0.N) (q : Fin 64) (i : S1x64.Idx)
    (h0 : (i 0).val = 0) (h1 : (i 1).val = q.val) :
    (iblk m c 2 t : Vec Ideal S1x64 .f32) (ix2 0 q) = (V m c main_v14 : S1x64.Idx → EReal) i := by
  obtain ⟨-, -, -, -, e4, e5, -⟩ := idx_facts t
  unfold iblk
  rw [View.read_apply]
  show V m c main_v14 _ = V m c main_v14 _
  congr 1
  funext a
  apply Fin.ext
  match a with
  | ⟨0, _⟩ => show win0_2.index t (0 : Fin 2) * 1 + 1 * 0 = (i 0).val; rw [e4, h0]
  | ⟨1, _⟩ => show win0_2.index t (1 : Fin 2) * 64 + 1 * q.val = (i 1).val; rw [e5, h1]; omega

/-- What point t writes back into the second result array is block t of the whole product. -/
theorem flushed4_eq (c : Dev nD) (t : Fin cfg0.N) :
    (dats m 0 c).flushed 4 t
      = ((cfg0.win 4).blk t).view.read (Elt Ideal) (prodArr (V m c main_arg0) (V m c main_arg2)) := by
  show (cfg0.win 4).cut (grid0.coords t) ((dats m 0 c).after 4 t) = _
  rw [after0_4]
  unfold out0_4
  rw [View.canon_unit_zero hz]
  simp only [View.ld_unit_zero (S := S5000x128) hz, View.ld_unit_zero (S := S128x64) hz]
  obtain ⟨-, -, -, -, -, -, -, -, e8, e9⟩ := idx_facts t
  funext j
  obtain ⟨p, q, rfl⟩ : ∃ (p : Fin 5000) (q : Fin 64), j = ix2 p q := ⟨j 0, j 1, eq_ix2 j⟩
  refine (pay1_apply (iblk m c 0 t) (iblk m c 1 t) p q).trans ?_
  rw [View.read_apply]
  unfold prodArr
  refine Finset.sum_congr rfl fun k _ => ?_
  refine congrArg₂ (· * ·) (feat_blk m c t p k _ ?_ rfl) (wgt_blk m c t k q _ rfl ?_)
  · show win0_4.index t (0 : Fin 2) * 5000 + 1 * p.val = win0_4.index t (0 : Fin 2) * 5000 + p.val
    omega
  · show win0_4.index t (1 : Fin 2) * 64 + 1 * q.val = q.val
    rw [e8]; omega

/-- What point t writes back into the first result array is block t of the whole product plus the bias row. -/
theorem flushed3_eq (c : Dev nD) (t : Fin cfg0.N) :
    (dats m 0 c).flushed 3 t
      = ((cfg0.win 3).blk t).view.read (Elt Ideal) (biasedArr (V m c main_arg0) (V m c main_arg2) (V m c main_v14)) := by
  show (cfg0.win 3).cut (grid0.coords t) ((dats m 0 c).after 3 t) = _
  rw [after0_3]
  unfold out0_3
  rw [View.canon_unit_zero hz]
  simp only [View.ld_unit_zero (S := S5000x128) hz, View.ld_unit_zero (S := S128x64) hz, View.ld_unit_zero (S := S1x64) hz]
  obtain ⟨-, -, -, -, -, -, e6, e7, e8, e9⟩ := idx_facts t
  funext j
  obtain ⟨p, q, rfl⟩ : ∃ (p : Fin 5000) (q : Fin 64), j = ix2 p q := ⟨j 0, j 1, eq_ix2 j⟩
  refine (pay2_apply (iblk m c 0 t) (iblk m c 1 t) (iblk m c 2 t) p q).trans ?_
  rw [View.read_apply]
  unfold biasedArr prodArr
  refine congrArg₂ (· + ·) (Finset.sum_congr rfl fun k _ => ?_) (bias_blk m c t q _ rfl ?_)
  · refine congrArg₂ (· * ·) (feat_blk m c t p k _ ?_ rfl) (wgt_blk m c t k q _ rfl ?_)
    · show win0_3.index t (0 : Fin 2) * 5000 + 1 * p.val = win0_4.index t (0 : Fin 2) * 5000 + p.val
      rw [e6]; omega
    · show win0_3.index t (1 : Fin 2) * 64 + 1 * q.val = q.val
      rw [e7]; omega
  · show win0_3.index t (1 : Fin 2) * 64 + 1 * q.val = q.val
    rw [e7]; omega

/-- An index of a result array is in point t's block iff each coordinate is in the block's range on its axis. -/
theorem mem_blk4 (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v15_1).slice (win0_4.rect t)).set ↔ _
  rw [View.set_slice_whole, Rect.mem_set_unit]
  exact Iff.rfl

theorem mem_blk3 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v15_0).slice (win0_3.rect t)).set ↔ _
  rw [View.set_slice_whole, Rect.mem_set_unit]
  exact Iff.rfl

/-- The twenty row blocks tile the rows: the point whose block holds row r is the one with block index r / 5000. -/
theorem cover4 (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, ht, -⟩ := idx_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

theorem cover3 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, -, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk3]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- After the region the second result array is the whole product. -/
theorem final4 (c : Dev nD) :
    (dats m 0 c).arrAt 4 cfg0.N = prodArr (V m c main_arg0) (V m c main_arg2) :=
  (dats m 0 c).arrAt_eq_of_cover 4 (prodArr (V m c main_arg0) (V m c main_arg2)) (fun t _ => flushed4_eq m c t) cover4

/-- After the region the first result array is the whole product plus the bias row. -/
theorem final3 (c : Dev nD) :
    (dats m 0 c).arrAt 3 cfg0.N = biasedArr (V m c main_arg0) (V m c main_arg2) (V m c main_v14) :=
  (dats m 0 c).arrAt_eq_of_cover 3 (biasedArr (V m c main_arg0) (V m c main_arg2) (V m c main_v14)) (fun t _ => flushed3_eq m c t) cover3

end Cert.KernelIdeal.Blocks

end
-- ==== Proof.KernelDefs.lean ====
/-
  The host side of the kernel's program, as pure functions of the argument arrays.

  Before the region the program builds, from the 8×1 edge-weight table scaled by 10 and passed through the leaky
  rectifier (slope 0.01 below zero), the weight of every edge: the edge's type minus one is clamped into 0 … 7 and
  the table is read there. The weights are summed per destination node into the degrees, and each node's norm is
  the reciprocal of max(1, degree). After the region the program multiplies, per edge, the product row of the
  edge's source node by the edge's weight times the source's norm, and adds those rows into the biased product
  at the edge's destination node. Each function below is the composition of the printed operations, in order.
-/
import proofs.«409179_j74852690035476_3_alg».proof.KernelIdeal
import proofs.«409179_j74852690035476_3_alg».proof.Proof.Gen.KernelIdeal

noncomputable section

open Idealize.ShloMosaic

namespace Cert.KernelIdeal.Host

open Cert.KernelIdeal Cert.KernelIdeal.Gen

variable {F : FTy → Type} [FloatOps F]

/-- The edge-weight table: the argument times 10 through the leaky rectifier. -/
def tabK (a1 : FVec F S8x1 .f32) : FVec F S8x1 .f32 :=
  let x : FVec F S8x1 .f32 := mulf a1 (broadcastInDim S8x1 ![] bcast_S_S8x1 (constant S_ .f32 0x41200000#32))
  select (cmpf .oge x (broadcastInDim S8x1 ![] bcast_S_S8x1 (constant S_ .f32 0x00000000#32))) x
    (mulf (broadcastInDim S8x1 ![] bcast_S_S8x1 (constant S_ .f32 0x3C23D70A#32)) x)

/-- Per edge, the table row the kernel reads: the type minus one clamped into 0 … 7 (then normalised as a possibly
    negative position of an axis of length 8, which leaves a clamped word alone). -/
def idxK (a6 : IVec S1600000 32) : IVec S1600000 32 :=
  let d : IVec S1600000 32 := subi a6 (broadcastInDim S1600000 ![] bcast_S_S1600000 (constantI S_ 32 1#32))
  let cl : IVec S1600000 32 := minsi (broadcastInDim S1600000 ![] bcast_S_S1600000 (id (constantI S_ 32 7#32)))
    (maxsi (broadcastInDim S1600000 ![] bcast_S_S1600000 (id (constantI S_ 32 0#32))) d)
  select (cmpi .slt cl (broadcastInDim S1600000 ![] bcast_S_S1600000 (constantI S_ 32 0#32)))
    (addi cl (broadcastInDim S1600000 ![] bcast_S_S1600000 (constantI S_ 32 8#32))) cl

/-- Per edge, its weight: the table at that row where the row lies in 0 … 7 (it always does), a fill value elsewhere. -/
def ewK (a1 : FVec F S8x1 .f32) (a6 : IVec S1600000 32) : FVec F S1600000x1 .f32 :=
  let i5 : IVec S1600000x1 32 := broadcastInDim S1600000x1 ![0] bcast_S1600000_S1600000x1_0 (idxK a6)
  let inb : IVec S1600000x1 1 := andi
    (cmpi .sge i5 (broadcastInDim S1600000x1 ![] bcast_S_S1600000x1 (constantI S_ 32 0#32)))
    (cmpi .sle i5 (broadcastInDim S1600000x1 ![0, 1] bcast_S1x1_S1600000x1_0_1 (broadcastInDim S1x1 ![1] bcast_S1_S1x1_1 (constantI S1 32 7#32))))
  let ok : IVec S1600000 1 := Host.reduce IntOp.andi inb (constantI S_ 1 1#1) reducesTo_S1600000x1_S1600000_d1 h_S_
  select (broadcastInDim S1600000x1 ![0] bcast_S1600000_S1600000x1_0 ok)
    (Host.gather gather_S8x1_S1600000x1_S1600000x1_1_0_n_n_0_1_11 (tabK a1) i5)
    (broadcastInDim S1600000x1 ![] bcast_S_S1600000x1 (constant S_ .f32 0x7FC00000#32))

/-- Per node, its norm: the reciprocal of max(1, degree), the degree the sum of the weights of the edges that end there. -/
def nrmK (ew : FVec F S1600000x1 .f32) (a5 : IVec S1600000 32) : FVec F S100000 .f32 :=
  let deg : FVec F S100000 .f32 := Host.scatterAdd scatter_S100000_S1600000x1_S1600000_n_0_0_1
    (broadcastInDim S100000 ![] bcast_S_S100000 (constant S_ .f32 0x00000000#32))
    (broadcastInDim S1600000x1 ![0] bcast_S1600000_S1600000x1_0 a5)
    (shapeCast S1600000 ew shapeCasts_S1600000x1_S1600000)
  Host.divf (broadcastInDim S100000 ![] bcast_S_S100000 (constant S_ .f32 0x3F800000#32))
    (maximumf (broadcastInDim S100000 ![] bcast_S_S100000 (id (constant S_ .f32 0x3F800000#32))) deg)

/-- A node index array normalised as possibly negative positions of an axis of length 100000. -/
def wrapN (a : IVec S1600000 32) : IVec S1600000 32 :=
  select (cmpi .slt a (broadcastInDim S1600000 ![] bcast_S_S1600000 (constantI S_ 32 0#32)))
    (addi a (broadcastInDim S1600000 ![] bcast_S_S1600000 (constantI S_ 32 100000#32))) a

/-- The result: per edge the source's product row times (weight · source's norm), added into the biased product at the
    destination. -/
def outK (base root : FVec F S100000x64 .f32) (ew : FVec F S1600000x1 .f32) (nrm : FVec F S100000 .f32)
    (a4 a5 : IVec S1600000 32) : FVec F S100000x64 .f32 :=
  let ns : FVec F S1600000 .f32 := Host.gather gather_S100000_S1600000x1_S1600000_n_0_n_n_0_1_1 nrm
    (broadcastInDim S1600000x1 ![0] bcast_S1600000_S1600000x1_0 (wrapN a4))
  let cv : FVec F S1600000 .f32 := mulf (shapeCast S1600000 ew shapeCasts_S1600000x1_S1600000) ns
  let rg : FVec F S1600000x64 .f32 := Host.gather gather_S100000x64_S1600000x1_S1600000x64_1_0_n_n_0_1_164 root
    (broadcastInDim S1600000x1 ![0] bcast_S1600000_S1600000x1_0 (wrapN a4))
  let msgs : FVec F S1600000x64 .f32 := mulf rg
    (broadcastInDim S1600000x64 ![0, 1] bcast_S1600000x1_S1600000x64_0_1 (broadcastInDim S1600000x1 ![0] bcast_S1600000_S1600000x1_0 cv))
  Host.scatterAdd scatter_S100000x64_S1600000x1_S1600000x64_1_0_0_1 base
    (broadcastInDim S1600000x1 ![0] bcast_S1600000_S1600000x1_0 (wrapN a5)) msgs

end Cert.KernelIdeal.Host

end
-- ==== Proof.KernelPrefix.lean ====
import proofs.«409179_j74852690035476_3_alg».proof.Proof.Gen.KernelIdeal.Frame
import proofs.«409179_j74852690035476_3_alg».proof.Proof.KernelDefs
import Idealize.ShloMosaic.Lib.StableHlo.Run
noncomputable section
open Idealize.ShloMosaic Idealize.ShloMosaic.TcCoe Idealize.SL.Sem Idealize.ShloMosaic.StableHlo
namespace Cert.KernelIdeal.Host
open Cert.KernelIdeal Cert.KernelIdeal.Gen
variable {F : FTy → Type} [FloatOps F]
variable (m : (ℓ : Loc nD τ sig) → Buf (Elt F) ℓ)

/-! # What the host operations before the region leave in three buffers

Before its one region the program runs eight straight lines of host operations, 57 in all. The buffers' contents at
the region's entry are the fold of all of them over the launch contents. Read in one piece that fold is a large term;
read line by line it is short: each line is folded ONCE over an arbitrary incoming valuation, at the few buffers it
defines that a later line reads, and a buffer is carried across the lines that do not write it. Composing the eight
readings gives the edge weights, the node norms and the bias row as the functions of the argument arrays that the
definitions of this unit name. No reduction, lookup or scatter is ever opened. -/

/-! ## The pieces the lines compute -/

/-- The leaky rectifier, slope 0.01 below zero. -/
def lreluK (x : FVec F S8x1 .f32) : FVec F S8x1 .f32 :=
  select (cmpf .oge x (broadcastInDim S8x1 ![] bcast_S_S8x1 (constant S_ .f32 0x00000000#32))) x
    (mulf (broadcastInDim S8x1 ![] bcast_S_S8x1 (constant S_ .f32 0x3C23D70A#32)) x)

/-- The guarded table lookup at clamped row words `ix`: the words normalised as possibly negative positions of an
    axis of length 8, laid down as a column, tested for lying in 0 … 7, the table read at them, a fill value where the
    test fails. -/
def takeK (tab : FVec F S8x1 .f32) (ix : IVec S1600000 32) : FVec F S1600000x1 .f32 :=
  let wr : IVec S1600000 32 := select (cmpi .slt ix (broadcastInDim S1600000 ![] bcast_S_S1600000 (constantI S_ 32 0#32)))
    (addi ix (broadcastInDim S1600000 ![] bcast_S_S1600000 (constantI S_ 32 8#32))) ix
  let i5 : IVec S1600000x1 32 := broadcastInDim S1600000x1 ![0] bcast_S1600000_S1600000x1_0 wr
  let inb : IVec S1600000x1 1 := andi
    (cmpi .sge i5 (broadcastInDim S1600000x1 ![] bcast_S_S1600000x1 (constantI S_ 32 0#32)))
    (cmpi .sle i5 (broadcastInDim S1600000x1 ![0, 1] bcast_S1x1_S1600000x1_0_1 (broadcastInDim S1x1 ![1] bcast_S1_S1x1_1 (constantI S1 32 7#32))))
  let ok : IVec S1600000 1 := Host.reduce IntOp.andi inb (constantI S_ 1 1#1) reducesTo_S1600000x1_S1600000_d1 h_S_
  select (broadcastInDim S1600000x1 ![0] bcast_S1600000_S1600000x1_0 ok)
    (Host.gather gather_S8x1_S1600000x1_S1600000x1_1_0_n_n_0_1_11 tab i5)
    (broadcastInDim S1600000x1 ![] bcast_S_S1600000x1 (constant S_ .f32 0x7FC00000#32))

/-- The table is the rectifier of the argument times 10. -/
theorem tabK_eq (a1 : FVec F S8x1 .f32) :
    tabK a1 = lreluK (mulf a1 (broadcastInDim S8x1 ![] bcast_S_S8x1 (constant S_ .f32 0x41200000#32))) := rfl

/-- The weights are the guarded lookup of the table at the type words minus one, clamped into 0 … 7. -/
theorem ewK_eq_takeK (a1 : FVec F S8x1 .f32) (a6 : IVec S1600000 32) :
    ewK a1 a6 = takeK (tabK a1)
      (minsi (broadcastInDim S1600000 ![] bcast_S_S1600000 (id (constantI S_ 32 7#32)))
        (maxsi (broadcastInDim S1600000 ![] bcast_S_S1600000 (id (constantI S_ 32 0#32)))
          (subi a6 (broadcastInDim S1600000 ![] bcast_S_S1600000 (constantI S_ 32 1#32))))) := rfl

/-! ## A function's operations move contents to its buffers' types and back

An operation of a module-local function states its function at the tensor values' types and moves the contents to
and from the buffers' own types. At a literal buffer the two types are the same and the move is the identity. -/

/-- Contents moved to a typed reference's buffer type and back are unchanged. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

/-! ## Each line read once, over any incoming contents -/

section Lines
variable (U : Valuation τ sig (Elt F))

theorem ops0_v1 : (after hostOps0 U (main_v1 : DevRef τ sig) : S8x1.Idx → Elt F .f32)
    = mulf (U (main_arg1 : DevRef τ sig)) (broadcastInDim S8x1 ![] bcast_S_S8x1 (constant S_ .f32 0x41200000#32)) := by
  simp only [hostOps0]
  after_results_simp <;> rfl

theorem ops1_v2 : (after hostOps0_1 U (main_v2 : DevRef τ sig) : S8x1.Idx → Elt F .f32)
    = lreluK (U (main_v1 : DevRef τ sig)) := by
  simp only [hostOps0_1]
  after_results_simp <;> rfl

theorem ops2_v4 : (after hostOps0_2 U (main_v4 : DevRef τ sig) : S1600000.Idx → Elt F .i32)
    = subi (U (main_arg6 : DevRef τ sig)) (broadcastInDim S1600000 ![] bcast_S_S1600000 (constantI S_ 32 1#32)) := by
  simp only [hostOps0_2]
  after_results_simp <;> rfl

theorem ops2_c0 : (after hostOps0_2 U (main_c_0 : DevRef τ sig) : S_.Idx → Elt F .i32) = constantI S_ 32 0#32 := by
  simp only [hostOps0_2]
  after_results_simp <;> rfl

theorem ops2_c1 : (after hostOps0_2 U (main_c_1 : DevRef τ sig) : S_.Idx → Elt F .i32) = constantI S_ 32 7#32 := by
  simp only [hostOps0_2]
  after_results_simp <;> rfl

theorem ops3_v5 : (after hostOps0_3 U (main_v5 : DevRef τ sig) : S1600000.Idx → Elt F .i32)
    = minsi (broadcastInDim S1600000 ![] bcast_S_S1600000 (id (U (main_c_1 : DevRef τ sig))))
        (maxsi (broadcastInDim S1600000 ![] bcast_S_S1600000 (id (U (main_c_0 : DevRef τ sig)))) (U (main_v4 : DevRef τ sig))) := by
  simp only [hostOps0_3]
  after_results_simp <;> rfl

/-- At the literal buffers `main_v5`, `main_v2` and `main_v6` the move between the value's type and the buffer's is
    the identity. -/
theorem leaf_v5 : (TRef.of main_v5 : TRef sig ⟨S1600000, .i32⟩).ofBuf (U (main_v5 : DevRef τ sig)) = U (main_v5 : DevRef τ sig) := rfl
theorem leaf_v2 : (TRef.of main_v2 : TRef sig ⟨S8x1, .f32⟩).ofBuf (U (main_v2 : DevRef τ sig)) = U (main_v2 : DevRef τ sig) := rfl
theorem root_v6 (X : (⟨S1600000x1, .f32⟩ : BufTy).Contents (Elt F)) :
    (TRef.of main_v6 : TRef sig ⟨S1600000x1, .f32⟩).toBuf (Val := Elt F) X = X := rfl

/-- The lookup's 23 operations: the moves between types cancel in pairs inside the term and are the identity at its
    two leaves and its root; what is left is the guarded lookup, operation for operation. -/
theorem ops4_v6 : (after hostOps0_4 U (main_v6 : DevRef τ sig) : S1600000x1.Idx → Elt F .f32)
    = takeK (U (main_v2 : DevRef τ sig)) (U (main_v5 : DevRef τ sig)) := by
  simp only [hostOps0_4]
  after_results_simp
  simp only [ofBuf_toBuf]
  rw [root_v6]
  simp only [leaf_v5, leaf_v2]
  rfl

theorem ops5_v10 : (after hostOps0_5 U (main_v10 : DevRef τ sig) : S100000.Idx → Elt F .f32)
    = Host.scatterAdd scatter_S100000_S1600000x1_S1600000_n_0_0_1
        (broadcastInDim S100000 ![] bcast_S_S100000 (constant S_ .f32 0x00000000#32))
        (broadcastInDim S1600000x1 ![0] bcast_S1600000_S1600000x1_0 (U (main_arg5 : DevRef τ sig)))
        (shapeCast S1600000 (U (main_v6 : DevRef τ sig)) shapeCasts_S1600000x1_S1600000) := by
  simp only [hostOps0_5]
  after_results_simp <;> rfl

theorem ops5_cst3 : (after hostOps0_5 U (main_cst_3 : DevRef τ sig) : S_.Idx → Elt F .f32)
    = constant S_ .f32 0x3F800000#32 := by
  simp only [hostOps0_5]
  after_results_simp <;> rfl

theorem ops6_v11 : (after hostOps0_6 U (main_v11 : DevRef τ sig) : S100000.Idx → Elt F .f32)
    = maximumf (broadcastInDim S100000 ![] bcast_S_S100000 (id (U (main_cst_3 : DevRef τ sig)))) (U (main_v10 : DevRef τ sig)) := by
  simp only [hostOps0_6]
  after_results_simp <;> rfl

theorem ops7_v13 : (after hostOps0_7 U (main_v13 : DevRef τ sig) : S100000.Idx → Elt F .f32)
    = Host.divf (broadcastInDim S100000 ![] bcast_S_S100000 (constant S_ .f32 0x3F800000#32)) (U (main_v11 : DevRef τ sig)) := by
  simp only [hostOps0_7]
  after_results_simp <;> rfl

theorem ops7_v14 : (after hostOps0_7 U (main_v14 : DevRef τ sig) : S1x64.Idx → Elt F .f32)
    = shapeCast S1x64 (U (main_arg3 : DevRef τ sig)) shapeCasts_S64_S1x64 := by
  simp only [hostOps0_7]
  after_results_simp <;> rfl

end Lines

/-! ## What each line writes, and what it therefore leaves alone -/

/-- The buffers `hostOps0` writes. -/
abbrev written0 : List (Ref sig .tc) := [main_cst, main_v0, main_v1]
theorem writes0 : (hostOps0 : List (HloOp τ sig (Elt F))).Forall fun op =>
    op.writes ⊆ (written0.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
/-- A buffer `hostOps0` does not write is, after it, as before. -/
theorem keep0 (U : Valuation τ sig (Elt F)) {r : Ref sig .tc} (h : r ∉ written0) :
    after hostOps0 U (r : DevRef τ sig) = U (r : DevRef τ sig) :=
  after_of_writes_sub hostOps0 U writes0 h

/-- The buffers `hostOps0_1` writes. -/
abbrev written1 : List (Ref sig .tc) := [main_call0_cst, main_call0_v0, main_call0_v1, main_call0_cst_0, main_call0_v2, main_call0_v3, main_v2]
theorem writes1 : (hostOps0_1 : List (HloOp τ sig (Elt F))).Forall fun op =>
    op.writes ⊆ (written1.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
/-- A buffer `hostOps0_1` does not write is, after it, as before. -/
theorem keep1 (U : Valuation τ sig (Elt F)) {r : Ref sig .tc} (h : r ∉ written1) :
    after hostOps0_1 U (r : DevRef τ sig) = U (r : DevRef τ sig) :=
  after_of_writes_sub hostOps0_1 U writes1 h

/-- The buffers `hostOps0_2` writes. -/
abbrev written2 : List (Ref sig .tc) := [main_c, main_v3, main_v4, main_c_0, main_c_1]
theorem writes2 : (hostOps0_2 : List (HloOp τ sig (Elt F))).Forall fun op =>
    op.writes ⊆ (written2.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
/-- A buffer `hostOps0_2` does not write is, after it, as before. -/
theorem keep2 (U : Valuation τ sig (Elt F)) {r : Ref sig .tc} (h : r ∉ written2) :
    after hostOps0_2 U (r : DevRef τ sig) = U (r : DevRef τ sig) :=
  after_of_writes_sub hostOps0_2 U writes2 h

/-- The buffers `hostOps0_3` writes. -/
abbrev written3 : List (Ref sig .tc) := [main_call1_v0, main_call1_v1, main_call1_v2, main_call1_v3, main_call1_v4, main_v5]
theorem writes3 : (hostOps0_3 : List (HloOp τ sig (Elt F))).Forall fun op =>
    op.writes ⊆ (written3.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
/-- A buffer `hostOps0_3` does not write is, after it, as before. -/
theorem keep3 (U : Valuation τ sig (Elt F)) {r : Ref sig .tc} (h : r ∉ written3) :
    after hostOps0_3 U (r : DevRef τ sig) = U (r : DevRef τ sig) :=
  after_of_writes_sub hostOps0_3 U writes3 h

/-- The buffers `hostOps0_4` writes. -/
abbrev written4 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v6]
theorem writes4 : (hostOps0_4 : List (HloOp τ sig (Elt F))).Forall fun op =>
    op.writes ⊆ (written4.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
/-- A buffer `hostOps0_4` does not write is, after it, as before. -/
theorem keep4 (U : Valuation τ sig (Elt F)) {r : Ref sig .tc} (h : r ∉ written4) :
    after hostOps0_4 U (r : DevRef τ sig) = U (r : DevRef τ sig) :=
  after_of_writes_sub hostOps0_4 U writes4 h

/-- The buffers `hostOps0_5` writes. -/
abbrev written5 : List (Ref sig .tc) := [main_v7, main_cst_2, main_v8, main_v9, main_v10, main_cst_3]
theorem writes5 : (hostOps0_5 : List (HloOp τ sig (Elt F))).Forall fun op =>
    op.writes ⊆ (written5.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
/-- A buffer `hostOps0_5` does not write is, after it, as before. -/
theorem keep5 (U : Valuation τ sig (Elt F)) {r : Ref sig .tc} (h : r ∉ written5) :
    after hostOps0_5 U (r : DevRef τ sig) = U (r : DevRef τ sig) :=
  after_of_writes_sub hostOps0_5 U writes5 h

/-- The buffers `hostOps0_6` writes. -/
abbrev written6 : List (Ref sig .tc) := [main_call3_v0, main_call3_v1, main_v11]
theorem writes6 : (hostOps0_6 : List (HloOp τ sig (Elt F))).Forall fun op =>
    op.writes ⊆ (written6.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
/-- A buffer `hostOps0_6` does not write is, after it, as before. -/
theorem keep6 (U : Valuation τ sig (Elt F)) {r : Ref sig .tc} (h : r ∉ written6) :
    after hostOps0_6 U (r : DevRef τ sig) = U (r : DevRef τ sig) :=
  after_of_writes_sub hostOps0_6 U writes6 h

/-- The buffers `hostOps0_7` writes. -/
abbrev written7 : List (Ref sig .tc) := [main_cst_4, main_v12, main_v13, main_v14]
theorem writes7 : (hostOps0_7 : List (HloOp τ sig (Elt F))).Forall fun op =>
    op.writes ⊆ (written7.map (Proc.devRef (τ := τ) .tc)).toFinset := by
  simp only [List.Forall]
  repeat' apply And.intro
  all_goals
    simp only [nullary_writes, unary_writes, binary_writes, ternary_writes, reshape_writes, Finset.singleton_subset_iff, List.mem_toFinset]
    exact List.mem_map_of_mem (by decide)
/-- A buffer `hostOps0_7` does not write is, after it, as before. -/
theorem keep7 (U : Valuation τ sig (Elt F)) {r : Ref sig .tc} (h : r ∉ written7) :
    after hostOps0_7 U (r : DevRef τ sig) = U (r : DevRef τ sig) :=
  after_of_writes_sub hostOps0_7 U writes7 h

/-! ## The eight lines in a row -/

/-- The contents after the first line, …, after the eighth: each line folded over what the one before left. -/
def W0 (c : Dev nD) : Valuation τ sig (Elt F) := after hostOps0 (fun b => m (c, b))
def W1 (c : Dev nD) : Valuation τ sig (Elt F) := after hostOps0_1 (W0 m c)
def W2 (c : Dev nD) : Valuation τ sig (Elt F) := after hostOps0_2 (W1 m c)
def W3 (c : Dev nD) : Valuation τ sig (Elt F) := after hostOps0_3 (W2 m c)
def W4 (c : Dev nD) : Valuation τ sig (Elt F) := after hostOps0_4 (W3 m c)
def W5 (c : Dev nD) : Valuation τ sig (Elt F) := after hostOps0_5 (W4 m c)
def W6 (c : Dev nD) : Valuation τ sig (Elt F) := after hostOps0_6 (W5 m c)
def W7 (c : Dev nD) : Valuation τ sig (Elt F) := after hostOps0_7 (W6 m c)

/-- The fold of the eight lines joined is the eight folds in a row. -/
theorem V0_eq (c : Dev nD) : V0 m c = W7 m c := by
  unfold W7 W6 W5 W4 W3 W2 W1 W0
  simp only [V0, List.flatten_cons, List.flatten_nil, List.append_nil, after_append]

section Values
variable (c : Dev nD)

/-! ### The table -/

theorem W0_v1 : (W0 m c (main_v1 : DevRef τ sig) : S8x1.Idx → Elt F .f32) = mulf (m ((c : Thread nD τ).loc main_arg1)) (broadcastInDim S8x1 ![] bcast_S_S8x1 (constant S_ .f32 0x41200000#32)) :=
  ops0_v1 _

theorem W1_v2 : (W1 m c (main_v2 : DevRef τ sig) : S8x1.Idx → Elt F .f32) = tabK (m ((c : Thread nD τ).loc main_arg1)) :=
  (ops1_v2 (W0 m c)).trans ((congrArg lreluK (W0_v1 m c)).trans (tabK_eq _).symm)

theorem W3_v2 : (W3 m c (main_v2 : DevRef τ sig) : S8x1.Idx → Elt F .f32) = tabK (m ((c : Thread nD τ).loc main_arg1)) :=
  (keep3 (W2 m c) (r := main_v2) (by decide)).trans ((keep2 (W1 m c) (r := main_v2) (by decide)).trans (W1_v2 m c))

/-! ### The clamped row words -/

theorem W1_arg6 : (W1 m c (main_arg6 : DevRef τ sig) : S1600000.Idx → Elt F .i32) = (m ((c : Thread nD τ).loc main_arg6)) :=
  (keep1 (W0 m c) (r := main_arg6) (by decide)).trans (keep0 _ (r := main_arg6) (by decide))

theorem W2_v4 : (W2 m c (main_v4 : DevRef τ sig) : S1600000.Idx → Elt F .i32)
    = subi (m ((c : Thread nD τ).loc main_arg6)) (broadcastInDim S1600000 ![] bcast_S_S1600000 (constantI S_ 32 1#32)) := by
  have h := ops2_v4 (W1 m c)
  rw [W1_arg6 m c] at h
  exact h

theorem W2_c0 : (W2 m c (main_c_0 : DevRef τ sig) : S_.Idx → Elt F .i32) = constantI S_ 32 0#32 := ops2_c0 (W1 m c)
theorem W2_c1 : (W2 m c (main_c_1 : DevRef τ sig) : S_.Idx → Elt F .i32) = constantI S_ 32 7#32 := ops2_c1 (W1 m c)

theorem W3_v5 : (W3 m c (main_v5 : DevRef τ sig) : S1600000.Idx → Elt F .i32)
    = (minsi (broadcastInDim S1600000 ![] bcast_S_S1600000 (id (constantI S_ 32 7#32)))
        (maxsi (broadcastInDim S1600000 ![] bcast_S_S1600000 (id (constantI S_ 32 0#32)))
          (subi (m ((c : Thread nD τ).loc main_arg6)) (broadcastInDim S1600000 ![] bcast_S_S1600000 (constantI S_ 32 1#32))))) := by
  have h := ops3_v5 (W2 m c)
  rw [W2_c1 m c, W2_c0 m c, W2_v4 m c] at h
  exact h

/-! ### The weights -/

theorem W4_v6 : (W4 m c (main_v6 : DevRef τ sig) : S1600000x1.Idx → Elt F .f32) = ewK (m ((c : Thread nD τ).loc main_arg1)) (m ((c : Thread nD τ).loc main_arg6)) := by
  have h := ops4_v6 (W3 m c)
  rw [W3_v2 m c, W3_v5 m c] at h
  exact h.trans (ewK_eq_takeK _ _).symm

theorem W7_v6 : (W7 m c (main_v6 : DevRef τ sig) : S1600000x1.Idx → Elt F .f32) = ewK (m ((c : Thread nD τ).loc main_arg1)) (m ((c : Thread nD τ).loc main_arg6)) :=
  (keep7 (W6 m c) (r := main_v6) (by decide)).trans ((keep6 (W5 m c) (r := main_v6) (by decide)).trans
    ((keep5 (W4 m c) (r := main_v6) (by decide)).trans (W4_v6 m c)))

/-! ### The norms -/

theorem W4_arg5 : (W4 m c (main_arg5 : DevRef τ sig) : S1600000.Idx → Elt F .i32) = (m ((c : Thread nD τ).loc main_arg5)) :=
  (keep4 (W3 m c) (r := main_arg5) (by decide)).trans ((keep3 (W2 m c) (r := main_arg5) (by decide)).trans
    ((keep2 (W1 m c) (r := main_arg5) (by decide)).trans ((keep1 (W0 m c) (r := main_arg5) (by decide)).trans
      (keep0 _ (r := main_arg5) (by decide)))))

theorem W5_v10 : (W5 m c (main_v10 : DevRef τ sig) : S100000.Idx → Elt F .f32)
    = Host.scatterAdd scatter_S100000_S1600000x1_S1600000_n_0_0_1
        (broadcastInDim S100000 ![] bcast_S_S100000 (constant S_ .f32 0x00000000#32))
        (broadcastInDim S1600000x1 ![0] bcast_S1600000_S1600000x1_0 (m ((c : Thread nD τ).loc main_arg5)))
        (shapeCast S1600000 (ewK (m ((c : Thread nD τ).loc main_arg1)) (m ((c : Thread nD τ).loc main_arg6))) shapeCasts_S1600000x1_S1600000) := by
  have h := ops5_v10 (W4 m c)
  rw [W4_arg5 m c, W4_v6 m c] at h
  exact h

theorem W5_cst3 : (W5 m c (main_cst_3 : DevRef τ sig) : S_.Idx → Elt F .f32) = constant S_ .f32 0x3F800000#32 := ops5_cst3 (W4 m c)

theorem W7_v13 : (W7 m c (main_v13 : DevRef τ sig) : S100000.Idx → Elt F .f32)
    = nrmK (ewK (m ((c : Thread nD τ).loc main_arg1)) (m ((c : Thread nD τ).loc main_arg6))) (m ((c : Thread nD τ).loc main_arg5)) := by
  have h6 := ops6_v11 (W5 m c)
  rw [W5_cst3 m c, W5_v10 m c] at h6
  have h7 := ops7_v13 (W6 m c)
  rw [show W6 m c (main_v11 : DevRef τ sig) = _ from h6] at h7
  exact h7

/-! ### The bias row -/

theorem W6_arg3 : (W6 m c (main_arg3 : DevRef τ sig) : S64.Idx → Elt F .f32) = (m ((c : Thread nD τ).loc main_arg3)) :=
  (keep6 (W5 m c) (r := main_arg3) (by decide)).trans ((keep5 (W4 m c) (r := main_arg3) (by decide)).trans
    ((keep4 (W3 m c) (r := main_arg3) (by decide)).trans ((keep3 (W2 m c) (r := main_arg3) (by decide)).trans
      ((keep2 (W1 m c) (r := main_arg3) (by decide)).trans ((keep1 (W0 m c) (r := main_arg3) (by decide)).trans
        (keep0 _ (r := main_arg3) (by decide)))))))

theorem W7_v14 : (W7 m c (main_v14 : DevRef τ sig) : S1x64.Idx → Elt F .f32)
    = shapeCast S1x64 (m ((c : Thread nD τ).loc main_arg3)) shapeCasts_S64_S1x64 := by
  have h := ops7_v14 (W6 m c)
  rw [W6_arg3 m c] at h
  exact h

end Values

/-! ## At the region's entry -/

/-- The edge weights. -/
theorem V_v6 (c : Dev nD) : (V m c main_v6 : S1600000x1.Idx → Elt F .f32)
    = ewK (m ((c : Thread nD τ).loc main_arg1)) (m ((c : Thread nD τ).loc main_arg6)) :=
  (congrFun (V0_eq m c) _).trans (W7_v6 m c)

/-- The node norms. -/
theorem V_v13 (c : Dev nD) : (V m c main_v13 : S100000.Idx → Elt F .f32)
    = nrmK (ewK (m ((c : Thread nD τ).loc main_arg1)) (m ((c : Thread nD τ).loc main_arg6))) (m ((c : Thread nD τ).loc main_arg5)) :=
  (congrFun (V0_eq m c) _).trans (W7_v13 m c)

/-- The bias as a row. -/
theorem V_v14 (c : Dev nD) : (V m c main_v14 : S1x64.Idx → Elt F .f32)
    = shapeCast S1x64 (m ((c : Thread nD τ).loc main_arg3)) shapeCasts_S64_S1x64 :=
  (congrFun (V0_eq m c) _).trans (W7_v14 m c)

end Cert.KernelIdeal.Host

end
-- ==== Proof.KernelTail.lean ====
/-
  What the kernel's program holds in its result buffer after the lines that follow the region: the function `outK` of the
  two arrays the region wrote, of the per-edge weights and per-node norms the lines before the region left, and of
  the source and destination words.
-/
import proofs.«409179_j74852690035476_3_alg».proof.Proof.Gen.KernelIdeal.Frame
import proofs.«409179_j74852690035476_3_alg».proof.Proof.KernelDefs
import Idealize.ShloMosaic.Lib.StableHlo.Run

noncomputable section

open Idealize.ShloMosaic Idealize.ShloMosaic.TcCoe Idealize.SL.Sem Idealize.ShloMosaic.StableHlo

namespace Cert.KernelIdeal.Host

open Cert.KernelIdeal Cert.KernelIdeal.Gen

variable {F : FTy → Type} [FloatOps F]
variable (m : (ℓ : Loc nD τ sig) → Buf (Elt F) ℓ)

/-- The lines after the region, read over any contents `W` of the buffers: the result buffer ends at `outK` of the two
    result arrays, the weights, the norms and the two index arrays as `W` holds them. -/
theorem tail_over (W : Valuation τ sig (Elt F)) :
    (StableHlo.after hostOps1 W (Proc.devRef .tc main_v41) : S100000x64.Idx → Elt F .f32)
      = outK (W (Proc.devRef .tc main_v15_0)) (W (Proc.devRef .tc main_v15_1)) (W (Proc.devRef .tc main_v6))
          (W (Proc.devRef .tc main_v13)) (W (Proc.devRef .tc main_arg4)) (W (Proc.devRef .tc main_arg5)) := by
  simp only [hostOps1]
  after_results_simp
  rfl

/-- After the region and the lines that follow it, the result buffer holds `outK` of the two arrays the region wrote and of
    what the lines before the region left. -/
theorem tail_eq (c : Dev nD) :
    (Pipeline.afterTail₀ cfgs (dats m) 0 (V0 m) [hostOps1] c main_v41 : S100000x64.Idx → Elt F .f32)
      = outK ((dats m 0 c).arrAt 3 cfg0.N) ((dats m 0 c).arrAt 4 cfg0.N) (V m c main_v6) (V m c main_v13)
          (V m c main_arg4) (V m c main_arg5) := by
  unfold Pipeline.afterTail₀
  show StableHlo.after hostOps1 _ (Proc.devRef .tc main_v41) = _
  rw [tail_over]
  have h3 := Pipeline.withArrays_arr spec0 launch0.win.arr_inj c (V0 m c) (fun w => (dats m 0 c).arrAt w cfg0.N) 3
  have h4 := Pipeline.withArrays_arr spec0 launch0.win.arr_inj c (V0 m c) (fun w => (dats m 0 c).arrAt w cfg0.N) 4
  have h6 := Pipeline.withArrays_of_ne spec0 c (V0 m c) (fun w => (dats m 0 c).arrAt w cfg0.N) main_v6
    (by exact (by decide : ∀ w, Pipeline.arrRef spec0 w ≠ main_v6))
  have h13 := Pipeline.withArrays_of_ne spec0 c (V0 m c) (fun w => (dats m 0 c).arrAt w cfg0.N) main_v13
    (by exact (by decide : ∀ w, Pipeline.arrRef spec0 w ≠ main_v13))
  have ha4 := Pipeline.withArrays_of_ne spec0 c (V0 m c) (fun w => (dats m 0 c).arrAt w cfg0.N) main_arg4
    (by exact (by decide : ∀ w, Pipeline.arrRef spec0 w ≠ main_arg4))
  have ha5 := Pipeline.withArrays_of_ne spec0 c (V0 m c) (fun w => (dats m 0 c).arrAt w cfg0.N) main_arg5
    (by exact (by decide : ∀ w, Pipeline.arrRef spec0 w ≠ main_arg5))
  exact congr (congr (congr (congr (congr (congrArg outK h3) h4) h6) h13) ha4) ha5

end Cert.KernelIdeal.Host

end
-- ==== Proof.KernelRun.lean ====
/-
  The kernel's run on the extended reals, with its result named.

  The generated frame run leaves every array of the region at what the proof data computes and every other buffer
  at what the lines after the region make of it. Here those are spelled: the two arrays the region wrote are the biased
  product and the product (their row blocks tile the arrays); the lines before the region left the per-edge weights,
  the per-node norms and the reshaped bias; so the result buffer ends at `outK` of all of these, a function of the
  argument arrays alone, and the arguments end unchanged.
-/
import proofs.«409179_j74852690035476_3_alg».proof.Proof.KernelBlocks
import proofs.«409179_j74852690035476_3_alg».proof.Proof.KernelPrefix
import proofs.«409179_j74852690035476_3_alg».proof.Proof.KernelTail

noncomputable section

open Idealize.ShloMosaic Idealize.ShloMosaic.TcCoe Idealize.SL.Sem Idealize.ShloMosaic.StableHlo

namespace Cert.KernelIdeal.Run

open Cert.KernelIdeal Cert.KernelIdeal.Gen Cert.KernelIdeal.Host Cert.KernelIdeal.Blocks

variable (m : (ℓ : Loc nD τ sig) → Buf (Elt Ideal) ℓ) (ρ : Dev nD → PrngReg)

/-- The kernel's result as a function of the argument arrays. -/
def resultK (a0 : FVec Ideal S100000x128 .f32) (a1 : FVec Ideal S8x1 .f32) (a2 : FVec Ideal S128x64 .f32)
    (a3 : FVec Ideal S64 .f32) (a4 a5 a6 : IVec S1600000 32) : FVec Ideal S100000x64 .f32 :=
  outK (biasedArr a0 a2 (shapeCast S1x64 a3 shapeCasts_S64_S1x64)) (prodArr a0 a2) (ewK a1 a6) (nrmK (ewK a1 a6) a5) a4 a5

/-- What the frame run's post says of the result buffer. -/
theorem result_eq (c : Dev nD) :
    (Pipeline.afterTail₀ cfgs (dats m) 0 (V0 m) [hostOps1] c main_v41 : S100000x64.Idx → Elt Ideal .f32)
      = resultK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [tail_eq, final3, final4, V_v6, V_v13, V_v14, V_main_arg0, V_main_arg2, V_main_arg4, V_main_arg5]
  rfl

/-- THE RUN: every weakly fair execution terminates with the result buffer at `resultK` of the arguments, the arguments
    unchanged. -/
theorem run : θ_run defs (onTc (τ := τ) (main (F := Ideal))) ⟨m, fun _ => 0, ρ⟩ (fun r => ∀ c : Dev nD,
      r.2.mem ((c.tc : Thread nD τ).loc main_v41)
        = resultK (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v41 (Pipeline.mem_restRefs_of main_v41 (by decide) (by decide))).trans (result_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Run

end
-- ==== Proof.RefRun.lean ====
import proofs.«409179_j74852690035476_3_alg».proof.ReferenceIdeal
import proofs.«409179_j74852690035476_3_alg».proof.Proof.Gen.ReferenceIdeal
import Idealize.ShloMosaic.Lib.StableHlo.Run
noncomputable section
namespace Cert.ReferenceIdeal.Run
open Cert.ReferenceIdeal Cert.ReferenceIdeal.Gen Idealize.ShloMosaic Idealize.ShloMosaic.TcCoe Idealize.SL.Sem Idealize.ShloMosaic.StableHlo
variable {F : FTy → Type} [FloatOps F]

/-! # The reference's @main as a straight line, and its run

The reference computes, over node features `x` (100000 × 128), a weight `w` (128 × 64), a bias `b` (64), a table of
eight edge-type scales `s` (8 × 1) and 1,600,000 edges given by source, destination and type: the plain product
`x · w`; per edge the leaky-rectified scale `leaky_relu(10 · s)` looked up at the edge's type (one less, wrapped
into range); per destination node the sum of its edges' scales, clipped below at one and inverted; the product of the
rows of `x` scaled by that inverse with `w`, gathered at each edge's source, scaled by the edge's scale and summed
at the edge's destination; and finally that sum plus `x · w` plus the bias broadcast over rows.

Two of its steps are calls of the module's own functions: `leaky_relu` (seven operations, the last of them the
select inside `_where`) and `clip` (three). A call is the callee's body over the call's own buffers, so @main is one
straight line of 58 operations; this module lists them, shows @main equal to running the list, and reads the run
back: every buffer ends at the fold of the operations' results over the launch contents, the seven arguments
untouched. -/

/-- @main's 58 operations in order, the calls unfolded at their call sites: `leaky_relu(10 · s)` is seven (the zero,
    its broadcast, the comparison `≥ 0`, the slope `0.01`, its broadcast, the product, and `_where`'s select into
    `main_v3`), `clip(·, 1)` three (the bound converted to its own type, its broadcast, the maximum into
    `main_v17`); around them @main's own forty-eight. -/
abbrev ops : List (HloOp τ sig (Elt F)) :=
  [ binary main_arg0 main_arg2 main_v0 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_cst (constant S_ .f32 0x41200000#32),
    unary main_cst main_v1 (broadcastInDim S8x1 ![] bcast_S_S8x1 : (⟨S_, .f32⟩ : BufTy).Contents (Elt F) → (⟨S8x1, .f32⟩ : BufTy).Contents (Elt F)),
    binary main_arg1 main_v1 main_v2 (mulf : (⟨S8x1, .f32⟩ : BufTy).Contents (Elt F) → (⟨S8x1, .f32⟩ : BufTy).Contents (Elt F) → (⟨S8x1, .f32⟩ : BufTy).Contents (Elt F)),
    TRef.nullary main_call0.cst (constant S_ .f32 0x00000000#32),
    TRef.unary main_call0.cst main_call0.v0 (broadcastInDim S8x1 ![] bcast_S_S8x1),
    TRef.binary (.of main_v2) main_call0.v0 main_call0.v1 (cmpf .oge),
    TRef.nullary main_call0.cst_0 (constant S_ .f32 0x3C23D70A#32),
    TRef.unary main_call0.cst_0 main_call0.v2 (broadcastInDim S8x1 ![] bcast_S_S8x1),
    TRef.binary main_call0.v2 (.of main_v2) main_call0.v3 mulf,
    TRef.ternary main_call0.v1 (.of main_v2) main_call0.v3 main_call0.call0.v0 select,
    nullary main_c (constantI S_ 32 1#32),
    unary main_c main_v4 (broadcastInDim S1600000 ![] bcast_S_S1600000 : (⟨S_, .i32⟩ : BufTy).Contents (Elt F) → (⟨S1600000, .i32⟩ : BufTy).Contents (Elt F)),
    binary main_arg6 main_v4 main_v5 (subi : (⟨S1600000, .i32⟩ : BufTy).Contents (Elt F) → (⟨S1600000, .i32⟩ : BufTy).Contents (Elt F) → (⟨S1600000, .i32⟩ : BufTy).Contents (Elt F)),
    nullary main_c_0 (constantI S_ 32 0#32),
    unary main_c_0 main_v6 (broadcastInDim S1600000 ![] bcast_S_S1600000 : (⟨S_, .i32⟩ : BufTy).Contents (Elt F) → (⟨S1600000, .i32⟩ : BufTy).Contents (Elt F)),
    binary main_v5 main_v6 main_v7 (cmpi .slt : (⟨S1600000, .i32⟩ : BufTy).Contents (Elt F) → (⟨S1600000, .i32⟩ : BufTy).Contents (Elt F) → (⟨S1600000, .i1⟩ : BufTy).Contents (Elt F)),
    nullary main_c_1 (constantI S_ 32 8#32),
    unary main_c_1 main_v8 (broadcastInDim S1600000 ![] bcast_S_S1600000 : (⟨S_, .i32⟩ : BufTy).Contents (Elt F) → (⟨S1600000, .i32⟩ : BufTy).Contents (Elt F)),
    binary main_v5 main_v8 main_v9 (addi : (⟨S1600000, .i32⟩ : BufTy).Contents (Elt F) → (⟨S1600000, .i32⟩ : BufTy).Contents (Elt F) → (⟨S1600000, .i32⟩ : BufTy).Contents (Elt F)),
    ternary main_v7 main_v9 main_v5 main_v10 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v10 main_v11 (broadcastInDim S1600000x1 ![0] bcast_S1600000_S1600000x1_0 : (⟨S1600000, .i32⟩ : BufTy).Contents (Elt F) → (⟨S1600000x1, .i32⟩ : BufTy).Contents (Elt F)),
    binary main_v3 main_v11 main_v12 ((fun x i => Host.gather gather_S8x1_S1600000x1_S1600000x1_1_0_n_n_0_1_11 x i) : (⟨S8x1, .f32⟩ : BufTy).Contents (Elt F) → (⟨S1600000x1, .i32⟩ : BufTy).Contents (Elt F) → (⟨S1600000x1, .f32⟩ : BufTy).Contents (Elt F)),
    reshape main_v12 main_v13 rfl shapeCasts_S1600000x1_S1600000,
    nullary main_cst_2 (constant S_ .f32 0x00000000#32),
    unary main_cst_2 main_v14 (broadcastInDim S100000 ![] bcast_S_S100000 : (⟨S_, .f32⟩ : BufTy).Contents (Elt F) → (⟨S100000, .f32⟩ : BufTy).Contents (Elt F)),
    unary main_arg5 main_v15 (broadcastInDim S1600000x1 ![0] bcast_S1600000_S1600000x1_0 : (⟨S1600000, .i32⟩ : BufTy).Contents (Elt F) → (⟨S1600000x1, .i32⟩ : BufTy).Contents (Elt F)),
    ternary main_v14 main_v15 main_v13 main_v16 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    TRef.unary (.of main_cst_3) main_call1.v0 id,
    TRef.unary main_call1.v0 main_call1.v1 (broadcastInDim S100000 ![] bcast_S_S100000),
    TRef.binary main_call1.v1 (.of main_v16) main_call1.v2 maximumf,
    nullary main_cst_4 (constant S_ .f32 0x3F800000#32),
    unary main_cst_4 main_v18 (broadcastInDim S100000 ![] bcast_S_S100000 : (⟨S_, .f32⟩ : BufTy).Contents (Elt F) → (⟨S100000, .f32⟩ : BufTy).Contents (Elt F)),
    binary main_v18 main_v17 main_v19 (Host.divf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x128 ![0, 1] bcast_S100000x1_S100000x128_0_1 : (⟨S100000x1, .f32⟩ : BufTy).Contents (Elt F) → (⟨S100000x128, .f32⟩ : BufTy).Contents (Elt F)),
    binary main_arg0 main_v21 main_v22 (mulf : (⟨S100000x128, .f32⟩ : BufTy).Contents (Elt F) → (⟨S100000x128, .f32⟩ : BufTy).Contents (Elt F) → (⟨S100000x128, .f32⟩ : BufTy).Contents (Elt F)),
    binary main_v22 main_arg2 main_v23 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_5 (constantI S_ 32 0#32),
    unary main_c_5 main_v24 (broadcastInDim S1600000 ![] bcast_S_S1600000 : (⟨S_, .i32⟩ : BufTy).Contents (Elt F) → (⟨S1600000, .i32⟩ : BufTy).Contents (Elt F)),
    binary main_arg4 main_v24 main_v25 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v26 (broadcastInDim S1600000 ![] bcast_S_S1600000 : (⟨S_, .i32⟩ : BufTy).Contents (Elt F) → (⟨S1600000, .i32⟩ : BufTy).Contents (Elt F)),
    binary main_arg4 main_v26 main_v27 (addi : (⟨S1600000, .i32⟩ : BufTy).Contents (Elt F) → (⟨S1600000, .i32⟩ : BufTy).Contents (Elt F) → (⟨S1600000, .i32⟩ : BufTy).Contents (Elt F)),
    ternary main_v25 main_v27 main_arg4 main_v28 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v28 main_v29 (broadcastInDim S1600000x1 ![0] bcast_S1600000_S1600000x1_0 : (⟨S1600000, .i32⟩ : BufTy).Contents (Elt F) → (⟨S1600000x1, .i32⟩ : BufTy).Contents (Elt F)),
    binary main_v23 main_v29 main_v30 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v12 main_v31 (broadcastInDim S1600000x64 ![0, 1] bcast_S1600000x1_S1600000x64_0_1 : (⟨S1600000x1, .f32⟩ : BufTy).Contents (Elt F) → (⟨S1600000x64, .f32⟩ : BufTy).Contents (Elt F)),
    binary main_v30 main_v31 main_v32 (mulf : (⟨S1600000x64, .f32⟩ : BufTy).Contents (Elt F) → (⟨S1600000x64, .f32⟩ : BufTy).Contents (Elt F) → (⟨S1600000x64, .f32⟩ : BufTy).Contents (Elt F)),
    nullary main_cst_7 (constant S_ .f32 0x00000000#32),
    unary main_cst_7 main_v33 (broadcastInDim S100000x64 ![] bcast_S_S100000x64 : (⟨S_, .f32⟩ : BufTy).Contents (Elt F) → (⟨S100000x64, .f32⟩ : BufTy).Contents (Elt F)),
    unary main_arg5 main_v34 (broadcastInDim S1600000x1 ![0] bcast_S1600000_S1600000x1_0 : (⟨S1600000, .i32⟩ : BufTy).Contents (Elt F) → (⟨S1600000x1, .i32⟩ : BufTy).Contents (Elt F)),
    ternary main_v33 main_v34 main_v32 main_v35 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v35 main_v0 main_v36 (addf : (⟨S100000x64, .f32⟩ : BufTy).Contents (Elt F) → (⟨S100000x64, .f32⟩ : BufTy).Contents (Elt F) → (⟨S100000x64, .f32⟩ : BufTy).Contents (Elt F)),
    unary main_arg3 main_v37 (broadcastInDim S1x64 ![1] bcast_S64_S1x64_1 : (⟨S64, .f32⟩ : BufTy).Contents (Elt F) → (⟨S1x64, .f32⟩ : BufTy).Contents (Elt F)),
    unary main_v37 main_v38 (broadcastInDim S100000x64 ![0, 1] bcast_S1x64_S100000x64_0_1 : (⟨S1x64, .f32⟩ : BufTy).Contents (Elt F) → (⟨S100000x64, .f32⟩ : BufTy).Contents (Elt F)),
    binary main_v36 main_v38 main_v39 (addf : (⟨S100000x64, .f32⟩ : BufTy).Contents (Elt F) → (⟨S100000x64, .f32⟩ : BufTy).Contents (Elt F) → (⟨S100000x64, .f32⟩ : BufTy).Contents (Elt F)) ]

-- fifty-eight binds to re-associate: the rewriting under the chain recurses once per statement
set_option maxRecDepth 4096 in
/-- @main is that straight line: with the two callees' definitions (and `_where`'s inside `leaky_relu`) unfolded at
    their calls and the calls' records at their fields, both sides are one chain of single steps once sequencing is
    re-associated to the right and the callees' closing `pure` is absorbed. -/
theorem main_eq (c : Dev nD) : main (F := F) c = seq ops := by
  simp only [main, fn_leaky_relu.body, fn_where.body, fn_clip.body, seq, bind_assoc, pure_bind]

/-- The signature declares no scoped buffer: every buffer is a tensor value's, in HBM. -/
theorem scopedRefs_eq : (Finset.univ.filter fun b : Ref sig .tc => b.isScoped) = ∅ := by decide
/-- The signature declares no semaphore at all, so none is scoped. -/
theorem scopedSems_eq : (Finset.univ.filter fun sm : SemLoc sig => sm.isScoped .tc) = ∅ := by decide

/-- Every operation reads and writes TensorCore buffers only. -/
theorem ops_sub : (ops : List (HloOp τ sig (Elt F))).Forall fun op => op.bufs ⊆ tcRefs τ sig :=
  ⟨binary_bufs_sub .., nullary_bufs_sub .., unary_bufs_sub .., binary_bufs_sub ..,
    nullary_bufs_sub .., unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub .., reshape_bufs_sub ..,
    nullary_bufs_sub .., unary_bufs_sub .., unary_bufs_sub .., ternary_bufs_sub .., nullary_bufs_sub ..,
    unary_bufs_sub .., unary_bufs_sub .., binary_bufs_sub ..,
    nullary_bufs_sub .., unary_bufs_sub .., binary_bufs_sub .., unary_bufs_sub .., unary_bufs_sub .., binary_bufs_sub .., binary_bufs_sub ..,
    nullary_bufs_sub .., unary_bufs_sub .., binary_bufs_sub .., nullary_bufs_sub .., unary_bufs_sub .., binary_bufs_sub .., ternary_bufs_sub ..,
    unary_bufs_sub .., binary_bufs_sub .., unary_bufs_sub .., binary_bufs_sub .., nullary_bufs_sub .., unary_bufs_sub .., unary_bufs_sub ..,
    ternary_bufs_sub .., binary_bufs_sub .., unary_bufs_sub .., unary_bufs_sub .., binary_bufs_sub ..⟩

/-- At the compiled mesh, for any float values, from any memory with zero counters: every weakly fair execution of
    @main on the TensorCores terminates, and every final state has each TensorCore buffer at the fold of the
    operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## No operation writes an argument

Each operation writes one buffer, its result's, and the 58 results are 58 distinct buffers, none of them an
argument's. So the fold leaves every buffer outside that list, the seven arguments among them, at its launch
contents. -/

/-- The buffers the operations write, in order: one per operation, its result's. -/
abbrev written : List (Ref sig .tc) :=
  [ main_v0, main_cst, main_v1, main_v2,
    main_call0_cst, main_call0_v0, main_call0_v1, main_call0_cst_0, main_call0_v2, main_call0_v3, main_v3,
    main_c, main_v4, main_v5, main_c_0, main_v6, main_v7, main_c_1, main_v8, main_v9, main_v10, main_v11, main_v12, main_v13,
    main_cst_2, main_v14, main_v15, main_v16, main_cst_3,
    main_call1_v0, main_call1_v1, main_v17,
    main_cst_4, main_v18, main_v19, main_v20, main_v21, main_v22, main_v23,
    main_c_5, main_v24, main_v25, main_c_6, main_v26, main_v27, main_v28, main_v29, main_v30, main_v31, main_v32,
    main_cst_7, main_v33, main_v34, main_v35, main_v36, main_v37, main_v38, main_v39 ]

/-- Every operation writes only buffers of that list (its own result's). -/
theorem ops_writes : (ops : List (HloOp τ sig (Elt F))).Forall fun op =>
    op.writes ⊆ (written.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

/-- A buffer no operation writes is, after the run, as it was. -/
theorem after_of_not_written (V : Valuation τ sig (Elt F)) {r : Ref sig .tc} (h : r ∉ written) :
    after ops V (r : DevRef τ sig) = V (r : DevRef τ sig) :=
  after_of_writes_sub ops V ops_writes h

theorem arg0_eq (V : Valuation τ sig (Elt F)) : after ops V (main_arg0 : DevRef τ sig) = V (main_arg0 : DevRef τ sig) :=
  after_of_not_written V (by decide)
theorem arg1_eq (V : Valuation τ sig (Elt F)) : after ops V (main_arg1 : DevRef τ sig) = V (main_arg1 : DevRef τ sig) :=
  after_of_not_written V (by decide)
theorem arg2_eq (V : Valuation τ sig (Elt F)) : after ops V (main_arg2 : DevRef τ sig) = V (main_arg2 : DevRef τ sig) :=
  after_of_not_written V (by decide)
theorem arg3_eq (V : Valuation τ sig (Elt F)) : after ops V (main_arg3 : DevRef τ sig) = V (main_arg3 : DevRef τ sig) :=
  after_of_not_written V (by decide)
theorem arg4_eq (V : Valuation τ sig (Elt F)) : after ops V (main_arg4 : DevRef τ sig) = V (main_arg4 : DevRef τ sig) :=
  after_of_not_written V (by decide)
theorem arg5_eq (V : Valuation τ sig (Elt F)) : after ops V (main_arg5 : DevRef τ sig) = V (main_arg5 : DevRef τ sig) :=
  after_of_not_written V (by decide)
theorem arg6_eq (V : Valuation τ sig (Elt F)) : after ops V (main_arg6 : DevRef τ sig) = V (main_arg6 : DevRef τ sig) :=
  after_of_not_written V (by decide)

end Cert.ReferenceIdeal.Run

end
-- ==== Proof.RefValue.lean ====
/-
  The reference program as pure functions of the argument arrays.

  The reference scales the 8×1 edge-weight table by 10 and passes it through the leaky rectifier (slope 0.01 below
  zero); an edge's weight is the table at the edge's type minus one (a negative position counted from the end).
  The weights are summed per destination node into the degrees; a node's norm is the reciprocal of max(1, degree).
  Every feature row is scaled by its node's norm and multiplied with the weights; per edge the source's row of
  that product times the edge's weight is summed into the edge's destination node; the unscaled product and the
  bias are added. Each function below is the composition of the printed operations, in order.
-/
import proofs.«409179_j74852690035476_3_alg».proof.Proof.RefRun

noncomputable section

open Idealize.ShloMosaic Idealize.ShloMosaic.TcCoe Idealize.SL.Sem Idealize.ShloMosaic.StableHlo

namespace Cert.ReferenceIdeal.RefValue

open Cert.ReferenceIdeal Cert.ReferenceIdeal.Gen Cert.ReferenceIdeal.Run

variable {F : FTy → Type} [FloatOps F]

/-- The edge-weight table: the argument times 10 through the leaky rectifier. -/
def tabR (a1 : FVec F S8x1 .f32) : FVec F S8x1 .f32 :=
  let x : FVec F S8x1 .f32 := mulf a1 (broadcastInDim S8x1 ![] bcast_S_S8x1 (constant S_ .f32 0x41200000#32))
  select (cmpf .oge x (broadcastInDim S8x1 ![] bcast_S_S8x1 (constant S_ .f32 0x00000000#32))) x
    (mulf (broadcastInDim S8x1 ![] bcast_S_S8x1 (constant S_ .f32 0x3C23D70A#32)) x)

/-- Per edge, the table row the reference reads: the type minus one, a negative word counted from the end. -/
def idxR (a6 : IVec S1600000 32) : IVec S1600000 32 :=
  let d : IVec S1600000 32 := subi a6 (broadcastInDim S1600000 ![] bcast_S_S1600000 (constantI S_ 32 1#32))
  select (cmpi .slt d (broadcastInDim S1600000 ![] bcast_S_S1600000 (constantI S_ 32 0#32)))
    (addi d (broadcastInDim S1600000 ![] bcast_S_S1600000 (constantI S_ 32 8#32))) d

/-- Per edge, its weight. -/
def ewR (a1 : FVec F S8x1 .f32) (a6 : IVec S1600000 32) : FVec F S1600000x1 .f32 :=
  Host.gather gather_S8x1_S1600000x1_S1600000x1_1_0_n_n_0_1_11 (tabR a1)
    (broadcastInDim S1600000x1 ![0] bcast_S1600000_S1600000x1_0 (idxR a6))

/-- Per node, its norm: the reciprocal of max(1, degree). -/
def nrmR (ew : FVec F S1600000x1 .f32) (a5 : IVec S1600000 32) : FVec F S100000 .f32 :=
  let deg : FVec F S100000 .f32 := Host.scatterAdd scatter_S100000_S1600000x1_S1600000_n_0_0_1
    (broadcastInDim S100000 ![] bcast_S_S100000 (constant S_ .f32 0x00000000#32))
    (broadcastInDim S1600000x1 ![0] bcast_S1600000_S1600000x1_0 a5)
    (shapeCast S1600000 ew shapeCasts_S1600000x1_S1600000)
  Host.divf (broadcastInDim S100000 ![] bcast_S_S100000 (constant S_ .f32 0x3F800000#32))
    (maximumf (broadcastInDim S100000 ![] bcast_S_S100000 (id (constant S_ .f32 0x3F800000#32))) deg)

/-- A node index array normalised as possibly negative positions of an axis of length 100000. -/
def wrapN (a : IVec S1600000 32) : IVec S1600000 32 :=
  select (cmpi .slt a (broadcastInDim S1600000 ![] bcast_S_S1600000 (constantI S_ 32 0#32)))
    (addi a (broadcastInDim S1600000 ![] bcast_S_S1600000 (constantI S_ 32 100000#32))) a

/-- The result, from the weights and the norms. -/
def outR (a0 : FVec F S100000x128 .f32) (a2 : FVec F S128x64 .f32) (a3 : FVec F S64 .f32)
    (ew : FVec F S1600000x1 .f32) (nrm : FVec F S100000 .f32) (a4 a5 : IVec S1600000 32) : FVec F S100000x64 .f32 :=
  let scaled : FVec F S100000x128 .f32 := mulf a0
    (broadcastInDim S100000x128 ![0, 1] bcast_S100000x1_S100000x128_0_1 (broadcastInDim S100000x1 ![0] bcast_S100000_S100000x1_0 nrm))
  let h : FVec F S100000x64 .f32 := Host.dotGeneral dot_S100000x128_S128x64_S100000x64_1_0_0_1_n_n none scaled a2
  let hg : FVec F S1600000x64 .f32 := Host.gather gather_S100000x64_S1600000x1_S1600000x64_1_0_n_n_0_1_164 h
    (broadcastInDim S1600000x1 ![0] bcast_S1600000_S1600000x1_0 (wrapN a4))
  let msgs : FVec F S1600000x64 .f32 := mulf hg (broadcastInDim S1600000x64 ![0, 1] bcast_S1600000x1_S1600000x64_0_1 ew)
  let agg : FVec F S100000x64 .f32 := Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 a5) msgs
  addf (addf agg (Host.dotGeneral dot_S100000x128_S128x64_S100000x64_1_0_0_1_n_n none a0 a2))
    (broadcastInDim S100000x64 ![0, 1] bcast_S1x64_S100000x64_0_1 (broadcastInDim S1x64 ![1] bcast_S64_S1x64_1 a3))

/-- The run's fold at the result buffer is that function of the launch contents of the arguments. -/
theorem out_eq (V : Valuation τ sig (Elt F)) :
    (after ops V (main_v39 : DevRef τ sig) : S100000x64.Idx → Elt F .f32)
      = outR (V (main_arg0 : DevRef τ sig)) (V (main_arg2 : DevRef τ sig)) (V (main_arg3 : DevRef τ sig))
          (ewR (V (main_arg1 : DevRef τ sig)) (V (main_arg6 : DevRef τ sig)))
          (nrmR (ewR (V (main_arg1 : DevRef τ sig)) (V (main_arg6 : DevRef τ sig))) (V (main_arg5 : DevRef τ sig)))
          (V (main_arg4 : DevRef τ sig)) (V (main_arg5 : DevRef τ sig)) := by
  after_results_simp
  rfl

end Cert.ReferenceIdeal.RefValue

end
-- ==== Proof.Algebra.lean ====
/-
  Three facts about the extended reals that the comparison of the two programs rests on.

  A factor n with 0 ≤ n < ⊤ distributes over every sum of extended reals (the infinities included), so it comes
  out of a finite sum. The reciprocal of max(1, d) is such a factor whatever d is: max(1, d) lies in [1, ⊤], its
  inverse in [0, 1]. Hence the law that joins the two sides: scaling every feature entry of a row by n before the
  product with the weights, and then multiplying by an edge weight e, is the product of the unscaled row times e · n.
-/
import Idealize.ShloMosaic.PureOps.Ideal
import Idealize.ShloMosaic.Lib.IdealHost

noncomputable section

namespace Cert.Hand.Algebra

open Idealize.ShloMosaic

/-- A factor in [0, ⊤) comes out of a finite sum of extended reals. -/
theorem sum_mul_of_nonneg_ne_top {ι : Type} (s : Finset ι) (a : ι → EReal) {n : EReal} (h0 : 0 ≤ n) (ht : n ≠ ⊤) :
    ∑ k ∈ s, a k * n = (∑ k ∈ s, a k) * n := by
  classical
  induction s using Finset.induction_on with
  | empty => simp
  | insert x s hx ih =>
    rw [Finset.sum_insert hx, Finset.sum_insert hx, ih, EReal.right_distrib_of_nonneg_of_ne_top h0 ht]

/-- The reciprocal of max(1, d) lies in [0, ⊤), whatever the extended real d. -/
theorem div_one_max (d : EReal) : 0 ≤ Ideal.div 1 (max 1 d) ∧ Ideal.div 1 (max 1 d) ≠ ⊤ := by
  have h1 : (1 : EReal) ≤ max 1 d := le_max_left _ _
  have hpos : (0 : EReal) < max 1 d := lt_of_lt_of_le zero_lt_one h1
  unfold Ideal.div
  rw [if_neg hpos.ne', one_mul]
  exact ⟨EReal.inv_nonneg_of_nonneg hpos.le, (EReal.inv_lt_top _).ne⟩

/-- Scaling a row by n in [0, ⊤) before the product with the weights and multiplying by e afterwards is the
    unscaled product times e · n. -/
theorem message_law {K : Nat} (f w : Fin K → EReal) (n e : EReal) (h0 : 0 ≤ n) (ht : n ≠ ⊤) :
    (∑ k : Fin K, (f k * n) * w k) * e = (∑ k : Fin K, f k * w k) * (e * n) := by
  have h : ∀ k : Fin K, (f k * n) * w k = (f k * w k) * n := fun k => by
    rw [mul_assoc, mul_comm n (w k), ← mul_assoc]
  rw [Finset.sum_congr rfl (fun k _ => h k), sum_mul_of_nonneg_ne_top _ _ h0 ht, mul_assoc, mul_comm n e]

end Cert.Hand.Algebra

end
-- ==== Proof.RefFinal.lean ====
import proofs.«409179_j74852690035476_3_alg».proof.Proof.RefValue
import proofs.«409179_j74852690035476_3_alg».proof.Proof.KernelDefs
import proofs.«409179_j74852690035476_3_alg».proof.Proof.Algebra
import Idealize.ShloMosaic.Lib.ValueIdx
import Idealize.ShloMosaic.Lib.IdealHost
noncomputable section
namespace Cert.Hand.RefFinal
open Idealize.ShloMosaic Idealize.ShloMosaic.TcCoe Idealize.SL.Sem Idealize.ShloMosaic.ValueIdx

/-! # The reference's result, named; the norms

A node's norm is `1 / max(1, degree)`, the degree being the sum of the weights of the edges that end at the node.
Both programs compute it from the weights by the same operations. On the extended reals `max(1, d)` lies in
`[1, ⊤]` whatever `d` is — a degree may be any extended real, the infinities included — so its reciprocal lies in
`[0, 1]`: every norm is a factor in `[0, ⊤)`, the kind that distributes over sums. The degree itself is never
opened here: the two facts hold for any array in its place.

The reference's run is then stated with its result named: from any memory, every execution ends with the result
buffer at the reference's value function of the arguments' launch contents, and the seven arguments as launched. -/

/-- The two programs compute the norms from the weights by the same operations. -/
theorem nrm_agree {F : FTy → Type} [FloatOps F] (ew : FVec F ⟨2, ![1600000, 1]⟩ .f32) (a5 : IVec ⟨1, ![1600000]⟩ 32) :
    Cert.KernelIdeal.Host.nrmK ew a5 = Cert.ReferenceIdeal.RefValue.nrmR ew a5 := rfl

section Reference
open Cert.ReferenceIdeal Cert.ReferenceIdeal.Gen Cert.ReferenceIdeal.Run Cert.ReferenceIdeal.RefValue

/-- Per node, its degree: the weights summed at the edges' destination nodes, from zero. -/
def degR {F : FTy → Type} [FloatOps F] (ew : FVec F ⟨2, ![1600000, 1]⟩ .f32) (a5 : IVec ⟨1, ![1600000]⟩ 32) :
    FVec F ⟨1, ![100000]⟩ .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 a5)
    (shapeCast S1600000 ew shapeCasts_S1600000x1_S1600000)

/-- The norms are the elementwise quotient of the splat 1 by the elementwise maximum of the splat 1 and the degrees. -/
theorem nrmR_eq {F : FTy → Type} [FloatOps F] (ew : FVec F ⟨2, ![1600000, 1]⟩ .f32) (a5 : IVec ⟨1, ![1600000]⟩ 32) :
    nrmR ew a5
      = Host.divf (broadcastInDim S100000 ![] bcast_S_S100000 (constant S_ .f32 0x3F800000#32))
          (maximumf (broadcastInDim S100000 ![] bcast_S_S100000 (id (constant S_ .f32 0x3F800000#32))) (degR ew a5)) := rfl

/-- On the extended reals that quotient at node `s` is `1 / max(1, d s)`, for any array `d` in the degrees' place:
    the quotient and the maximum are elementwise, a splat reads its scalar everywhere, and the bit pattern is the real 1. -/
theorem recip_apply (d : FVec Ideal ⟨1, ![100000]⟩ .f32) (s : Fin 100000) :
    Host.divf (broadcastInDim S100000 ![] bcast_S_S100000 (constant S_ .f32 0x3F800000#32))
        (maximumf (broadcastInDim S100000 ![] bcast_S_S100000 (id (constant S_ .f32 0x3F800000#32))) d) (ix1 s)
      = Ideal.div 1 (max 1 (d (ix1 s))) := by
  show Ideal.div (Ideal.ofBits .f32 0x3F800000#32) (max (Ideal.ofBits .f32 0x3F800000#32) (d (ix1 s))) = _
  rw [Ideal.ofBits_one_f32]

/-- On the extended reals every norm is the reciprocal of max(1, degree): it lies in [0, ⊤). -/
theorem nrm_range (ew : FVec Ideal ⟨2, ![1600000, 1]⟩ .f32) (a5 : IVec ⟨1, ![1600000]⟩ 32) (s : Fin 100000) :
    0 ≤ Cert.ReferenceIdeal.RefValue.nrmR ew a5 (ix1 s) ∧ Cert.ReferenceIdeal.RefValue.nrmR ew a5 (ix1 s) ≠ ⊤ := by
  rw [nrmR_eq, recip_apply]
  exact Algebra.div_one_max _

/-- The reference's run: its result buffer ends at `outR` of the arguments' launch contents, the arguments unchanged. -/
theorem ref_run {F : FTy → Type} [FloatOps F] (m : (ℓ : Loc Cert.ReferenceIdeal.nD Cert.ReferenceIdeal.τ Cert.ReferenceIdeal.sig) → Buf (Elt F) ℓ) (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ fun r => ∀ c : Dev Cert.ReferenceIdeal.nD,
      r.2.mem ((c.tc : Thread nD τ).loc main_v39)
        = Cert.ReferenceIdeal.RefValue.outR (m ((c.tc : Thread nD τ).loc main_arg0)) (m ((c.tc : Thread nD τ).loc main_arg2)) (m ((c.tc : Thread nD τ).loc main_arg3))
            (Cert.ReferenceIdeal.RefValue.ewR (m ((c.tc : Thread nD τ).loc main_arg1)) (m ((c.tc : Thread nD τ).loc main_arg6)))
            (Cert.ReferenceIdeal.RefValue.nrmR (Cert.ReferenceIdeal.RefValue.ewR (m ((c.tc : Thread nD τ).loc main_arg1)) (m ((c.tc : Thread nD τ).loc main_arg6))) (m ((c.tc : Thread nD τ).loc main_arg5)))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨(h c main_v39).trans (out_eq (StableHlo.launchContents m c)),
       (h c main_arg0).trans (arg0_eq (StableHlo.launchContents m c)),
       (h c main_arg1).trans (arg1_eq (StableHlo.launchContents m c)),
       (h c main_arg2).trans (arg2_eq (StableHlo.launchContents m c)),
       (h c main_arg3).trans (arg3_eq (StableHlo.launchContents m c)),
       (h c main_arg4).trans (arg4_eq (StableHlo.launchContents m c)),
       (h c main_arg5).trans (arg5_eq (StableHlo.launchContents m c)),
       (h c main_arg6).trans (arg6_eq (StableHlo.launchContents m c))⟩)
    (run_main m ρ)

end Reference

end Cert.Hand.RefFinal

end
-- ==== Proof.LibClampIx.lean ====
/-! # A gather's start index: a 32-bit word read signed and clamped into an axis

StableHLO's gather reads each component of a start index as a signed integer and clamps it into
`[0, size − slice size]`. On an axis of `U` positions whose slice has one position that is
`min (max w 0) (U − 1)`: `Int.toNat` sends the negative words to `0`, `min` cuts at `U − 1`. This file names
that position as an element of `Fin U`, so that two programs gathering along the same axis are seen to read
the same place, and records two facts about words that already lie on the axis. -/

namespace Cert.Hand

/-- The position on an axis of `U` places that the word `w`, read signed, is clamped to. -/
def clampIx (U : Nat) (hU : 0 < U) (w : BitVec 32) : Fin U := ⟨min w.toInt.toNat (U - 1), by omega⟩

theorem clampIx_val (U : Nat) (hU : 0 < U) (w : BitVec 32) :
    (clampIx U hU w).val = min w.toInt.toNat (U - 1) := rfl

/-- A word that lies on the axis is its own clamped position. -/
theorem clampIx_val_of_mem (U : Nat) (hU : 0 < U) (w : BitVec 32) (h0 : 0 ≤ w.toInt) (hlt : w.toInt < (U : Int)) :
    (clampIx U hU w).val = w.toInt.toNat := by
  rw [clampIx_val]
  have : w.toInt.toNat < U := by omega
  omega

/-- As an integer, too. -/
theorem clampIx_val_int_of_mem (U : Nat) (hU : 0 < U) (w : BitVec 32) (h0 : 0 ≤ w.toInt) (hlt : w.toInt < (U : Int)) :
    ((clampIx U hU w).val : Int) = w.toInt := by
  rw [clampIx_val_of_mem U hU w h0 hlt]; omega

/-- A word that is not negative as a signed integer is not signed-below zero. -/
theorem slt_zero_of_nonneg (w : BitVec 32) (h0 : 0 ≤ w.toInt) : BitVec.slt w 0#32 = false := by
  simp only [BitVec.slt, BitVec.toInt_zero]
  exact decide_eq_false (by omega)

/-- The normalisation of a possibly negative position — add the axis' length to a word below zero — leaves a
    word that is not negative alone. -/
theorem wrap_of_nonneg (w u : BitVec 32) (h0 : 0 ≤ w.toInt) : (if BitVec.slt w 0#32 then w + u else w) = w := by
  rw [slt_zero_of_nonneg w h0]; rfl

end Cert.Hand
-- ==== Proof.IndexFacts.lean ====
import proofs.«409179_j74852690035476_3_alg».proof.Proof.LibClampIx
import Idealize.ShloMosaic.PureOps
import Idealize.ShloMosaic.Lib.ReduceAll
import Idealize.ShloMosaic.Lib.Affine
noncomputable section
namespace Cert.Hand.IndexFacts
open Idealize.ShloMosaic

/-! # The two programs' index words

Per edge both programs look a row of an eight-row table up from the edge's type word `w`. Write `d = w − 1`. One
program first clamps `d` into `0 … 7` (a signed maximum with 0, then a signed minimum with 7) and then applies the
"count a negative position from the end" normalisation (add 8 to a word below zero), which does nothing to a clamped
word; the other applies the normalisation to `d` itself. The lookup then reads the word signed and clamps it into
`0 … 7` once more. When `w ≥ 1` the word `d` is not negative, neither normalisation fires, and clamping twice is
clamping once: both read the same row. The node positions get the same normalisation with the axis' length 100000,
again idle on a word that is not negative. Everything here is about single 32-bit words read as signed integers; the
last lemma is the converse of "a conjunction over all elements that is 1 had only 1s": a conjunction of 1s from 1 is 1. -/

/-- The table row word the kernel computes from an edge's type word. -/
def kRow (w : BitVec 32) : BitVec 32 :=
  Scalar.select (IntOp.cmpi .slt (IntOp.minsi 7#32 (IntOp.maxsi 0#32 (IntOp.subi w 1#32))) 0#32)
    (IntOp.addi (IntOp.minsi 7#32 (IntOp.maxsi 0#32 (IntOp.subi w 1#32))) 8#32)
    (IntOp.minsi 7#32 (IntOp.maxsi 0#32 (IntOp.subi w 1#32)))
/-- The table row word the reference computes from an edge's type word. -/
def rRow (w : BitVec 32) : BitVec 32 :=
  Scalar.select (IntOp.cmpi .slt (IntOp.subi w 1#32) 0#32) (IntOp.addi (IntOp.subi w 1#32) 8#32) (IntOp.subi w 1#32)

/-! ## Literals and the signed minimum and maximum, as integers -/

theorem toInt_lit0 : (0#32 : BitVec 32).toInt = 0 := by decide
theorem toInt_lit1 : (1#32 : BitVec 32).toInt = 1 := by decide
theorem toInt_lit7 : (7#32 : BitVec 32).toInt = 7 := by decide

/-- The signed maximum with the word 0 is the integer maximum with 0. -/
theorem toInt_maxsi_zero (d : BitVec 32) : (IntOp.maxsi 0#32 d).toInt = max 0 d.toInt := by
  unfold IntOp.maxsi
  split
  · next h => rw [BitVec.slt_iff_toInt_lt, toInt_lit0] at h; rw [toInt_lit0]; omega
  · next h => rw [BitVec.slt_iff_toInt_lt, toInt_lit0] at h; omega

/-- The signed minimum with the word 7 is the integer minimum with 7. -/
theorem toInt_minsi_seven (m : BitVec 32) : (IntOp.minsi 7#32 m).toInt = min 7 m.toInt := by
  unfold IntOp.minsi
  split
  · next h => rw [BitVec.slt_iff_toInt_lt, toInt_lit7] at h; rw [toInt_lit7]; omega
  · next h => rw [BitVec.slt_iff_toInt_lt, toInt_lit7] at h; omega

/-- A word clamped by those two operations reads, signed, as its integer clamped into `0 … 7`. -/
theorem toInt_clamp (d : BitVec 32) : (IntOp.minsi 7#32 (IntOp.maxsi 0#32 d)).toInt = min 7 (max 0 d.toInt) := by
  rw [toInt_minsi_seven, toInt_maxsi_zero]

/-- One less than a word that is at least 1 is one less as an integer: the subtraction does not wrap. -/
theorem toInt_pred (w : BitVec 32) (h : 1 ≤ w.toInt) : (IntOp.subi w 1#32).toInt = w.toInt - 1 := by
  have hr := Affine.word_range w
  unfold IntOp.subi
  rw [BitVec.toInt_sub, toInt_lit1]
  exact Int.bmod_eq_of_le (by omega) (by omega)

/-! ## The normalisation of a possibly negative position -/

/-- Adding the axis' length `u` to a word below zero leaves a word that is not negative alone. -/
theorem select_wrap_of_nonneg (c u : BitVec 32) (h : 0 ≤ c.toInt) :
    Scalar.select (IntOp.cmpi .slt c 0#32) (IntOp.addi c u) c = c := by
  have hc : IntOp.cmpi .slt c 0#32 ≠ 1#1 := fun e => by
    rw [IntOp.cmpi_slt, toInt_lit0] at e; omega
  unfold Scalar.select
  exact if_neg hc

/-- The clamped word is never below zero, so the kernel's row word is the clamped word. -/
theorem kRow_eq (w : BitVec 32) : kRow w = IntOp.minsi 7#32 (IntOp.maxsi 0#32 (IntOp.subi w 1#32)) :=
  select_wrap_of_nonneg _ _ (by rw [toInt_clamp]; omega)

/-- For a type word that is at least 1 the reference's row word is one less than it. -/
theorem rRow_eq (w : BitVec 32) (h : 1 ≤ w.toInt) : rRow w = IntOp.subi w 1#32 :=
  select_wrap_of_nonneg _ _ (by rw [toInt_pred w h]; omega)

/-- The kernel's row word read signed: `w − 1` clamped into `0 … 7` (with `w − 1` taken as the word it is). -/
theorem toInt_kRow (w : BitVec 32) : (kRow w).toInt = min 7 (max 0 (IntOp.subi w 1#32).toInt) := by
  rw [kRow_eq, toInt_clamp]

/-! ## The same row, in range; the node positions -/

/-- For a type word that is at least 1 the lookup reads the same row from either row word. -/
theorem row_agree (w : BitVec 32) (h : 1 ≤ w.toInt) :
    Cert.Hand.clampIx 8 (by decide) (kRow w) = Cert.Hand.clampIx 8 (by decide) (rRow w) := by
  apply Fin.ext
  rw [Cert.Hand.clampIx_val, Cert.Hand.clampIx_val, toInt_kRow, rRow_eq w h, toInt_pred w h]
  omega

/-- The kernel's row word lies in `0 … 7`, whatever the type word. -/
theorem kRow_inb (w : BitVec 32) :
    IntOp.andi (IntOp.cmpi .sge (kRow w) 0#32) (IntOp.cmpi .sle (kRow w) 7#32) = 1#1 :=
  IntOp.andi_eq_one.2 ⟨IntOp.cmpi_sge.2 (by rw [toInt_lit0, toInt_kRow]; omega),
    IntOp.cmpi_sle.2 (by rw [toInt_lit7, toInt_kRow]; omega)⟩

/-- A node position that is not negative is left alone by the normalisation over 100000 places. -/
theorem wrap_node (w : BitVec 32) (h : 0 ≤ w.toInt) :
    Scalar.select (IntOp.cmpi .slt w 0#32) (IntOp.addi w 100000#32) w = w :=
  select_wrap_of_nonneg w 100000#32 h

/-! ## A conjunction of ones -/

/-- A left fold by `and` over one-bit words that starts at 1 and meets only 1s ends at 1. -/
theorem foldl_andi_ones {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, init, hi, hl =>
    foldl_andi_ones f l _ (IntOp.andi_eq_one.2 ⟨hi, hl a List.mem_cons_self⟩)
      (fun n hn => hl n (List.mem_cons_of_mem _ hn))

/-- A reduction by `and` of an all-ones array from an all-ones initial value is one everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl]
  exact foldl_andi_ones x _ _ (hinit _) (fun i _ => hx i)

end Cert.Hand.IndexFacts

end
-- ==== Proof.LibGatherAt.lean ====
import proofs.«409179_j74852690035476_3_alg».proof.Proof.LibClampIx
import Idealize.ShloMosaic.Lib.ValueIdx

/-! # `stablehlo.gather` read at an index, for four arrangements of axes

`Host.gather d x idx j = x (d.operandIdx j idx)`: on each operand axis the operand index is the clamped start
(the start index's component for that axis, read signed, when the start-index map names the axis) plus the
batching coordinate plus the offset coordinate (the result's own coordinate on an offset axis). Here are the
four arrangements in which every axis is either an offset axis read whole or a collapsed axis named by the
start-index map, there is no batching axis, and the start indices are `[N, 1]` or `[N, 2]` with the index
vector on the last axis. Each lemma is stated over variable extents, for dimension numbers given as a record of
those extents, and says which operand element result element `(l, n)` or `(n, l)` is, with the clamped
positions written as `clampIx`. -/

namespace Cert.Hand

open Idealize.ShloMosaic Idealize.ShloMosaic.ValueIdx

section LUV
variable {α : Type} {L U V N : Nat}

/-- Dimension numbers of a gather that reads, for each of `N` index pairs `(u, v)`, the whole first axis of an
    operand `[L, U, V]` at `(·, u, v)`: the result is `[L, N]`. -/
abbrev dimsLUV (L U V N : Nat)
    (wf : GatherDims.WF ⟨3, ![L, U, V]⟩ ⟨2, ![N, 2]⟩ ⟨2, ![L, N]⟩ [0] [1, 2] [] [1, 2] [] 1 ![L, 1, 1]) :
    GatherDims ⟨3, ![L, U, V]⟩ ⟨2, ![N, 2]⟩ ⟨2, ![L, N]⟩ where
  offsetDims := [0]
  collapsedSliceDims := [1, 2]
  operandBatchingDims := []
  startIndicesBatchingDims := []
  startIndexMap := [1, 2]
  indexVectorDim := 1
  sliceSizes := ![L, 1, 1]
  wf := wf

/-- Result element `(l, n)` is the operand at `(l, u, v)`, where `u` and `v` are the two words of index pair
    `n`, each read signed and clamped into its axis. -/
theorem gather_LUV_apply (hU : 0 < U) (hV : 0 < V)
    (wf : GatherDims.WF ⟨3, ![L, U, V]⟩ ⟨2, ![N, 2]⟩ ⟨2, ![L, N]⟩ [0] [1, 2] [] [1, 2] [] 1 ![L, 1, 1])
    (x : (⟨3, ![L, U, V]⟩ : Shape).Idx → α) (idx : IVec ⟨2, ![N, 2]⟩ 32) (l : Fin L) (n : Fin N) :
    Host.gather (dimsLUV L U V N wf) x idx (ix2 l n)
      = x (ix3 l (clampIx U hU (idx (ix2 n 0))) (clampIx V hV (idx (ix2 n 1)))) := by
  unfold Host.gather
  congr 1
  funext a
  refine Fin.ext ?_
  match a with
  | ⟨0, h0⟩ =>
    -- the first axis is the offset axis: no start, the result's own first coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨0, h0⟩ : Fin 3) ∉ (dimsLUV L U V N wf).startIndexMap from
      (by decide : (0 : Fin 3) ∉ ([1, 2] : List (Fin 3))))]
    unfold GatherDims.offCoord
    rw [dif_pos (show (⟨0, h0⟩ : Fin 3) ∈ (dimsLUV L U V N wf).sKept from
      (by decide : (0 : Fin 3) ∈ ([0] : List (Fin 3))))]
    rw [Nat.add_zero, Nat.zero_add]
    rfl
  | ⟨1, h1⟩ =>
    -- the second axis is collapsed and is the start index's first component
    show GatherDims.start _ _ _ _ + GatherDims.batchCoord _ _ _ + GatherDims.offCoord _ _ _ = _
    have hm : (⟨1, h1⟩ : Fin 3) ∈ (dimsLUV L U V N wf).startIndexMap :=
      (by decide : (1 : Fin 3) ∈ ([1, 2] : List (Fin 3)))
    rw [GatherDims.batchCoord_eq_zero _ _ _ List.not_mem_nil,
      GatherDims.offCoord_eq_zero _ _ _ (show (⟨1, h1⟩ : Fin 3) ∉ (dimsLUV L U V N wf).sKept from
        (by decide : (1 : Fin 3) ∉ ([0] : List (Fin 3))))]
    unfold GatherDims.start
    rw [dif_pos hm]
    have hsi : (dimsLUV L U V N wf).siIdx (ix2 l n)
        ⟨List.idxOf (⟨1, h1⟩ : Fin 3) (dimsLUV L U V N wf).startIndexMap, List.idxOf_lt_length_iff.2 hm⟩
          = ix2 n 0 := by
      funext b; refine Fin.ext ?_
      match b with
      | ⟨0, _⟩ => rfl
      | ⟨1, _⟩ => rfl
    rw [hsi]
    rfl
  | ⟨2, h2⟩ =>
    -- the third axis is collapsed and is the start index's second component
    show GatherDims.start _ _ _ _ + GatherDims.batchCoord _ _ _ + GatherDims.offCoord _ _ _ = _
    have hm : (⟨2, h2⟩ : Fin 3) ∈ (dimsLUV L U V N wf).startIndexMap :=
      (by decide : (2 : Fin 3) ∈ ([1, 2] : List (Fin 3)))
    rw [GatherDims.batchCoord_eq_zero _ _ _ List.not_mem_nil,
      GatherDims.offCoord_eq_zero _ _ _ (show (⟨2, h2⟩ : Fin 3) ∉ (dimsLUV L U V N wf).sKept from
        (by decide : (2 : Fin 3) ∉ ([0] : List (Fin 3))))]
    unfold GatherDims.start
    rw [dif_pos hm]
    have hsi : (dimsLUV L U V N wf).siIdx (ix2 l n)
        ⟨List.idxOf (⟨2, h2⟩ : Fin 3) (dimsLUV L U V N wf).startIndexMap, List.idxOf_lt_length_iff.2 hm⟩
          = ix2 n 1 := by
      funext b; refine Fin.ext ?_
      match b with
      | ⟨0, _⟩ => rfl
      | ⟨1, _⟩ => rfl
    rw [hsi]
    rfl

end LUV

section LU
variable {α : Type} {L U N : Nat}

/-- Dimension numbers of a gather that reads, for each of `N` indices `u`, the whole first axis of an operand
    `[L, U]` at `(·, u)`: the result is `[L, N]`. -/
abbrev dimsLU (L U N : Nat)
    (wf : GatherDims.WF ⟨2, ![L, U]⟩ ⟨2, ![N, 1]⟩ ⟨2, ![L, N]⟩ [0] [1] [] [1] [] 1 ![L, 1]) :
    GatherDims ⟨2, ![L, U]⟩ ⟨2, ![N, 1]⟩ ⟨2, ![L, N]⟩ where
  offsetDims := [0]
  collapsedSliceDims := [1]
  operandBatchingDims := []
  startIndicesBatchingDims := []
  startIndexMap := [1]
  indexVectorDim := 1
  sliceSizes := ![L, 1]
  wf := wf

/-- Result element `(l, n)` is the operand at `(l, u)`, where `u` is index word `n` read signed and clamped
    into the second axis. -/
theorem gather_LU_apply (hU : 0 < U)
    (wf : GatherDims.WF ⟨2, ![L, U]⟩ ⟨2, ![N, 1]⟩ ⟨2, ![L, N]⟩ [0] [1] [] [1] [] 1 ![L, 1])
    (x : (⟨2, ![L, U]⟩ : Shape).Idx → α) (idx : IVec ⟨2, ![N, 1]⟩ 32) (l : Fin L) (n : Fin N) :
    Host.gather (dimsLU L U N wf) x idx (ix2 l n) = x (ix2 l (clampIx U hU (idx (ix2 n 0)))) := by
  unfold Host.gather
  congr 1
  funext a
  refine Fin.ext ?_
  match a with
  | ⟨0, h0⟩ =>
    -- the first axis is the offset axis: no start, the result's own first coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨0, h0⟩ : Fin 2) ∉ (dimsLU L U N wf).startIndexMap from
      (by decide : (0 : Fin 2) ∉ ([1] : List (Fin 2))))]
    unfold GatherDims.offCoord
    rw [dif_pos (show (⟨0, h0⟩ : Fin 2) ∈ (dimsLU L U N wf).sKept from
      (by decide : (0 : Fin 2) ∈ ([0] : List (Fin 2))))]
    rw [Nat.add_zero, Nat.zero_add]
    rfl
  | ⟨1, h1⟩ =>
    -- the second axis is collapsed and is the start index's one component
    show GatherDims.start _ _ _ _ + GatherDims.batchCoord _ _ _ + GatherDims.offCoord _ _ _ = _
    have hm : (⟨1, h1⟩ : Fin 2) ∈ (dimsLU L U N wf).startIndexMap :=
      (by decide : (1 : Fin 2) ∈ ([1] : List (Fin 2)))
    rw [GatherDims.batchCoord_eq_zero _ _ _ List.not_mem_nil,
      GatherDims.offCoord_eq_zero _ _ _ (show (⟨1, h1⟩ : Fin 2) ∉ (dimsLU L U N wf).sKept from
        (by decide : (1 : Fin 2) ∉ ([0] : List (Fin 2))))]
    unfold GatherDims.start
    rw [dif_pos hm]
    have hsi : (dimsLU L U N wf).siIdx (ix2 l n)
        ⟨List.idxOf (⟨1, h1⟩ : Fin 2) (dimsLU L U N wf).startIndexMap, List.idxOf_lt_length_iff.2 hm⟩
          = ix2 n 0 := by
      funext b; refine Fin.ext ?_
      match b with
      | ⟨0, _⟩ => rfl
      | ⟨1, _⟩ => rfl
    rw [hsi]
    rfl

end LU

section UL
variable {α : Type} {U L N : Nat}

/-- Dimension numbers of a gather that reads, for each of `N` indices `u`, row `u` of an operand `[U, L]`:
    the result is `[N, L]`. -/
abbrev dimsUL (U L N : Nat)
    (wf : GatherDims.WF ⟨2, ![U, L]⟩ ⟨2, ![N, 1]⟩ ⟨2, ![N, L]⟩ [1] [0] [] [0] [] 1 ![1, L]) :
    GatherDims ⟨2, ![U, L]⟩ ⟨2, ![N, 1]⟩ ⟨2, ![N, L]⟩ where
  offsetDims := [1]
  collapsedSliceDims := [0]
  operandBatchingDims := []
  startIndicesBatchingDims := []
  startIndexMap := [0]
  indexVectorDim := 1
  sliceSizes := ![1, L]
  wf := wf

/-- Result element `(n, l)` is the operand at `(u, l)`, where `u` is index word `n` read signed and clamped
    into the first axis. -/
theorem gather_UL_apply (hU : 0 < U)
    (wf : GatherDims.WF ⟨2, ![U, L]⟩ ⟨2, ![N, 1]⟩ ⟨2, ![N, L]⟩ [1] [0] [] [0] [] 1 ![1, L])
    (x : (⟨2, ![U, L]⟩ : Shape).Idx → α) (idx : IVec ⟨2, ![N, 1]⟩ 32) (n : Fin N) (l : Fin L) :
    Host.gather (dimsUL U L N wf) x idx (ix2 n l) = x (ix2 (clampIx U hU (idx (ix2 n 0))) l) := by
  unfold Host.gather
  congr 1
  funext a
  refine Fin.ext ?_
  match a with
  | ⟨0, h0⟩ =>
    -- the first axis is collapsed and is the start index's one component
    show GatherDims.start _ _ _ _ + GatherDims.batchCoord _ _ _ + GatherDims.offCoord _ _ _ = _
    have hm : (⟨0, h0⟩ : Fin 2) ∈ (dimsUL U L N wf).startIndexMap :=
      (by decide : (0 : Fin 2) ∈ ([0] : List (Fin 2)))
    rw [GatherDims.batchCoord_eq_zero _ _ _ List.not_mem_nil,
      GatherDims.offCoord_eq_zero _ _ _ (show (⟨0, h0⟩ : Fin 2) ∉ (dimsUL U L N wf).sKept from
        (by decide : (0 : Fin 2) ∉ ([1] : List (Fin 2))))]
    unfold GatherDims.start
    rw [dif_pos hm]
    have hsi : (dimsUL U L N wf).siIdx (ix2 n l)
        ⟨List.idxOf (⟨0, h0⟩ : Fin 2) (dimsUL U L N wf).startIndexMap, List.idxOf_lt_length_iff.2 hm⟩
          = ix2 n 0 := by
      funext b; refine Fin.ext ?_
      match b with
      | ⟨0, _⟩ => rfl
      | ⟨1, _⟩ => rfl
    rw [hsi]
    rfl
  | ⟨1, h1⟩ =>
    -- the second axis is the offset axis: no start, the result's own second coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨1, h1⟩ : Fin 2) ∉ (dimsUL U L N wf).startIndexMap from
      (by decide : (1 : Fin 2) ∉ ([0] : List (Fin 2))))]
    unfold GatherDims.offCoord
    rw [dif_pos (show (⟨1, h1⟩ : Fin 2) ∈ (dimsUL U L N wf).sKept from
      (by decide : (1 : Fin 2) ∈ ([1] : List (Fin 2))))]
    rw [Nat.add_zero, Nat.zero_add]
    rfl

end UL

section UVL
variable {α : Type} {U V L N : Nat}

/-- Dimension numbers of a gather that reads, for each of `N` index pairs `(u, v)`, the whole last axis of an
    operand `[U, V, L]` at `(u, v, ·)`: the result is `[N, L]`. -/
abbrev dimsUVL (U V L N : Nat)
    (wf : GatherDims.WF ⟨3, ![U, V, L]⟩ ⟨2, ![N, 2]⟩ ⟨2, ![N, L]⟩ [1] [0, 1] [] [0, 1] [] 1 ![1, 1, L]) :
    GatherDims ⟨3, ![U, V, L]⟩ ⟨2, ![N, 2]⟩ ⟨2, ![N, L]⟩ where
  offsetDims := [1]
  collapsedSliceDims := [0, 1]
  operandBatchingDims := []
  startIndicesBatchingDims := []
  startIndexMap := [0, 1]
  indexVectorDim := 1
  sliceSizes := ![1, 1, L]
  wf := wf

/-- Result element `(n, l)` is the operand at `(u, v, l)`, where `u` and `v` are the two words of index pair
    `n`, each read signed and clamped into its axis. -/
theorem gather_UVL_apply (hU : 0 < U) (hV : 0 < V)
    (wf : GatherDims.WF ⟨3, ![U, V, L]⟩ ⟨2, ![N, 2]⟩ ⟨2, ![N, L]⟩ [1] [0, 1] [] [0, 1] [] 1 ![1, 1, L])
    (x : (⟨3, ![U, V, L]⟩ : Shape).Idx → α) (idx : IVec ⟨2, ![N, 2]⟩ 32) (n : Fin N) (l : Fin L) :
    Host.gather (dimsUVL U V L N wf) x idx (ix2 n l)
      = x (ix3 (clampIx U hU (idx (ix2 n 0))) (clampIx V hV (idx (ix2 n 1))) l) := by
  unfold Host.gather
  congr 1
  funext a
  refine Fin.ext ?_
  match a with
  | ⟨0, h0⟩ =>
    -- the first axis is collapsed and is the start index's first component
    show GatherDims.start _ _ _ _ + GatherDims.batchCoord _ _ _ + GatherDims.offCoord _ _ _ = _
    have hm : (⟨0, h0⟩ : Fin 3) ∈ (dimsUVL U V L N wf).startIndexMap :=
      (by decide : (0 : Fin 3) ∈ ([0, 1] : List (Fin 3)))
    rw [GatherDims.batchCoord_eq_zero _ _ _ List.not_mem_nil,
      GatherDims.offCoord_eq_zero _ _ _ (show (⟨0, h0⟩ : Fin 3) ∉ (dimsUVL U V L N wf).sKept from
        (by decide : (0 : Fin 3) ∉ ([2] : List (Fin 3))))]
    unfold GatherDims.start
    rw [dif_pos hm]
    have hsi : (dimsUVL U V L N wf).siIdx (ix2 n l)
        ⟨List.idxOf (⟨0, h0⟩ : Fin 3) (dimsUVL U V L N wf).startIndexMap, List.idxOf_lt_length_iff.2 hm⟩
          = ix2 n 0 := by
      funext b; refine Fin.ext ?_
      match b with
      | ⟨0, _⟩ => rfl
      | ⟨1, _⟩ => rfl
    rw [hsi]
    rfl
  | ⟨1, h1⟩ =>
    -- the second axis is collapsed and is the start index's second component
    show GatherDims.start _ _ _ _ + GatherDims.batchCoord _ _ _ + GatherDims.offCoord _ _ _ = _
    have hm : (⟨1, h1⟩ : Fin 3) ∈ (dimsUVL U V L N wf).startIndexMap :=
      (by decide : (1 : Fin 3) ∈ ([0, 1] : List (Fin 3)))
    rw [GatherDims.batchCoord_eq_zero _ _ _ List.not_mem_nil,
      GatherDims.offCoord_eq_zero _ _ _ (show (⟨1, h1⟩ : Fin 3) ∉ (dimsUVL U V L N wf).sKept from
        (by decide : (1 : Fin 3) ∉ ([2] : List (Fin 3))))]
    unfold GatherDims.start
    rw [dif_pos hm]
    have hsi : (dimsUVL U V L N wf).siIdx (ix2 n l)
        ⟨List.idxOf (⟨1, h1⟩ : Fin 3) (dimsUVL U V L N wf).startIndexMap, List.idxOf_lt_length_iff.2 hm⟩
          = ix2 n 1 := by
      funext b; refine Fin.ext ?_
      match b with
      | ⟨0, _⟩ => rfl
      | ⟨1, _⟩ => rfl
    rw [hsi]
    rfl
  | ⟨2, h2⟩ =>
    -- the third axis is the offset axis: no start, the result's own second coordinate
    show GatherDims.start _ _ _ _ + GatherDims.batchCoord _ _ _ + GatherDims.offCoord _ _ _ = _
    rw [GatherDims.batchCoord_eq_zero _ _ _ List.not_mem_nil]
    unfold GatherDims.start
    rw [dif_neg (show (⟨2, h2⟩ : Fin 3) ∉ (dimsUVL U V L N wf).startIndexMap from
      (by decide : (2 : Fin 3) ∉ ([0, 1] : List (Fin 3))))]
    unfold GatherDims.offCoord
    rw [dif_pos (show (⟨2, h2⟩ : Fin 3) ∈ (dimsUVL U V L N wf).sKept from
      (by decide : (2 : Fin 3) ∈ ([2] : List (Fin 3))))]
    rw [Nat.add_zero, Nat.zero_add]
    rfl

end UVL

end Cert.Hand
-- ==== Proof.LibLayoutIx.lean ====
/-
  LAYOUT OPERATIONS OF A HOST PROGRAM READ AT AN INDEX BUILT FROM COORDINATES — general lemmas, about no particular
  program.

  Each lemma rewrites ONE layout operation of StableHLO — `broadcastInDim`, `extractStridedSlice`, `shapeCast`,
  `transpose`, `concatenate` — applied at an index written by its coordinates (`ValueIdx.ix0` … `ix3`) to its operand
  at the index it reads, again written by coordinates. The equations are oriented left to right for `simp only`: a
  chain of layout operations applied at `ix2 n c` is pushed down to the operand's element, one rewrite per operation.
  Shapes are LITERAL (`⟨rank, ![…]⟩`), their extents variables wherever no unit axis is involved, so one lemma serves
  every program whose shapes are reducible abbreviations of such literals; the operation's side condition
  (`Shape.Slices`, `ShapeCasts`, `BroadcastsInDim`, `Transposes`, `Concatenates`) is ANY proof `h`, bound as a variable.

  What is proved:
  * a rank-0 operand broadcast to any shape reads its one element (`broadcastInDim_scalar`);
  * a rank-1 operand broadcast into a column `[N, 1]` or a row `[1, N]` reads its coordinate (`broadcastInDim_col`,
    `broadcastInDim_row`); a row `[1, N]` stretched to `[R, N]` and a column `[N, 1]` stretched to `[N, C]` read the
    unit axis at 0 (`broadcastInDim_rows`, `broadcastInDim_cols`);
  * column `k` of an `[N, C]` array and row `k` of an `[R, N]` array, sliced out as `[N, 1]` / `[1, N]`
    (`extractStridedSlice_col`, `extractStridedSlice_row`);
  * a column or a row reshaped to rank 1 (`shapeCast_col`, `shapeCast_row`), and a `[U, V, L]` table flattened to
    `[U * V, L]`, read at row `f` as `(f / V, f % V)` (`shapeCast_table`, and `shapeCast_table_2048` at the literal 4194304);
  * the transposes `[1, 0]` of rank 2 and `[2, 0, 1]` of rank 3 (`transpose_10`, `transpose_201`);
  * two columns joined along axis 1 (`concatenate_cols_zero`, `concatenate_cols_one`) and twelve rows joined along axis 0:
    row `r` is piece `r`, for the index `ix2 ⟨r, hr⟩ n` (`concatenate_rows12_0` … `_11`), for `r` a numeral of `Fin 12`
    (`concatenate_rows12_num_0` … `_11`) and for any `r` (`concatenate_rows12`, the piece picked out of `![u0, …, u11]`);
  * pointwise host operations read at an index, all by `rfl`: the host's quotient, floor, absolute value and
    round-half-even at the ideal instance, the float-to-integer conversion there, and the integer splat, sum, product,
    signed minimum and comparison.
-/
import Idealize.ShloMosaic.Lib.ValueIdx
import Idealize.ShloMosaic.Lib.Pipeline.Value

namespace Cert.LibLayoutIx

open Idealize.ShloMosaic Idealize.ShloMosaic.ValueIdx

variable {α : Type}

/-! ## Broadcasts -/

/-- A rank-0 operand broadcast to ANY shape reads its one element at every index (`dims` is the empty map). -/
theorem broadcastInDim_scalar (t : Shape) (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A rank-1 operand laid down as the COLUMN `[N, 1]` reads its coordinate `n` at `(n, k)`. (When `N = 1` the
    operand's axis counts as a unit axis and is read at 0, which is then `n`.) The axis map is written at the literal
    ranks, `Fin 1 → Fin 2`, the form under which the simplifier finds the equation from a shape given by name. -/
theorem broadcastInDim_col {N : Nat} (h : (⟨1, ![N]⟩ : Shape).BroadcastsInDim ⟨2, ![N, 1]⟩ (![0] : Fin 1 → Fin 2))
    (x : (⟨1, ![N]⟩ : Shape).Idx → α) (n : Fin N) (k : Fin 1) :
    broadcastInDim ⟨2, ![N, 1]⟩ (![0] : Fin 1 → Fin 2) h x (ix2 n k) = x (ix1 n) :=
  broadcastInDim_apply _ h x _ (ix1 n) (fun a => match a with
    | ⟨0, _⟩ => by
      have hn := n.isLt
      show n.val = if N = 1 then 0 else n.val
      split
      · omega
      · rfl)

/-- A rank-1 operand laid down as the ROW `[1, N]` reads its coordinate `n` at `(k, n)`. -/
theorem broadcastInDim_row {N : Nat} (h : (⟨1, ![N]⟩ : Shape).BroadcastsInDim ⟨2, ![1, N]⟩ (![1] : Fin 1 → Fin 2))
    (x : (⟨1, ![N]⟩ : Shape).Idx → α) (k : Fin 1) (n : Fin N) :
    broadcastInDim ⟨2, ![1, N]⟩ (![1] : Fin 1 → Fin 2) h x (ix2 k n) = x (ix1 n) :=
  broadcastInDim_apply _ h x _ (ix1 n) (fun a => match a with
    | ⟨0, _⟩ => by
      have hn := n.isLt
      show n.val = if N = 1 then 0 else n.val
      split
      · omega
      · rfl)

/-- A ROW `[1, N]` stretched to `[R, N]` reads the row at `(0, n)`, whatever the row `r` asked for. -/
theorem broadcastInDim_rows {R N : Nat}
    (h : (⟨2, ![1, N]⟩ : Shape).BroadcastsInDim ⟨2, ![R, N]⟩ (![0, 1] : Fin 2 → Fin 2))
    (x : (⟨2, ![1, N]⟩ : Shape).Idx → α) (r : Fin R) (n : Fin N) :
    broadcastInDim ⟨2, ![R, N]⟩ (![0, 1] : Fin 2 → Fin 2) h x (ix2 r n) = x (ix2 0 n) :=
  broadcastInDim_apply _ h x _ (ix2 0 n) (fun a => match a with
    | ⟨0, _⟩ => by
      show (0 : Nat) = if (1 : Nat) = 1 then 0 else r.val
      rfl
    | ⟨1, _⟩ => by
      have hn := n.isLt
      show n.val = if N = 1 then 0 else n.val
      split
      · omega
      · rfl)

/-- A COLUMN `[N, 1]` stretched to `[N, C]` reads the column at `(n, 0)`, whatever the column `c` asked for. -/
theorem broadcastInDim_cols {N C : Nat}
    (h : (⟨2, ![N, 1]⟩ : Shape).BroadcastsInDim ⟨2, ![N, C]⟩ (![0, 1] : Fin 2 → Fin 2))
    (x : (⟨2, ![N, 1]⟩ : Shape).Idx → α) (n : Fin N) (c : Fin C) :
    broadcastInDim ⟨2, ![N, C]⟩ (![0, 1] : Fin 2 → Fin 2) h x (ix2 n c) = x (ix2 n 0) :=
  broadcastInDim_apply _ h x _ (ix2 n 0) (fun a => match a with
    | ⟨0, _⟩ => by
      have hn := n.isLt
      show n.val = if N = 1 then 0 else n.val
      split
      · omega
      · rfl
    | ⟨1, _⟩ => by
      show (0 : Nat) = if (1 : Nat) = 1 then 0 else c.val
      rfl)

/-! ## Slices -/

/-- The column a slice `[N, 1]` at offsets `(0, k)` of an `[N, C]` array takes is inside the array. -/
theorem slice_col_lt {N C k : Nat} (h : (⟨2, ![N, C]⟩ : Shape).Slices ![0, k] ⟨2, ![N, 1]⟩) : k < C := by
  have h1 := h.2 ⟨1, Nat.one_lt_two⟩
  change k + 1 ≤ C at h1
  omega

/-- COLUMN `k` of an `[N, C]` array, sliced out as `[N, 1]`, reads the array at `(n, k)`. -/
theorem extractStridedSlice_col {N C k : Nat} (x : (⟨2, ![N, C]⟩ : Shape).Idx → α)
    (h : (⟨2, ![N, C]⟩ : Shape).Slices ![0, k] ⟨2, ![N, 1]⟩) (n : Fin N) (z : Fin 1) :
    extractStridedSlice ⟨2, ![N, 1]⟩ ![0, k] x h (ix2 n z) = x (ix2 n ⟨k, slice_col_lt h⟩) :=
  extractStridedSlice_apply _ x h _ _ (fun a => match a with
    | ⟨0, _⟩ => by show n.val = 0 + n.val; omega
    | ⟨1, _⟩ => by have hz := z.isLt; show k = k + z.val; omega)

/-- The row a slice `[1, N]` at offsets `(k, 0)` of an `[R, N]` array takes is inside the array. -/
theorem slice_row_lt {R N k : Nat} (h : (⟨2, ![R, N]⟩ : Shape).Slices ![k, 0] ⟨2, ![1, N]⟩) : k < R := by
  have h0 := h.2 ⟨0, Nat.two_pos⟩
  change k + 1 ≤ R at h0
  omega

/-- ROW `k` of an `[R, N]` array, sliced out as `[1, N]`, reads the array at `(k, n)`. -/
theorem extractStridedSlice_row {R N k : Nat} (x : (⟨2, ![R, N]⟩ : Shape).Idx → α)
    (h : (⟨2, ![R, N]⟩ : Shape).Slices ![k, 0] ⟨2, ![1, N]⟩) (z : Fin 1) (n : Fin N) :
    extractStridedSlice ⟨2, ![1, N]⟩ ![k, 0] x h (ix2 z n) = x (ix2 ⟨k, slice_row_lt h⟩ n) :=
  extractStridedSlice_apply _ x h _ _ (fun a => match a with
    | ⟨0, _⟩ => by have hz := z.isLt; show k = k + z.val; omega
    | ⟨1, _⟩ => by show n.val = 0 + n.val; omega)

/-! ## Reshapes -/

/-- A column `[N, 1]` reshaped to rank 1 reads `(n, 0)` at `n`. -/
theorem shapeCast_col {N : Nat} (x : (⟨2, ![N, 1]⟩ : Shape).Idx → α)
    (h : (⟨2, ![N, 1]⟩ : Shape).ShapeCasts ⟨1, ![N]⟩) (n : Fin N) :
    shapeCast ⟨1, ![N]⟩ x h (ix1 n) = x (ix2 n 0) :=
  shapeCast_apply x h _ (ix2 n 0) (by
    rw [Shape.rowMajor_val_two, Shape.rowMajor_val_one]
    show n.val * 1 + 0 = n.val
    omega)

/-- A row `[1, N]` reshaped to rank 1 reads `(0, n)` at `n`. -/
theorem shapeCast_row {N : Nat} (x : (⟨2, ![1, N]⟩ : Shape).Idx → α)
    (h : (⟨2, ![1, N]⟩ : Shape).ShapeCasts ⟨1, ![N]⟩) (n : Fin N) :
    shapeCast ⟨1, ![N]⟩ x h (ix1 n) = x (ix2 0 n) :=
  shapeCast_apply x h _ (ix2 0 n) (by
    rw [Shape.rowMajor_val_two, Shape.rowMajor_val_one]
    show 0 * N + n.val = n.val
    omega)

/-- A row `m` of the flattened table lies in block `m / V`, which is one of the `U` blocks. -/
theorem table_div_lt {U V m : Nat} (hm : m < U * V) : m / V < U :=
  Nat.div_lt_of_lt_mul (Nat.mul_comm U V ▸ hm)

/-- A row `m` of the flattened table is row `m % V` of its block (a nonempty table has `0 < V`). -/
theorem table_mod_lt {U V m : Nat} (hm : m < U * V) : m % V < V := by
  rcases Nat.eq_zero_or_pos V with h0 | hV
  · rw [h0, Nat.mul_zero] at hm; exact absurd hm (Nat.not_lt_zero _)
  · exact Nat.mod_lt _ hV

/-- A `[U, V, L]` table FLATTENED to `[U * V, L]`: row `f` of the result is row `f % V` of block `f / V`. -/
theorem shapeCast_table {U V L : Nat} (x : (⟨3, ![U, V, L]⟩ : Shape).Idx → α)
    (h : (⟨3, ![U, V, L]⟩ : Shape).ShapeCasts ⟨2, ![U * V, L]⟩) (f : Fin (U * V)) (l : Fin L) :
    shapeCast ⟨2, ![U * V, L]⟩ x h (ix2 f l)
      = x (ix3 ⟨f.val / V, table_div_lt f.isLt⟩ ⟨f.val % V, table_mod_lt f.isLt⟩ l) :=
  shapeCast_apply x h _ _ (by
    rw [Shape.rowMajor_val_three, Shape.rowMajor_val_two]
    show (f.val / V * V + f.val % V) * L + l.val = f.val * L + l.val
    rw [Nat.div_add_mod'])

/-- The same with the row count written out, `2048 * 2048 = 4194304`, and two lanes: the form that matches a target
    shape given as the literal `[4194304, 2]`. -/
theorem shapeCast_table_2048 (x : (⟨3, ![2048, 2048, 2]⟩ : Shape).Idx → α)
    (h : (⟨3, ![2048, 2048, 2]⟩ : Shape).ShapeCasts ⟨2, ![4194304, 2]⟩) (f : Fin 4194304) (l : Fin 2) :
    shapeCast ⟨2, ![4194304, 2]⟩ x h (ix2 f l)
      = x (ix3 ⟨f.val / 2048, by have := f.isLt; omega⟩ ⟨f.val % 2048, by omega⟩ l) :=
  shapeCast_apply x h _ _ (by
    rw [Shape.rowMajor_val_three, Shape.rowMajor_val_two]
    show (f.val / 2048 * 2048 + f.val % 2048) * 2 + l.val = f.val * 2 + l.val
    omega)

/-! ## Transposes -/

/-- The rank-2 transpose: `(c, n)` of the result is `(n, c)` of the operand (either direction is this equation). -/
theorem transpose_10 {N C : Nat} (x : (⟨2, ![N, C]⟩ : Shape).Idx → α)
    (h : (⟨2, ![N, C]⟩ : Shape).Transposes ([1, 0] : List (Fin 2)) ⟨2, ![C, N]⟩) (c : Fin C) (n : Fin N) :
    transpose ⟨2, ![C, N]⟩ ([1, 0] : List (Fin 2)) x h (ix2 c n) = x (ix2 n c) :=
  transpose_apply _ x h _ (ix2 n c) (fun b => match b with
    | ⟨0, _⟩ => rfl
    | ⟨1, _⟩ => rfl)

/-- The rank-3 transpose that brings the last axis to the front: `(l, u, v)` of the result is `(u, v, l)` of the operand. -/
theorem transpose_201 {U V L : Nat} (x : (⟨3, ![U, V, L]⟩ : Shape).Idx → α)
    (h : (⟨3, ![U, V, L]⟩ : Shape).Transposes ([2, 0, 1] : List (Fin 3)) ⟨3, ![L, U, V]⟩)
    (l : Fin L) (u : Fin U) (v : Fin V) :
    transpose ⟨3, ![L, U, V]⟩ ([2, 0, 1] : List (Fin 3)) x h (ix3 l u v) = x (ix3 u v l) :=
  transpose_apply _ x h _ (ix3 u v l) (fun b => match b with
    | ⟨0, _⟩ => rfl
    | ⟨1, _⟩ => rfl
    | ⟨2, _⟩ => rfl)

/-! ## Concatenations -/

/-- Two columns joined along axis 1, read in column 0: the FIRST column. -/
theorem concatenate_cols_zero {N : Nat} (a b : (⟨2, ![N, 1]⟩ : Shape).Idx → α)
    (h : Shape.Concatenates [⟨2, ![N, 1]⟩, ⟨2, ![N, 1]⟩] ⟨2, ![N, 2]⟩ 1) (n : Fin N) :
    concatenate ⟨2, ![N, 2]⟩ 1 [⟨⟨2, ![N, 1]⟩, a⟩, ⟨⟨2, ![N, 1]⟩, b⟩] h (ix2 n 0) = a (ix2 n 0) :=
  concatenate_pair_apply_left 1 a b h (ix2 n 0) rfl (ix2 n 0) (fun c => match c with
    | ⟨0, _⟩ => rfl
    | ⟨1, _⟩ => rfl)

/-- Two columns joined along axis 1, read in column 1: the SECOND column (at its own column 0). -/
theorem concatenate_cols_one {N : Nat} (a b : (⟨2, ![N, 1]⟩ : Shape).Idx → α)
    (h : Shape.Concatenates [⟨2, ![N, 1]⟩, ⟨2, ![N, 1]⟩] ⟨2, ![N, 2]⟩ 1) (n : Fin N) :
    concatenate ⟨2, ![N, 2]⟩ 1 [⟨⟨2, ![N, 1]⟩, a⟩, ⟨⟨2, ![N, 1]⟩, b⟩] h (ix2 n 1) = b (ix2 n 0) :=
  concatenate_pair_apply_right 1 a b h (ix2 n 1) rfl rfl (ix2 n 0)
    (fun c hc => match c, hc with
      | ⟨0, _⟩, _ => rfl
      | ⟨1, _⟩, hc => absurd rfl hc)
    (by show 0 + 1 = 1; rfl)

section Rows12
variable {N : Nat} (u0 u1 u2 u3 u4 u5 u6 u7 u8 u9 u10 u11 : (⟨2, ![1, N]⟩ : Shape).Idx → α)

set_option quotPrecheck false in
/-- The twelve rows, each with its shape, in the order the concatenation lists them. -/
local notation "rows12" =>
  ([⟨⟨2, ![1, N]⟩, u0⟩, ⟨⟨2, ![1, N]⟩, u1⟩, ⟨⟨2, ![1, N]⟩, u2⟩, ⟨⟨2, ![1, N]⟩, u3⟩,
    ⟨⟨2, ![1, N]⟩, u4⟩, ⟨⟨2, ![1, N]⟩, u5⟩, ⟨⟨2, ![1, N]⟩, u6⟩, ⟨⟨2, ![1, N]⟩, u7⟩,
    ⟨⟨2, ![1, N]⟩, u8⟩, ⟨⟨2, ![1, N]⟩, u9⟩, ⟨⟨2, ![1, N]⟩, u10⟩, ⟨⟨2, ![1, N]⟩, u11⟩] : List ((s : Shape) × (s.Idx → α)))

variable (h : Shape.Concatenates [⟨2, ![1, N]⟩, ⟨2, ![1, N]⟩, ⟨2, ![1, N]⟩, ⟨2, ![1, N]⟩, ⟨2, ![1, N]⟩, ⟨2, ![1, N]⟩,
  ⟨2, ![1, N]⟩, ⟨2, ![1, N]⟩, ⟨2, ![1, N]⟩, ⟨2, ![1, N]⟩, ⟨2, ![1, N]⟩, ⟨2, ![1, N]⟩] ⟨2, ![12, N]⟩ 0)

/-- TWELVE ROWS joined along axis 0, read in row `R`: the piece that sits at position `R` of the list (`hx`), once the
    extents of the pieces before it are known to add up to `R` (`hp`: each piece is one row). -/
theorem concatenate_rows12_at (R : Nat) (hR : R < 12) (v : (⟨2, ![1, N]⟩ : Shape).Idx → α)
    (hx : rows12[R]'hR = ⟨⟨2, ![1, N]⟩, v⟩)
    (hp : (((List.take R rows12).map (·.1)).map fun s : Shape =>
      if h : s.rank = (⟨2, ![12, N]⟩ : Shape).rank then s.size ((0 : Fin (⟨2, ![12, N]⟩ : Shape).rank).cast h.symm) else 0).sum = R)
    (n : Fin N) :
    concatenate ⟨2, ![12, N]⟩ 0 rows12 h (ix2 ⟨R, hR⟩ n) = v (ix2 0 n) :=
  concatenate_apply_piece (t := ⟨2, ![12, N]⟩) 0 rows12 h (ix2 ⟨R, hR⟩ n) R hR ⟨2, ![1, N]⟩ v hx rfl R hp (ix2 0 n)
    (fun c hc => match c, hc with
      | ⟨0, _⟩, hc => absurd rfl hc
      | ⟨1, _⟩, _ => rfl)
    (by show R + 0 = R; rfl)

/-! Row `r` at the index `ix2 ⟨r, hr⟩ n`, `hr` any proof of the bound. -/

/-- Row 0 of the twelve joined rows is the first piece. -/
theorem concatenate_rows12_0 (hr : 0 < 12) (n : Fin N) :
    concatenate ⟨2, ![12, N]⟩ 0 rows12 h (ix2 ⟨0, hr⟩ n) = u0 (ix2 0 n) :=
  concatenate_rows12_at u0 u1 u2 u3 u4 u5 u6 u7 u8 u9 u10 u11 h 0 hr u0 rfl rfl n

/-- Row 1 of the twelve joined rows is the second piece. -/
theorem concatenate_rows12_1 (hr : 1 < 12) (n : Fin N) :
    concatenate ⟨2, ![12, N]⟩ 0 rows12 h (ix2 ⟨1, hr⟩ n) = u1 (ix2 0 n) :=
  concatenate_rows12_at u0 u1 u2 u3 u4 u5 u6 u7 u8 u9 u10 u11 h 1 hr u1 rfl rfl n

/-- Row 2 of the twelve joined rows is the third piece. -/
theorem concatenate_rows12_2 (hr : 2 < 12) (n : Fin N) :
    concatenate ⟨2, ![12, N]⟩ 0 rows12 h (ix2 ⟨2, hr⟩ n) = u2 (ix2 0 n) :=
  concatenate_rows12_at u0 u1 u2 u3 u4 u5 u6 u7 u8 u9 u10 u11 h 2 hr u2 rfl rfl n

/-- Row 3 of the twelve joined rows is the fourth piece. -/
theorem concatenate_rows12_3 (hr : 3 < 12) (n : Fin N) :
    concatenate ⟨2, ![12, N]⟩ 0 rows12 h (ix2 ⟨3, hr⟩ n) = u3 (ix2 0 n) :=
  concatenate_rows12_at u0 u1 u2 u3 u4 u5 u6 u7 u8 u9 u10 u11 h 3 hr u3 rfl rfl n

/-- Row 4 of the twelve joined rows is the fifth piece. -/
theorem concatenate_rows12_4 (hr : 4 < 12) (n : Fin N) :
    concatenate ⟨2, ![12, N]⟩ 0 rows12 h (ix2 ⟨4, hr⟩ n) = u4 (ix2 0 n) :=
  concatenate_rows12_at u0 u1 u2 u3 u4 u5 u6 u7 u8 u9 u10 u11 h 4 hr u4 rfl rfl n

/-- Row 5 of the twelve joined rows is the sixth piece. -/
theorem concatenate_rows12_5 (hr : 5 < 12) (n : Fin N) :
    concatenate ⟨2, ![12, N]⟩ 0 rows12 h (ix2 ⟨5, hr⟩ n) = u5 (ix2 0 n) :=
  concatenate_rows12_at u0 u1 u2 u3 u4 u5 u6 u7 u8 u9 u10 u11 h 5 hr u5 rfl rfl n

/-- Row 6 of the twelve joined rows is the seventh piece. -/
theorem concatenate_rows12_6 (hr : 6 < 12) (n : Fin N) :
    concatenate ⟨2, ![12, N]⟩ 0 rows12 h (ix2 ⟨6, hr⟩ n) = u6 (ix2 0 n) :=
  concatenate_rows12_at u0 u1 u2 u3 u4 u5 u6 u7 u8 u9 u10 u11 h 6 hr u6 rfl rfl n

/-- Row 7 of the twelve joined rows is the eighth piece. -/
theorem concatenate_rows12_7 (hr : 7 < 12) (n : Fin N) :
    concatenate ⟨2, ![12, N]⟩ 0 rows12 h (ix2 ⟨7, hr⟩ n) = u7 (ix2 0 n) :=
  concatenate_rows12_at u0 u1 u2 u3 u4 u5 u6 u7 u8 u9 u10 u11 h 7 hr u7 rfl rfl n

/-- Row 8 of the twelve joined rows is the ninth piece. -/
theorem concatenate_rows12_8 (hr : 8 < 12) (n : Fin N) :
    concatenate ⟨2, ![12, N]⟩ 0 rows12 h (ix2 ⟨8, hr⟩ n) = u8 (ix2 0 n) :=
  concatenate_rows12_at u0 u1 u2 u3 u4 u5 u6 u7 u8 u9 u10 u11 h 8 hr u8 rfl rfl n

/-- Row 9 of the twelve joined rows is the tenth piece. -/
theorem concatenate_rows12_9 (hr : 9 < 12) (n : Fin N) :
    concatenate ⟨2, ![12, N]⟩ 0 rows12 h (ix2 ⟨9, hr⟩ n) = u9 (ix2 0 n) :=
  concatenate_rows12_at u0 u1 u2 u3 u4 u5 u6 u7 u8 u9 u10 u11 h 9 hr u9 rfl rfl n

/-- Row 10 of the twelve joined rows is the eleventh piece. -/
theorem concatenate_rows12_10 (hr : 10 < 12) (n : Fin N) :
    concatenate ⟨2, ![12, N]⟩ 0 rows12 h (ix2 ⟨10, hr⟩ n) = u10 (ix2 0 n) :=
  concatenate_rows12_at u0 u1 u2 u3 u4 u5 u6 u7 u8 u9 u10 u11 h 10 hr u10 rfl rfl n

/-- Row 11 of the twelve joined rows is the twelfth piece. -/
theorem concatenate_rows12_11 (hr : 11 < 12) (n : Fin N) :
    concatenate ⟨2, ![12, N]⟩ 0 rows12 h (ix2 ⟨11, hr⟩ n) = u11 (ix2 0 n) :=
  concatenate_rows12_at u0 u1 u2 u3 u4 u5 u6 u7 u8 u9 u10 u11 h 11 hr u11 rfl rfl n

/-- ANY row `r` of the twelve joined rows is the piece at position `r`. -/
theorem concatenate_rows12 (r : Fin 12) (n : Fin N) :
    concatenate ⟨2, ![12, N]⟩ 0 rows12 h (ix2 r n)
      = (![u0, u1, u2, u3, u4, u5, u6, u7, u8, u9, u10, u11] r) (ix2 0 n) :=
  match r with
  | ⟨0, hr⟩ => concatenate_rows12_0 u0 u1 u2 u3 u4 u5 u6 u7 u8 u9 u10 u11 h hr n
  | ⟨1, hr⟩ => concatenate_rows12_1 u0 u1 u2 u3 u4 u5 u6 u7 u8 u9 u10 u11 h hr n
  | ⟨2, hr⟩ => concatenate_rows12_2 u0 u1 u2 u3 u4 u5 u6 u7 u8 u9 u10 u11 h hr n
  | ⟨3, hr⟩ => concatenate_rows12_3 u0 u1 u2 u3 u4 u5 u6 u7 u8 u9 u10 u11 h hr n
  | ⟨4, hr⟩ => concatenate_rows12_4 u0 u1 u2 u3 u4 u5 u6 u7 u8 u9 u10 u11 h hr n
  | ⟨5, hr⟩ => concatenate_rows12_5 u0 u1 u2 u3 u4 u5 u6 u7 u8 u9 u10 u11 h hr n
  | ⟨6, hr⟩ => concatenate_rows12_6 u0 u1 u2 u3 u4 u5 u6 u7 u8 u9 u10 u11 h hr n
  | ⟨7, hr⟩ => concatenate_rows12_7 u0 u1 u2 u3 u4 u5 u6 u7 u8 u9 u10 u11 h hr n
  | ⟨8, hr⟩ => concatenate_rows12_8 u0 u1 u2 u3 u4 u5 u6 u7 u8 u9 u10 u11 h hr n
  | ⟨9, hr⟩ => concatenate_rows12_9 u0 u1 u2 u3 u4 u5 u6 u7 u8 u9 u10 u11 h hr n
  | ⟨10, hr⟩ => concatenate_rows12_10 u0 u1 u2 u3 u4 u5 u6 u7 u8 u9 u10 u11 h hr n
  | ⟨11, hr⟩ => concatenate_rows12_11 u0 u1 u2 u3 u4 u5 u6 u7 u8 u9 u10 u11 h hr n

/-! Row `r` at the index `ix2 r n` with `r` a numeral of `Fin 12`. -/

/-- Row 0, the index's row written as a numeral. -/
theorem concatenate_rows12_num_0 (n : Fin N) :
    concatenate ⟨2, ![12, N]⟩ 0 rows12 h (ix2 (0 : Fin 12) n) = u0 (ix2 0 n) :=
  concatenate_rows12 u0 u1 u2 u3 u4 u5 u6 u7 u8 u9 u10 u11 h 0 n

/-- Row 1, the index's row written as a numeral. -/
theorem concatenate_rows12_num_1 (n : Fin N) :
    concatenate ⟨2, ![12, N]⟩ 0 rows12 h (ix2 (1 : Fin 12) n) = u1 (ix2 0 n) :=
  concatenate_rows12 u0 u1 u2 u3 u4 u5 u6 u7 u8 u9 u10 u11 h 1 n

/-- Row 2, the index's row written as a numeral. -/
theorem concatenate_rows12_num_2 (n : Fin N) :
    concatenate ⟨2, ![12, N]⟩ 0 rows12 h (ix2 (2 : Fin 12) n) = u2 (ix2 0 n) :=
  concatenate_rows12 u0 u1 u2 u3 u4 u5 u6 u7 u8 u9 u10 u11 h 2 n

/-- Row 3, the index's row written as a numeral. -/
theorem concatenate_rows12_num_3 (n : Fin N) :
    concatenate ⟨2, ![12, N]⟩ 0 rows12 h (ix2 (3 : Fin 12) n) = u3 (ix2 0 n) :=
  concatenate_rows12 u0 u1 u2 u3 u4 u5 u6 u7 u8 u9 u10 u11 h 3 n

/-- Row 4, the index's row written as a numeral. -/
theorem concatenate_rows12_num_4 (n : Fin N) :
    concatenate ⟨2, ![12, N]⟩ 0 rows12 h (ix2 (4 : Fin 12) n) = u4 (ix2 0 n) :=
  concatenate_rows12 u0 u1 u2 u3 u4 u5 u6 u7 u8 u9 u10 u11 h 4 n

/-- Row 5, the index's row written as a numeral. -/
theorem concatenate_rows12_num_5 (n : Fin N) :
    concatenate ⟨2, ![12, N]⟩ 0 rows12 h (ix2 (5 : Fin 12) n) = u5 (ix2 0 n) :=
  concatenate_rows12 u0 u1 u2 u3 u4 u5 u6 u7 u8 u9 u10 u11 h 5 n

/-- Row 6, the index's row written as a numeral. -/
theorem concatenate_rows12_num_6 (n : Fin N) :
    concatenate ⟨2, ![12, N]⟩ 0 rows12 h (ix2 (6 : Fin 12) n) = u6 (ix2 0 n) :=
  concatenate_rows12 u0 u1 u2 u3 u4 u5 u6 u7 u8 u9 u10 u11 h 6 n

/-- Row 7, the index's row written as a numeral. -/
theorem concatenate_rows12_num_7 (n : Fin N) :
    concatenate ⟨2, ![12, N]⟩ 0 rows12 h (ix2 (7 : Fin 12) n) = u7 (ix2 0 n) :=
  concatenate_rows12 u0 u1 u2 u3 u4 u5 u6 u7 u8 u9 u10 u11 h 7 n

/-- Row 8, the index's row written as a numeral. -/
theorem concatenate_rows12_num_8 (n : Fin N) :
    concatenate ⟨2, ![12, N]⟩ 0 rows12 h (ix2 (8 : Fin 12) n) = u8 (ix2 0 n) :=
  concatenate_rows12 u0 u1 u2 u3 u4 u5 u6 u7 u8 u9 u10 u11 h 8 n

/-- Row 9, the index's row written as a numeral. -/
theorem concatenate_rows12_num_9 (n : Fin N) :
    concatenate ⟨2, ![12, N]⟩ 0 rows12 h (ix2 (9 : Fin 12) n) = u9 (ix2 0 n) :=
  concatenate_rows12 u0 u1 u2 u3 u4 u5 u6 u7 u8 u9 u10 u11 h 9 n

/-- Row 10, the index's row written as a numeral. -/
theorem concatenate_rows12_num_10 (n : Fin N) :
    concatenate ⟨2, ![12, N]⟩ 0 rows12 h (ix2 (10 : Fin 12) n) = u10 (ix2 0 n) :=
  concatenate_rows12 u0 u1 u2 u3 u4 u5 u6 u7 u8 u9 u10 u11 h 10 n

/-- Row 11, the index's row written as a numeral. -/
theorem concatenate_rows12_num_11 (n : Fin N) :
    concatenate ⟨2, ![12, N]⟩ 0 rows12 h (ix2 (11 : Fin 12) n) = u11 (ix2 0 n) :=
  concatenate_rows12 u0 u1 u2 u3 u4 u5 u6 u7 u8 u9 u10 u11 h 11 n

end Rows12

/-! ## Pointwise host operations at an index -/

section Pointwise
variable {s : Shape} {φ : FTy} {w : Nat}

/-- The host's float quotient at an index is the ideal instance's division of the elements. -/
theorem host_divf_apply (a b : FVec Ideal s φ) (i : s.Idx) : Host.divf a b i = Ideal.div (a i) (b i) := rfl
/-- The host's floor at an index rounds the element down to an integer (infinities stay). -/
theorem host_floor_apply (a : FVec Ideal s φ) (i : s.Idx) : Host.floor a i = Ideal.liftRound Int.floor (a i) := rfl
/-- The host's round-to-nearest-even at an index rounds the element, ties to the even integer. -/
theorem host_roundeven_apply (a : FVec Ideal s φ) (i : s.Idx) :
    Host.roundeven a i = Ideal.liftRound Ideal.roundHalfEven (a i) := rfl
/-- The host's absolute value at an index is the larger of the element and its negation. -/
theorem host_absf_apply (a : FVec Ideal s φ) (i : s.Idx) : Host.absf a i = max (a i) (-(a i)) := rfl
/-- A float-to-signed-integer conversion at an index truncates and clamps the element. -/
theorem fptosi_apply (v : Nat) (a : FVec Ideal s φ) (i : s.Idx) : fptosi v a i = Ideal.fptosi v (a i) := rfl
/-- An integer splat reads its word everywhere. -/
theorem constantI_apply (b : BitVec w) (i : s.Idx) : constantI s w b i = b := rfl
/-- An integer sum at an index adds the elements. -/
theorem addi_apply (x y : IVec s w) (i : s.Idx) : addi x y i = IntOp.addi (x i) (y i) := rfl
/-- An integer product at an index multiplies the elements. -/
theorem muli_apply (x y : IVec s w) (i : s.Idx) : muli x y i = IntOp.muli (x i) (y i) := rfl
/-- A signed minimum at an index is the signed minimum of the elements. -/
theorem minsi_apply (x y : IVec s w) (i : s.Idx) : minsi x y i = IntOp.minsi (x i) (y i) := rfl
/-- An integer comparison at an index compares the elements. -/
theorem cmpi_apply (p : CmpIPredicate) (x y : IVec s w) (i : s.Idx) : cmpi p x y i = IntOp.cmpi p (x i) (y i) := rfl
/-- The word-level sum is the bit-vector sum … -/
theorem intOp_addi (x y : BitVec w) : IntOp.addi x y = x + y := rfl
/-- … the word-level product the bit-vector product … -/
theorem intOp_muli (x y : BitVec w) : IntOp.muli x y = x * y := rfl
/-- … and the word-level signed minimum the `if` on the signed comparison. -/
theorem intOp_minsi (x y : BitVec w) : IntOp.minsi x y = if x.slt y then x else y := rfl

end Pointwise

end Cert.LibLayoutIx
-- ==== Proof.BridgeEw.lean ====
import proofs.«409179_j74852690035476_3_alg».proof.Proof.KernelDefs
import proofs.«409179_j74852690035476_3_alg».proof.Proof.RefValue
import proofs.«409179_j74852690035476_3_alg».proof.Proof.IndexFacts
import proofs.«409179_j74852690035476_3_alg».proof.Proof.LibGatherAt
import proofs.«409179_j74852690035476_3_alg».proof.Proof.LibLayoutIx
import Idealize.ShloMosaic.Lib.ValueIdx
import Idealize.ShloMosaic.Lib.Pipeline.Value
noncomputable section
namespace Cert.Hand.BridgeEw
open Idealize.ShloMosaic Idealize.ShloMosaic.ValueIdx

/-! # The two programs' per-edge weights agree

Both programs read, for edge `e` with type word `w`, one row of the same eight-row table: the lookup reads the row
word signed and clamps it into `0 … 7`. The kernel's row word is `w − 1` clamped into `0 … 7`; the reference's is
`w − 1`, eight added when it is below zero. The kernel also guards its lookup: where its row word does not lie in
`0 … 7` it writes a fill value instead. Its row word always lies there, so the guard — a conjunction over the
column's one position of "row word ≥ 0 and row word ≤ 7" — is 1 at every edge and the fill value is never chosen.
Where `w ≥ 1` both row words clamp to the same row, and the table is the same, so the weights agree.

All of it is read at one index `(e, z)` of the `[1600000, 1]` column at a time, symbolically in `e`. -/

variable {F : FTy → Type} [FloatOps F]

/-- The two programs build the same edge-weight table. -/
theorem tab_agree (a1 : FVec F ⟨2, ![8, 1]⟩ .f32) :
    Cert.KernelIdeal.Host.tabK a1 = Cert.ReferenceIdeal.RefValue.tabR a1 := rfl

/-! ## The row words at an edge -/

/-- The kernel's row word at edge `e` is `kRow` of the edge's type word: every operation is elementwise and every
    constant a splat. -/
theorem idxK_apply (a6 : IVec ⟨1, ![1600000]⟩ 32) (e : Fin 1600000) :
    Cert.KernelIdeal.Host.idxK a6 (ix1 e) = IndexFacts.kRow (a6 (ix1 e)) := rfl

/-- The reference's row word at edge `e` is `rRow` of the edge's type word. -/
theorem idxR_apply (a6 : IVec ⟨1, ![1600000]⟩ 32) (e : Fin 1600000) :
    Cert.ReferenceIdeal.RefValue.idxR a6 (ix1 e) = IndexFacts.rRow (a6 (ix1 e)) := rfl

/-! ## The kernel's weights, piece by piece -/

/-- The kernel's row words laid down as a column. -/
def colK (a6 : IVec ⟨1, ![1600000]⟩ 32) : IVec ⟨2, ![1600000, 1]⟩ 32 :=
  broadcastInDim Cert.KernelIdeal.S1600000x1 ![0] Cert.KernelIdeal.Gen.bcast_S1600000_S1600000x1_0
    (Cert.KernelIdeal.Host.idxK a6)

/-- "The row word lies in `0 … 7`", per position of the column. -/
def inbK (a6 : IVec ⟨1, ![1600000]⟩ 32) : IVec ⟨2, ![1600000, 1]⟩ 1 :=
  andi
    (cmpi .sge (colK a6) (broadcastInDim Cert.KernelIdeal.S1600000x1 ![] Cert.KernelIdeal.Gen.bcast_S_S1600000x1
      (constantI Cert.KernelIdeal.S_ 32 0#32)))
    (cmpi .sle (colK a6) (broadcastInDim Cert.KernelIdeal.S1600000x1 ![0, 1] Cert.KernelIdeal.Gen.bcast_S1x1_S1600000x1_0_1
      (broadcastInDim Cert.KernelIdeal.S1x1 ![1] Cert.KernelIdeal.Gen.bcast_S1_S1x1_1 (constantI Cert.KernelIdeal.S1 32 7#32))))

/-- The guard per edge: the conjunction of that test over the column's one position. -/
def okK (a6 : IVec ⟨1, ![1600000]⟩ 32) : IVec ⟨1, ![1600000]⟩ 1 :=
  Host.reduce IntOp.andi (inbK a6) (constantI Cert.KernelIdeal.S_ 1 1#1)
    Cert.KernelIdeal.Gen.reducesTo_S1600000x1_S1600000_d1 Cert.KernelIdeal.Gen.h_S_

/-- The kernel's weights are the guarded lookup over those pieces. -/
theorem ewK_eq (a1 : FVec F ⟨2, ![8, 1]⟩ .f32) (a6 : IVec ⟨1, ![1600000]⟩ 32) :
    Cert.KernelIdeal.Host.ewK a1 a6
      = select (broadcastInDim Cert.KernelIdeal.S1600000x1 ![0] Cert.KernelIdeal.Gen.bcast_S1600000_S1600000x1_0 (okK a6))
          (Host.gather Cert.KernelIdeal.gather_S8x1_S1600000x1_S1600000x1_1_0_n_n_0_1_11 (Cert.KernelIdeal.Host.tabK a1) (colK a6))
          (broadcastInDim Cert.KernelIdeal.S1600000x1 ![] Cert.KernelIdeal.Gen.bcast_S_S1600000x1
            (constant Cert.KernelIdeal.S_ .f32 0x7FC00000#32)) := rfl

/-- The column at `(e, z)` holds the kernel's row word of edge `e`. -/
theorem colK_apply (a6 : IVec ⟨1, ![1600000]⟩ 32) (e : Fin 1600000) (z : Fin 1) :
    colK a6 (ix2 e z) = IndexFacts.kRow (a6 (ix1 e)) :=
  (Cert.LibLayoutIx.broadcastInDim_col Cert.KernelIdeal.Gen.bcast_S1600000_S1600000x1_0
    (Cert.KernelIdeal.Host.idxK a6) e z).trans (idxK_apply a6 e)

/-- The range test is 1 at every position: the row word is a clamped word. -/
theorem inbK_apply (a6 : IVec ⟨1, ![1600000]⟩ 32) (i : (⟨2, ![1600000, 1]⟩ : Shape).Idx) : inbK a6 i = 1#1 := by
  obtain ⟨e, z, rfl⟩ : ∃ (e : Fin 1600000) (z : Fin 1), i = ix2 e z := ⟨i 0, i 1, eq_ix2 i⟩
  show IntOp.andi (IntOp.cmpi .sge (colK a6 (ix2 e z)) 0#32) (IntOp.cmpi .sle (colK a6 (ix2 e z)) 7#32) = 1#1
  rw [colK_apply]
  exact IndexFacts.kRow_inb _

/-- So the guard is 1 at every edge. -/
theorem okK_apply (a6 : IVec ⟨1, ![1600000]⟩ 32) (j : (⟨1, ![1600000]⟩ : Shape).Idx) : okK a6 j = 1#1 :=
  IndexFacts.reduce_andi_ones _ _ _ _ (inbK_apply a6) (fun _ => rfl) j

/-- The kernel's weight of edge `e`: the table at the row its row word clamps to. -/
theorem ewK_apply (a1 : FVec F ⟨2, ![8, 1]⟩ .f32) (a6 : IVec ⟨1, ![1600000]⟩ 32) (e : Fin 1600000) (z : Fin 1) :
    Cert.KernelIdeal.Host.ewK a1 a6 (ix2 e z)
      = Cert.KernelIdeal.Host.tabK a1 (ix2 (clampIx 8 (by decide) (IndexFacts.kRow (a6 (ix1 e)))) z) := by
  have hm : broadcastInDim Cert.KernelIdeal.S1600000x1 ![0] Cert.KernelIdeal.Gen.bcast_S1600000_S1600000x1_0 (okK a6) (ix2 e z)
      = 1#1 :=
    (Cert.LibLayoutIx.broadcastInDim_col Cert.KernelIdeal.Gen.bcast_S1600000_S1600000x1_0 (okK a6) e z).trans
      (okK_apply a6 (ix1 e))
  have hg : Host.gather Cert.KernelIdeal.gather_S8x1_S1600000x1_S1600000x1_1_0_n_n_0_1_11
        (Cert.KernelIdeal.Host.tabK a1) (colK a6) (ix2 e z)
      = Cert.KernelIdeal.Host.tabK a1 (ix2 (clampIx 8 (by decide) (colK a6 (ix2 e 0))) z) :=
    gather_UL_apply (U := 8) (L := 1) (N := 1600000) (by decide)
      Cert.KernelIdeal.Gen.gather_S8x1_S1600000x1_S1600000x1_1_0_n_n_0_1_11_wf (Cert.KernelIdeal.Host.tabK a1) (colK a6) e z
  rw [ewK_eq, select_apply, hm, select_one, hg, colK_apply]

/-- The reference's weight of edge `e`: the table at the row its row word clamps to. -/
theorem ewR_apply (a1 : FVec F ⟨2, ![8, 1]⟩ .f32) (a6 : IVec ⟨1, ![1600000]⟩ 32) (e : Fin 1600000) (z : Fin 1) :
    Cert.ReferenceIdeal.RefValue.ewR a1 a6 (ix2 e z)
      = Cert.ReferenceIdeal.RefValue.tabR a1 (ix2 (clampIx 8 (by decide) (IndexFacts.rRow (a6 (ix1 e)))) z) := by
  have hg : Cert.ReferenceIdeal.RefValue.ewR a1 a6 (ix2 e z)
      = Cert.ReferenceIdeal.RefValue.tabR a1 (ix2 (clampIx 8 (by decide)
          (broadcastInDim Cert.ReferenceIdeal.S1600000x1 ![0] Cert.ReferenceIdeal.Gen.bcast_S1600000_S1600000x1_0
            (Cert.ReferenceIdeal.RefValue.idxR a6) (ix2 e 0))) z) :=
    gather_UL_apply (U := 8) (L := 1) (N := 1600000) (by decide)
      Cert.ReferenceIdeal.Gen.gather_S8x1_S1600000x1_S1600000x1_1_0_n_n_0_1_11_wf (Cert.ReferenceIdeal.RefValue.tabR a1) _ e z
  rw [hg, Cert.LibLayoutIx.broadcastInDim_col, idxR_apply]

/-- Where every edge's type word is at least 1, the two programs' per-edge weights agree. -/
theorem ew_agree (a1 : FVec F ⟨2, ![8, 1]⟩ .f32) (a6 : IVec ⟨1, ![1600000]⟩ 32)
    (He : ∀ e : Fin 1600000, 1 ≤ (a6 (ix1 e)).toInt) :
    Cert.KernelIdeal.Host.ewK a1 a6 = Cert.ReferenceIdeal.RefValue.ewR a1 a6 := by
  funext j
  obtain ⟨e, z, rfl⟩ : ∃ (e : Fin 1600000) (z : Fin 1), j = ix2 e z := ⟨j 0, j 1, eq_ix2 j⟩
  rw [ewK_apply, ewR_apply, IndexFacts.row_agree _ (He e), tab_agree]

end Cert.Hand.BridgeEw

end
-- ==== Proof.LibGatherVec.lean ====
import proofs.«409179_j74852690035476_3_alg».proof.Proof.LibClampIx
import Idealize.ShloMosaic.Lib.ValueIdx

/-! # `stablehlo.gather` of single elements out of a vector, read at an index

`Host.gather d x idx j = x (d.operandIdx j idx)`. Here the operand is a vector `[U]`, the start indices are `[N, 1]`
with the index vector on the last axis, the operand's one axis is collapsed and named by the start-index map, and
there is neither an offset axis nor a batching axis: the result is `[N]`, and its element `n` is the operand at the
position that index word `n`, read signed, is clamped to (jax's `table[idx]` for a vector `table`). -/

namespace Cert.Hand

open Idealize.ShloMosaic Idealize.ShloMosaic.ValueIdx

variable {α : Type} {U N : Nat}

/-- Dimension numbers of a gather that reads, for each of `N` indices `u`, element `u` of an operand `[U]`: the
    result is `[N]`. -/
abbrev dimsU (U N : Nat)
    (wf : GatherDims.WF ⟨1, ![U]⟩ ⟨2, ![N, 1]⟩ ⟨1, ![N]⟩ [] [0] [] [0] [] 1 ![1]) :
    GatherDims ⟨1, ![U]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

/-- Result element `n` is the operand at `u`, where `u` is index word `n` read signed and clamped into the axis. -/
theorem gather_U_apply (hU : 0 < U)
    (wf : GatherDims.WF ⟨1, ![U]⟩ ⟨2, ![N, 1]⟩ ⟨1, ![N]⟩ [] [0] [] [0] [] 1 ![1])
    (x : (⟨1, ![U]⟩ : Shape).Idx → α) (idx : IVec ⟨2, ![N, 1]⟩ 32) (n : Fin N) :
    Host.gather (dimsU U N wf) x idx (ix1 n) = x (ix1 (clampIx U hU (idx (ix2 n 0)))) := by
  unfold Host.gather
  congr 1
  funext a
  refine Fin.ext ?_
  match a with
  | ⟨0, h0⟩ =>
    -- the one axis is collapsed and is the start index's one component
    show GatherDims.start _ _ _ _ + GatherDims.batchCoord _ _ _ + GatherDims.offCoord _ _ _ = _
    have hm : (⟨0, h0⟩ : Fin 1) ∈ (dimsU U N wf).startIndexMap :=
      (by decide : (0 : Fin 1) ∈ ([0] : List (Fin 1)))
    rw [GatherDims.batchCoord_eq_zero _ _ _ List.not_mem_nil,
      GatherDims.offCoord_eq_zero _ _ _ (show (⟨0, h0⟩ : Fin 1) ∉ (dimsU U N wf).sKept from
        (by decide : (0 : Fin 1) ∉ ([] : List (Fin 1))))]
    unfold GatherDims.start
    rw [dif_pos hm]
    have hsi : (dimsU U N wf).siIdx (ix1 n)
        ⟨List.idxOf (⟨0, h0⟩ : Fin 1) (dimsU U N wf).startIndexMap, List.idxOf_lt_length_iff.2 hm⟩
          = ix2 n 0 := by
      funext b; refine Fin.ext ?_
      match b with
      | ⟨0, _⟩ => rfl
      | ⟨1, _⟩ => rfl
    rw [hsi]
    rfl

end Cert.Hand
-- ==== Proof.LibScatterRows.lean ====
/-
  A general lemma about the host's accumulating scatter on the extended reals.

  A ROW scatter-add — `stablehlo.scatter` with an `add` body, `update_window_dims = [1]`, `inserted_window_dims = [0]`,
  `scatter_dims_to_operand_dims = [0]`, `index_vector_dim = 1`, on an operand of shape `[S, C]`, scatter indices `[R, 1]`
  and updates `[R, C]` — adds row `r` of the updates to row `idx r` of the operand (jax's `segment_sum`). On the extended
  reals the sum is exact and order-free, so the result at `(s, c)` is the operand there plus the sum of the updates'
  column `c` over the rows whose index word is `s`; and when those rows are enumerated without repetition by
  `e : Fin P → Fin R`, that sum is `∑ p, upd (e p, c)`.
-/
import Idealize.ShloMosaic.PureOps.Ideal
import Idealize.ShloMosaic.Lib.ValueIdx

noncomputable section

namespace Cert.LibScatterRows

open Idealize.ShloMosaic Idealize.ShloMosaic.ValueIdx

/-- A sum over the members of a set of rows cut out by a predicate, re-indexed by an enumeration of that set:
    `e` is injective, lands in the set, and reaches every member. -/
theorem sum_filter_eq_sum_enum {R P : ℕ} {M : Type} [AddCommMonoid M] (pred : Fin R → Prop) [DecidablePred pred]
    (e : Fin P → Fin R) (hinj : Function.Injective e) (hmem : ∀ p, pred (e p)) (hsurj : ∀ r, pred r → ∃ p, e p = r)
    (f : Fin R → M) : ∑ r ∈ Finset.univ.filter pred, f r = ∑ p : Fin P, f (e p) := by
  have hset : Finset.univ.filter pred = Finset.univ.image e := by
    ext r
    simp only [Finset.mem_filter, Finset.mem_univ, true_and, Finset.mem_image]
    constructor
    · intro h; exact hsurj r h
    · rintro ⟨p, rfl⟩; exact hmem p
  rw [hset, Finset.sum_image (fun a _ b _ h => hinj h)]

/-- On operand axis 0 the window starts at the index word of the update's row, read signed. -/
theorem rows_start_zero {S C R w : ℕ}
    (wf : ScatterDims.WF (⟨2, ![S, C]⟩ : Shape) ⟨2, ![R, 1]⟩ ⟨2, ![R, C]⟩ [1] [0] [0] 1)
    (idx : IVec ⟨2, ![R, 1]⟩ w) (r : Fin R) (c' : Fin C) :
    (⟨[1], [0], [0], 1, wf⟩ : ScatterDims ⟨2, ![S, C]⟩ ⟨2, ![R, 1]⟩ ⟨2, ![R, C]⟩).start (ix2 r c') idx 0
      = (idx (ix2 r (0 : Fin 1))).toInt := by
  unfold ScatterDims.start
  rw [dif_pos (show (0 : Fin 2) ∈ [(0 : Fin 2)] from List.mem_singleton.mpr rfl)]
  congr 2
  funext b
  refine Fin.ext ?_
  match b with
  | ⟨0, _⟩ => rfl
  | ⟨1, _⟩ => rfl

/-- On operand axis 1 the window starts at 0. -/
theorem rows_start_one {S C R w : ℕ}
    (wf : ScatterDims.WF (⟨2, ![S, C]⟩ : Shape) ⟨2, ![R, 1]⟩ ⟨2, ![R, C]⟩ [1] [0] [0] 1)
    (idx : IVec ⟨2, ![R, 1]⟩ w) (r : Fin R) (c' : Fin C) :
    (⟨[1], [0], [0], 1, wf⟩ : ScatterDims ⟨2, ![S, C]⟩ ⟨2, ![R, 1]⟩ ⟨2, ![R, C]⟩).start (ix2 r c') idx 1 = 0 := by
  unfold ScatterDims.start
  rw [dif_neg (show ¬ (1 : Fin 2) ∈ [(0 : Fin 2)] by decide)]

/-- On operand axis 0, an inserted axis, the window coordinate is 0. -/
theorem rows_window_zero {S C R : ℕ}
    (wf : ScatterDims.WF (⟨2, ![S, C]⟩ : Shape) ⟨2, ![R, 1]⟩ ⟨2, ![R, C]⟩ [1] [0] [0] 1)
    (r : Fin R) (c' : Fin C) :
    (⟨[1], [0], [0], 1, wf⟩ : ScatterDims ⟨2, ![S, C]⟩ ⟨2, ![R, 1]⟩ ⟨2, ![R, C]⟩).window (ix2 r c') 0 = 0 := by
  unfold ScatterDims.window
  exact dif_neg (show ¬ (0 : Fin 2) ∈ (List.finRange 2).filter (· ∉ [(0 : Fin 2)]) by decide)

/-- On operand axis 1 the window coordinate is the update's column. -/
theorem rows_window_one {S C R : ℕ}
    (wf : ScatterDims.WF (⟨2, ![S, C]⟩ : Shape) ⟨2, ![R, 1]⟩ ⟨2, ![R, C]⟩ [1] [0] [0] 1)
    (r : Fin R) (c' : Fin C) :
    (⟨[1], [0], [0], 1, wf⟩ : ScatterDims ⟨2, ![S, C]⟩ ⟨2, ![R, 1]⟩ ⟨2, ![R, C]⟩).window (ix2 r c') 1 = c'.val := by
  unfold ScatterDims.window
  exact (dif_pos (show (1 : Fin 2) ∈ (List.finRange 2).filter (· ∉ [(0 : Fin 2)]) by decide)).trans rfl

/-- Where an update lands, on a rank-2 operand, from the window's start and coordinate on the two axes: if on axis 0
    the start is `t` and the window coordinate 0, and on axis 1 the start is 0 and the window coordinate `k`, the update
    goes to `(s, c)` exactly when `t = s` and `k = c` (otherwise it goes elsewhere or is dropped). -/
theorem resultIdx_eq_some_ix2_iff {S C w : ℕ} {si u : Shape} (d : ScatterDims ⟨2, ![S, C]⟩ si u) (j : u.Idx)
    (idx : IVec si w) (t : Int) (k : ℕ) (h00 : d.start j idx 0 = t) (h01 : d.start j idx 1 = 0)
    (hw0 : d.window j 0 = 0) (hw1 : d.window j 1 = k) (s : Fin S) (c : Fin C) :
    d.resultIdx? j idx = some (ix2 s c) ↔ t = (s.val : Int) ∧ k = c.val := by
  have hs := s.isLt
  have hc := c.isLt
  unfold ScatterDims.resultIdx?
  constructor
  · intro h
    split_ifs at h with hall
    have hfun := Option.some.inj h
    have e0 : (d.start j idx 0 + (d.window j 0 : ℕ)).toNat = s.val := congrArg (fun f => (f 0).val) hfun
    have e1 : (d.start j idx 1 + (d.window j 1 : ℕ)).toNat = c.val := congrArg (fun f => (f 1).val) hfun
    have b0 : 0 ≤ d.start j idx 0 + (d.window j 0 : ℕ) := (hall 0).1
    have b1 : 0 ≤ d.start j idx 1 + (d.window j 1 : ℕ) := (hall 1).1
    rw [h00, hw0] at e0 b0
    rw [h01, hw1] at e1 b1
    constructor <;> omega
  · rintro ⟨ht, hk⟩
    have hall : ∀ a, 0 ≤ d.start j idx a + d.window j a
        ∧ d.start j idx a + d.window j a < (⟨2, ![S, C]⟩ : Shape).size a := by
      intro a
      match a with
      | ⟨0, _⟩ =>
        show 0 ≤ d.start j idx 0 + (d.window j 0 : ℕ) ∧ d.start j idx 0 + (d.window j 0 : ℕ) < (S : Int)
        rw [h00, hw0]; omega
      | ⟨1, _⟩ =>
        show 0 ≤ d.start j idx 1 + (d.window j 1 : ℕ) ∧ d.start j idx 1 + (d.window j 1 : ℕ) < (C : Int)
        rw [h01, hw1]; omega
    rw [dif_pos hall]
    congr 1
    funext a
    refine Fin.ext ?_
    match a with
    | ⟨0, _⟩ =>
      show (d.start j idx 0 + (d.window j 0 : ℕ)).toNat = s.val
      rw [h00, hw0]; omega
    | ⟨1, _⟩ =>
      show (d.start j idx 1 + (d.window j 1 : ℕ)).toNat = c.val
      rw [h01, hw1]; omega

/-- Where an update of a row scatter lands: the update at row `r`, column `c'` goes to operand index `(s, c)` exactly
    when the row's index word, read signed, is `s` and the columns agree. -/
theorem rows_resultIdx_eq_some_iff {S C R w : ℕ}
    (wf : ScatterDims.WF (⟨2, ![S, C]⟩ : Shape) ⟨2, ![R, 1]⟩ ⟨2, ![R, C]⟩ [1] [0] [0] 1)
    (idx : IVec ⟨2, ![R, 1]⟩ w) (r : Fin R) (c' : Fin C) (s : Fin S) (c : Fin C) :
    (⟨[1], [0], [0], 1, wf⟩ : ScatterDims ⟨2, ![S, C]⟩ ⟨2, ![R, 1]⟩ ⟨2, ![R, C]⟩).resultIdx? (ix2 r c') idx
        = some (ix2 s c)
      ↔ (idx (ix2 r (0 : Fin 1))).toInt = (s.val : Int) ∧ c' = c := by
  rw [resultIdx_eq_some_ix2_iff _ _ idx _ _ (rows_start_zero wf idx r c') (rows_start_one wf idx r c')
    (rows_window_zero wf r c') (rows_window_one wf r c') s c, Fin.ext_iff]

/-- A row scatter-add read at `(s, c)`: the operand there plus the updates' column `c` summed over the rows whose index
    word, read signed, is `s`. -/
theorem hostScatterAdd_rows_apply {S C R w : ℕ}
    (wf : ScatterDims.WF (⟨2, ![S, C]⟩ : Shape) ⟨2, ![R, 1]⟩ ⟨2, ![R, C]⟩ [1] [0] [0] 1)
    (x : (⟨2, ![S, C]⟩ : Shape).Idx → EReal) (idx : IVec ⟨2, ![R, 1]⟩ w) (upd : (⟨2, ![R, C]⟩ : Shape).Idx → EReal)
    (s : Fin S) (c : Fin C) :
    Ideal.hostScatterAdd (⟨[1], [0], [0], 1, wf⟩ : ScatterDims ⟨2, ![S, C]⟩ ⟨2, ![R, 1]⟩ ⟨2, ![R, C]⟩) x idx upd (ix2 s c)
      = x (ix2 s c)
        + ∑ r ∈ Finset.univ.filter (fun r : Fin R => (idx (ix2 r (0 : Fin 1))).toInt = (s.val : Int)), upd (ix2 r c) := by
  unfold Ideal.hostScatterAdd
  congr 1
  rw [Finset.sum_filter, sum_idx2, Finset.sum_filter]
  refine Finset.sum_congr rfl fun r _ => ?_
  by_cases hr : (idx (ix2 r (0 : Fin 1))).toInt = (s.val : Int)
  · rw [if_pos hr, Finset.sum_eq_single c]
    · exact if_pos ((rows_resultIdx_eq_some_iff wf idx r c s c).2 ⟨hr, rfl⟩)
    · intro c' _ hne
      exact if_neg fun h => hne ((rows_resultIdx_eq_some_iff wf idx r c' s c).1 h).2
    · intro hc
      exact absurd (Finset.mem_univ c) hc
  · rw [if_neg hr]
    exact Finset.sum_eq_zero fun c' _ => if_neg fun h => hr ((rows_resultIdx_eq_some_iff wf idx r c' s c).1 h).1

/-- The same with the rows of segment `s` enumerated: if row `r`'s index word is the natural number `seg r`, and `e`
    lists the rows with `seg r = s` once each, the result at `(s, c)` is the operand there plus `∑ p, upd (e p, c)`. -/
theorem hostScatterAdd_rows_enum {S C R P w : ℕ}
    (wf : ScatterDims.WF (⟨2, ![S, C]⟩ : Shape) ⟨2, ![R, 1]⟩ ⟨2, ![R, C]⟩ [1] [0] [0] 1)
    (x : (⟨2, ![S, C]⟩ : Shape).Idx → EReal) (idx : IVec ⟨2, ![R, 1]⟩ w) (upd : (⟨2, ![R, C]⟩ : Shape).Idx → EReal)
    (seg : Fin R → ℕ) (hseg : ∀ r : Fin R, (idx (ix2 r (0 : Fin 1))).toInt = (seg r : Int))
    (s : Fin S) (c : Fin C) (e : Fin P → Fin R) (hinj : Function.Injective e) (hmem : ∀ p, seg (e p) = s.val)
    (hsurj : ∀ r, seg r = s.val → ∃ p, e p = r) :
    Ideal.hostScatterAdd (⟨[1], [0], [0], 1, wf⟩ : ScatterDims ⟨2, ![S, C]⟩ ⟨2, ![R, 1]⟩ ⟨2, ![R, C]⟩) x idx upd (ix2 s c)
      = x (ix2 s c) + ∑ p : Fin P, upd (ix2 (e p) c) := by
  rw [hostScatterAdd_rows_apply wf x idx upd s c]
  congr 1
  refine sum_filter_eq_sum_enum (fun r : Fin R => (idx (ix2 r (0 : Fin 1))).toInt = (s.val : Int)) e hinj ?_ ?_
    (fun r => upd (ix2 r c))
  · intro p
    show (idx (ix2 (e p) (0 : Fin 1))).toInt = (s.val : Int)
    rw [hseg, hmem]
  · intro r hr
    have hr' : (idx (ix2 r (0 : Fin 1))).toInt = (s.val : Int) := hr
    rw [hseg] at hr'
    exact hsurj r (Int.ofNat.inj hr')

end Cert.LibScatterRows

end
-- ==== Proof.LibMatmulLaw.lean ====
/- Two plain facts about matrix products on the extended reals (every float format change being the identity there):
   a product accumulated into the zero array is the host's product with the same dimension record, and a product of a
   [rows, 400] block with a [400, cols] array, read at an entry, is the sum over the contracted axis. -/
import Idealize.ShloMosaic.PureOps.Ideal
import Idealize.ShloMosaic.PureOps.Ideal.Laws
import Idealize.ShloMosaic.Lib.ValueIdx

noncomputable section

namespace Cert.Lib.MatmulLaw

open Idealize.ShloMosaic

/-- On the extended reals a matrix product accumulated into the all-zero array IS the host's `dot_general` with the
    same dimension record: at every entry both are the sum, over the contracted index, of the operands' products. -/
theorem matmul_zero_eq_dotGeneral {sl sr so : Shape} {φ₁ φ₂ : FTy} (d : DotDims sl sr so)
    (a : FVec Ideal sl φ₁) (b : FVec Ideal sr φ₂) :
    matmul (F := Ideal) d none a b (constant so .f32 0x00000000#32) = Host.dotGeneral (F := Ideal) d none a b := by
  funext j
  simp only [matmul, Host.dotGeneral]
  rw [Ideal.matmul_constant_zero_apply, Ideal.dotGeneral_apply]

/-- The same with both operands first narrowed to a smaller float format, which on the extended reals changes nothing. -/
theorem matmul_narrowed_zero_eq_dotGeneral {sl sr so : Shape} {φ ψ : FTy} (d : DotDims sl sr so)
    (a : FVec Ideal sl φ) (b : FVec Ideal sr φ) (h : ψ.bits < φ.bits) :
    matmul (F := Ideal) d none (truncf ψ a h) (truncf ψ b h) (constant so .f32 0x00000000#32) = Host.dotGeneral (F := Ideal) d none a b := by
  funext j
  simp only [matmul, Host.dotGeneral]
  rw [Ideal.matmul_constant_zero_apply, Ideal.dotGeneral_apply]
  rfl

end Cert.Lib.MatmulLaw

end
-- ==== Proof.BridgeOut.lean ====
/-
  The two programs' results agree, given the per-edge weights and per-node norms they share.

  Fix the weights w(e) and norms n(s) with 0 ≤ n(s) < ⊤, and write P(s, j) = Σₖ feature(s, k) · weight(k, j) for the
  product. With s(e) the row the gather reads for edge e's source word (read signed, a negative word counted from the
  end, clamped into the axis) the kernel's result at (v, j) is

      (P(v, j) + bias(j)) + Σ_{e : dst(e) = v} P(s(e), j) · (w(e) · n(s(e)))

  and the reference's is

      ((0 + Σ_{e : dst(e) = v} (Σₖ (feature(s(e), k) · n(s(e))) · weight(k, j)) · w(e)) + P(v, j)) + bias(j).

  Where every destination word is nonnegative the kernel's normalisation of a possibly negative destination leaves
  it alone, so both sums run over the same edges; the summands agree because a factor in [0, ⊤) comes out of a sum
  of extended reals; the rest is the commutativity and associativity of addition.
-/
import proofs.«409179_j74852690035476_3_alg».proof.Proof.KernelDefs
import proofs.«409179_j74852690035476_3_alg».proof.Proof.KernelBlocks
import proofs.«409179_j74852690035476_3_alg».proof.Proof.RefValue
import proofs.«409179_j74852690035476_3_alg».proof.Proof.IndexFacts
import proofs.«409179_j74852690035476_3_alg».proof.Proof.Algebra
import proofs.«409179_j74852690035476_3_alg».proof.Proof.LibGatherAt
import proofs.«409179_j74852690035476_3_alg».proof.Proof.LibGatherVec
import proofs.«409179_j74852690035476_3_alg».proof.Proof.LibScatterRows
import proofs.«409179_j74852690035476_3_alg».proof.Proof.LibLayoutIx
import proofs.«409179_j74852690035476_3_alg».proof.Proof.LibDots
import proofs.«409179_j74852690035476_3_alg».proof.Proof.LibMatmulLaw
import Idealize.ShloMosaic.Lib.ValueIdx
import Idealize.ShloMosaic.Lib.IdealHost

noncomputable section

namespace Cert.Hand.BridgeOut

open Idealize.ShloMosaic Idealize.ShloMosaic.ValueIdx Cert.Hand Cert.LibLayoutIx

abbrev SNx128 : Shape := ⟨2, ![100000, 128]⟩
abbrev SNx64 : Shape := ⟨2, ![100000, 64]⟩
abbrev SKx64 : Shape := ⟨2, ![128, 64]⟩
abbrev SEx64 : Shape := ⟨2, ![1600000, 64]⟩
abbrev SEx1 : Shape := ⟨2, ![1600000, 1]⟩
abbrev SE : Shape := ⟨1, ![1600000]⟩
abbrev SN : Shape := ⟨1, ![100000]⟩

/-- The row of a node array that a gather reads for a source word: the word normalised as a possibly negative position
    and then clamped into the axis. -/
def srcRow (a4 : IVec SE 32) (e : Fin 1600000) : Fin 100000 :=
  clampIx 100000 (by decide) (Cert.KernelIdeal.Host.wrapN a4 (ix1 e))

/-- The two programs normalise a node word alike. -/
theorem wrapN_agree (a : IVec SE 32) : Cert.ReferenceIdeal.RefValue.wrapN a = Cert.KernelIdeal.Host.wrapN a := rfl

/-- A nonnegative node word is left alone by the normalisation. -/
theorem wrapN_of_nonneg (a : IVec SE 32) (h : ∀ e : Fin 1600000, 0 ≤ (a (ix1 e)).toInt) : Cert.KernelIdeal.Host.wrapN a = a := by
  funext i
  obtain ⟨e, rfl⟩ : ∃ e : Fin 1600000, i = ix1 e := ⟨i 0, eq_ix1 i⟩
  exact IndexFacts.wrap_node (a (ix1 e)) (h e)

/-! ## The operations of both programs read at an index -/

theorem gatherK_rows (x : FVec Ideal SNx64 .f32) (idx : IVec SEx1 32) (e : Fin 1600000) (j : Fin 64) :
    Host.gather Cert.KernelIdeal.gather_S100000x64_S1600000x1_S1600000x64_1_0_n_n_0_1_164 x idx (ix2 e j)
      = x (ix2 (clampIx 100000 (by decide) (idx (ix2 e 0))) j) :=
  gather_UL_apply (by decide) Cert.KernelIdeal.gather_S100000x64_S1600000x1_S1600000x64_1_0_n_n_0_1_164.wf x idx e j

theorem gatherR_rows (x : FVec Ideal SNx64 .f32) (idx : IVec SEx1 32) (e : Fin 1600000) (j : Fin 64) :
    Host.gather Cert.ReferenceIdeal.gather_S100000x64_S1600000x1_S1600000x64_1_0_n_n_0_1_164 x idx (ix2 e j)
      = x (ix2 (clampIx 100000 (by decide) (idx (ix2 e 0))) j) :=
  gather_UL_apply (by decide) Cert.ReferenceIdeal.gather_S100000x64_S1600000x1_S1600000x64_1_0_n_n_0_1_164.wf x idx e j

theorem gatherK_vec (x : FVec Ideal SN .f32) (idx : IVec SEx1 32) (e : Fin 1600000) :
    Host.gather Cert.KernelIdeal.gather_S100000_S1600000x1_S1600000_n_0_n_n_0_1_1 x idx (ix1 e)
      = x (ix1 (clampIx 100000 (by decide) (idx (ix2 e 0)))) :=
  gather_U_apply (by decide) Cert.KernelIdeal.gather_S100000_S1600000x1_S1600000_n_0_n_n_0_1_1.wf x idx e

theorem scatterK_rows (x : FVec Ideal SNx64 .f32) (idx : IVec SEx1 32) (upd : FVec Ideal SEx64 .f32) (v : Fin 100000) (j : Fin 64) :
    Host.scatterAdd Cert.KernelIdeal.scatter_S100000x64_S1600000x1_S1600000x64_1_0_0_1 x idx upd (ix2 v j)
      = x (ix2 v j) + ∑ r ∈ Finset.univ.filter (fun r : Fin 1600000 => (idx (ix2 r (0 : Fin 1))).toInt = (v.val : Int)), upd (ix2 r j) :=
  Cert.LibScatterRows.hostScatterAdd_rows_apply Cert.KernelIdeal.scatter_S100000x64_S1600000x1_S1600000x64_1_0_0_1.wf x idx upd v j

theorem scatterR_rows (x : FVec Ideal SNx64 .f32) (idx : IVec SEx1 32) (upd : FVec Ideal SEx64 .f32) (v : Fin 100000) (j : Fin 64) :
    Host.scatterAdd Cert.ReferenceIdeal.scatter_S100000x64_S1600000x1_S1600000x64_1_0_0_1 x idx upd (ix2 v j)
      = x (ix2 v j) + ∑ r ∈ Finset.univ.filter (fun r : Fin 1600000 => (idx (ix2 r (0 : Fin 1))).toInt = (v.val : Int)), upd (ix2 r j) :=
  Cert.LibScatterRows.hostScatterAdd_rows_apply Cert.ReferenceIdeal.scatter_S100000x64_S1600000x1_S1600000x64_1_0_0_1.wf x idx upd v j

/-- The host's product of a 100000×128 array with a 128×64 array at an entry: the sum over the contracted coordinate. -/
theorem dotR_apply (a : FVec Ideal SNx128 .f32) (b : FVec Ideal SKx64 .f32) (s : Fin 100000) (j : Fin 64) :
    Host.dotGeneral Cert.ReferenceIdeal.dot_S100000x128_S128x64_S100000x64_1_0_0_1_n_n none a b (ix2 s j)
      = ∑ k : Fin 128, a (ix2 s k) * b (ix2 k j) := by
  rw [← Cert.Lib.MatmulLaw.matmul_zero_eq_dotGeneral]
  exact Cert.Lib.Dots.matmul_zero_rowsCols_apply (M := 100000) (K := 128) (N := 64)
    Cert.ReferenceIdeal.dot_S100000x128_S128x64_S100000x64_1_0_0_1_n_n.wf none a b s j

/-! ## The two results, their intermediate values inlined -/

section KernelSide
open Cert.KernelIdeal Cert.KernelIdeal.Gen Cert.KernelIdeal.Host

theorem outK_eq (base root : FVec Ideal SNx64 .f32) (ew : FVec Ideal SEx1 .f32) (nrm : FVec Ideal SN .f32) (a4 a5 : IVec SE 32) :
    outK base root ew nrm a4 a5
      = Host.scatterAdd scatter_S100000x64_S1600000x1_S1600000x64_1_0_0_1 base
          (broadcastInDim S1600000x1 ![0] bcast_S1600000_S1600000x1_0 (wrapN a5))
          (mulf (Host.gather gather_S100000x64_S1600000x1_S1600000x64_1_0_n_n_0_1_164 root
              (broadcastInDim S1600000x1 ![0] bcast_S1600000_S1600000x1_0 (wrapN a4)))
            (broadcastInDim S1600000x64 ![0, 1] bcast_S1600000x1_S1600000x64_0_1
              (broadcastInDim S1600000x1 ![0] bcast_S1600000_S1600000x1_0
                (mulf (shapeCast S1600000 ew shapeCasts_S1600000x1_S1600000)
                  (Host.gather gather_S100000_S1600000x1_S1600000_n_0_n_n_0_1_1 nrm
                    (broadcastInDim S1600000x1 ![0] bcast_S1600000_S1600000x1_0 (wrapN a4))))))) := rfl

end KernelSide

section ReferenceSide
open Cert.ReferenceIdeal Cert.ReferenceIdeal.Gen Cert.ReferenceIdeal.RefValue

theorem outR_eq (a0 : FVec Ideal SNx128 .f32) (a2 : FVec Ideal SKx64 .f32) (a3 : FVec Ideal ⟨1, ![64]⟩ .f32)
    (ew : FVec Ideal SEx1 .f32) (nrm : FVec Ideal SN .f32) (a4 a5 : IVec SE 32) :
    outR a0 a2 a3 ew nrm a4 a5
      = addf (addf
          (Host.scatterAdd scatter_S100000x64_S1600000x1_S1600000x64_1_0_0_1
            (broadcastInDim S100000x64 ![] bcast_S_S100000x64 (constant S_ .f32 0x00000000#32))
            (broadcastInDim S1600000x1 ![0] bcast_S1600000_S1600000x1_0 a5)
            (mulf (Host.gather gather_S100000x64_S1600000x1_S1600000x64_1_0_n_n_0_1_164
                (Host.dotGeneral dot_S100000x128_S128x64_S100000x64_1_0_0_1_n_n none
                  (mulf a0 (broadcastInDim S100000x128 ![0, 1] bcast_S100000x1_S100000x128_0_1
                    (broadcastInDim S100000x1 ![0] bcast_S100000_S100000x1_0 nrm))) a2)
                (broadcastInDim S1600000x1 ![0] bcast_S1600000_S1600000x1_0 (wrapN a4)))
              (broadcastInDim S1600000x64 ![0, 1] bcast_S1600000x1_S1600000x64_0_1 ew)))
          (Host.dotGeneral dot_S100000x128_S128x64_S100000x64_1_0_0_1_n_n none a0 a2))
        (broadcastInDim S100000x64 ![0, 1] bcast_S1x64_S100000x64_0_1 (broadcastInDim S1x64 ![1] bcast_S64_S1x64_1 a3)) := rfl

end ReferenceSide

/-! ## The two results at an entry -/

/-- The kernel's result at (v, j): the first array there plus, over the edges whose normalised destination word is v,
    the source's row of the second array times (weight · source's norm). -/
theorem outK_apply (base root : FVec Ideal SNx64 .f32) (ew : FVec Ideal SEx1 .f32) (nrm : FVec Ideal SN .f32)
    (a4 a5 : IVec SE 32) (v : Fin 100000) (j : Fin 64) :
    Cert.KernelIdeal.Host.outK base root ew nrm a4 a5 (ix2 v j)
      = base (ix2 v j)
        + ∑ r ∈ Finset.univ.filter (fun r : Fin 1600000 => (Cert.KernelIdeal.Host.wrapN a5 (ix1 r)).toInt = (v.val : Int)),
            root (ix2 (srcRow a4 r) j) * (ew (ix2 r 0) * nrm (ix1 (srcRow a4 r))) := by
  rw [outK_eq, scatterK_rows]
  refine congrArg (base (ix2 v j) + ·) ?_
  refine Finset.sum_congr ?_ fun r _ => ?_
  · ext r
    simp only [Finset.mem_filter, Finset.mem_univ, true_and, broadcastInDim_col]
  · unfold srcRow
    rw [mulf_apply, gatherK_rows, broadcastInDim_cols]
    simp only [broadcastInDim_col]
    rw [mulf_apply, shapeCast_col, gatherK_vec]
    simp only [broadcastInDim_col]

/-- The reference's result at (v, j). -/
theorem outR_apply (a0 : FVec Ideal SNx128 .f32) (a2 : FVec Ideal SKx64 .f32) (a3 : FVec Ideal ⟨1, ![64]⟩ .f32)
    (ew : FVec Ideal SEx1 .f32) (nrm : FVec Ideal SN .f32) (a4 a5 : IVec SE 32) (v : Fin 100000) (j : Fin 64) :
    Cert.ReferenceIdeal.RefValue.outR a0 a2 a3 ew nrm a4 a5 (ix2 v j)
      = ((0 + ∑ r ∈ Finset.univ.filter (fun r : Fin 1600000 => (a5 (ix1 r)).toInt = (v.val : Int)),
              (∑ k : Fin 128, (a0 (ix2 (srcRow a4 r) k) * nrm (ix1 (srcRow a4 r))) * a2 (ix2 k j)) * ew (ix2 r 0))
          + ∑ k : Fin 128, a0 (ix2 v k) * a2 (ix2 k j))
        + a3 (ix1 j) := by
  rw [outR_eq, addf_apply, addf_apply, scatterR_rows, dotR_apply, broadcastInDim_rows, broadcastInDim_row, broadcastInDim_scalar]
  have hz : (constant Cert.ReferenceIdeal.S_ .f32 0x00000000#32 : FVec Ideal Cert.ReferenceIdeal.S_ .f32) ix0 = 0 := Ideal.ofBits_zero_f32
  rw [hz]
  refine congrArg (fun x : EReal => ((0 + x) + ∑ k : Fin 128, a0 (ix2 v k) * a2 (ix2 k j)) + a3 (ix1 j)) ?_
  refine Finset.sum_congr ?_ fun r _ => ?_
  · ext r
    simp only [Finset.mem_filter, Finset.mem_univ, true_and, broadcastInDim_col]
  · unfold srcRow
    rw [mulf_apply, gatherR_rows, broadcastInDim_cols, dotR_apply, wrapN_agree]
    simp only [mulf_apply, broadcastInDim_cols, broadcastInDim_col]

/-- THE AGREEMENT: with the biased product and the product as the region leaves them, the same weights and norms,
    norms in [0, ⊤) and nonnegative destination words, the kernel's result is the reference's. -/
theorem out_agree (a0 : FVec Ideal SNx128 .f32) (a2 : FVec Ideal SKx64 .f32) (a3 : FVec Ideal ⟨1, ![64]⟩ .f32)
    (b : FVec Ideal ⟨2, ![1, 64]⟩ .f32) (hb : ∀ q : Fin 64, b (ix2 0 q) = a3 (ix1 q))
    (ew : FVec Ideal SEx1 .f32) (nrm : FVec Ideal SN .f32) (a4 a5 : IVec SE 32)
    (hn : ∀ s : Fin 100000, 0 ≤ nrm (ix1 s) ∧ nrm (ix1 s) ≠ ⊤)
    (Hd : ∀ e : Fin 1600000, 0 ≤ (a5 (ix1 e)).toInt) :
    Cert.KernelIdeal.Host.outK (Cert.KernelIdeal.Blocks.biasedArr a0 a2 b) (Cert.KernelIdeal.Blocks.prodArr a0 a2) ew nrm a4 a5
      = Cert.ReferenceIdeal.RefValue.outR a0 a2 a3 ew nrm a4 a5 := by
  funext i
  obtain ⟨v, j, rfl⟩ : ∃ (v : Fin 100000) (j : Fin 64), i = ix2 v j := ⟨i 0, i 1, eq_ix2 i⟩
  rw [outK_apply, outR_apply, wrapN_of_nonneg a5 Hd, zero_add]
  have hsum : ∀ r : Fin 1600000,
      Cert.KernelIdeal.Blocks.prodArr a0 a2 (ix2 (srcRow a4 r) j) * (ew (ix2 r 0) * nrm (ix1 (srcRow a4 r)))
        = (∑ k : Fin 128, (a0 (ix2 (srcRow a4 r) k) * nrm (ix1 (srcRow a4 r))) * a2 (ix2 k j)) * ew (ix2 r 0) := fun r =>
    (Algebra.message_law (fun k => a0 (ix2 (srcRow a4 r) k)) (fun k => a2 (ix2 k j)) (nrm (ix1 (srcRow a4 r))) (ew (ix2 r 0))
      (hn _).1 (hn _).2).symm
  rw [Finset.sum_congr rfl (fun r _ => hsum r)]
  show (Cert.KernelIdeal.Blocks.prodArr a0 a2 (ix2 v j) + b (ix2 0 j)) + _ = _
  rw [hb j]
  show ((∑ k : Fin 128, a0 (ix2 v k) * a2 (ix2 k j)) + a3 (ix1 j)) + _ = _
  rw [add_comm, add_assoc]

end Cert.Hand.BridgeOut

end
-- ==== Proof.PreDecode.lean ====
import proofs.«409179_j74852690035476_3_alg».proof.Pre_finite_inputs
import proofs.«409179_j74852690035476_3_alg».proof.Proof.Gen.Pre_finite_inputs
import Idealize.ShloMosaic.Lib.ReduceAll
import Idealize.ShloMosaic.Lib.ValueIdx
import Idealize.ShloMosaic.PureOps.Ideal
noncomputable section
namespace Cert.Hand.PreDecode
open Idealize.ShloMosaic Idealize.ShloMosaic.ValueIdx

/-! # The precondition, read at the two integer inputs

The precondition is one bit: the conjunction of six "all elements satisfy …" tests, four on the float inputs
(finiteness) and two on integer inputs — every destination index is at least 0, every edge type at least 1, both
read signed. The bit being 1 makes each conjunct 1; a conjunction over all elements that is 1 had a 1 at every
element; and a signed comparison `x ≥ c` that is 1 says `c ≤ x` as integers. Everything is symbolic in the edge
`e`: no element is ever evaluated. -/

/-- The scalar shape has exactly one index (there is no axis to choose a coordinate on). -/
local instance scalarIdx_subsingleton : Subsingleton (⟨0, ![]⟩ : Shape).Idx :=
  ⟨fun a b => funext fun d => d.elim0⟩

/-- A bitwise `and` of two one-bit arrays is 1 at an index exactly when both are 1 there. -/
theorem andi_at {s : Shape} (x y : IVec s 1) (i : s.Idx) (h : andi x y i = 1#1) : x i = 1#1 ∧ y i = 1#1 :=
  IntOp.andi_eq_one.1 (show IntOp.andi (x i) (y i) = 1#1 from h)

/-- "All elements of `x` are at least the constant `c`, signed", as the one-bit reduction it is printed as, being 1
    says `c ≤ x e` as integers at every element `e`. -/
theorem all_sge_const {n : Nat} (x : IVec ⟨1, ![n]⟩ 32) (c : BitVec 32)
    (hb : (⟨0, ![]⟩ : Shape).BroadcastsInDim ⟨1, ![n]⟩ (![] : Fin 0 → Fin 1))
    (hr : (⟨1, ![n]⟩ : Shape).ReducesTo [0] ⟨0, ![]⟩) (h0 : 0 < (⟨0, ![]⟩ : Shape).numel)
    (h : Host.reduce IntOp.andi (cmpi .sge x (broadcastInDim ⟨1, ![n]⟩ ![] hb (constantI ⟨0, ![]⟩ 32 c)))
          (constantI ⟨0, ![]⟩ 1 1#1) hr h0 ix0 = 1#1)
    (e : Fin n) : c.toInt ≤ (x (ix1 e)).toInt := by
  have he := Host.reduce_andi_all _ _ hr h0 ix0 h (ix1 e)
  exact IntOp.cmpi_sge.1 (show IntOp.cmpi .sge (x (ix1 e)) c = 1#1 from he)

/-- Under the precondition every destination index is nonnegative and every edge type is at least 1 (both read as
    signed integers). -/
theorem dst_nonneg_efeat_pos
    (a0 : FVec Ideal ⟨2, ![100000, 128]⟩ .f32) (a1 : FVec Ideal ⟨2, ![8, 1]⟩ .f32) (a2 : FVec Ideal ⟨2, ![128, 64]⟩ .f32)
    (a3 : FVec Ideal ⟨1, ![64]⟩ .f32) (a4 a5 a6 : IVec ⟨1, ![1600000]⟩ 32)
    (h : Cert.Pre_finite_inputs.fn (F := Ideal) a0 a1 a2 a3 a4 a5 a6 = fun _ => 1#1) :
    (∀ e : Fin 1600000, 0 ≤ (a5 (ix1 e)).toInt) ∧ (∀ e : Fin 1600000, 1 ≤ (a6 (ix1 e)).toInt) := by
  have e := congrFun h ix0
  dsimp only [Cert.Pre_finite_inputs.fn, Cert.Pre_finite_inputs.fn_part1] at e
  obtain ⟨e', h6⟩ := andi_at _ _ _ e
  obtain ⟨-, h5⟩ := andi_at _ _ _ e'
  have z0 : (0#32 : BitVec 32).toInt = 0 := by decide
  have z1 : (1#32 : BitVec 32).toInt = 1 := by decide
  exact ⟨fun i => z0 ▸ all_sge_const a5 0#32 _ _ _ h5 i, fun i => z1 ▸ all_sge_const a6 1#32 _ _ _ h6 i⟩

end Cert.Hand.PreDecode

end
-- ==== Proof.lean ====
/-
  The certificate: a graph layer's output computed two ways agrees on the extended reals.

  Both programs take node features (100000 × 128), a weight matrix (128 × 64), a bias (64), an 8 × 1 table of edge-type
  scales, and 1,600,000 edges given by source, destination and type words. Each forms per-edge weights from the table
  (scaled by 10, through the leaky rectifier), per-node norms 1 / max(1, sum of the incoming edges' weights), and
  returns features · weights + bias plus, at each node, the sum over its incoming edges of a message. The reference
  scales every feature row by its node's norm before the product and multiplies the gathered product row by the
  edge's weight; the kernel computes the unscaled product once, in row blocks on the matrix unit, and multiplies the
  gathered row by weight · norm. A norm lies in [0, ⊤) whatever the degree, and such a factor distributes over every
  sum of extended reals, so the two messages are equal; the rest is reordering of sums.

  The statement's precondition keeps the two integer conventions apart from where they differ: every destination
  word is nonnegative (the kernel's scatter counts a negative word from the end of the axis, the reference's drops
  it) and every edge type is at least 1 (the kernel clamps type − 1 into the table, the reference counts a negative
  row from the end). The frames of the two kernel programs are the generated ones; the reference's is its run.
-/
import proofs.«409179_j74852690035476_3_alg».proof.Defs
import proofs.«409179_j74852690035476_3_alg».proof.Proof.Gen.Kernel.Frame
import proofs.«409179_j74852690035476_3_alg».proof.Proof.Gen.KernelIdeal.Frame
import proofs.«409179_j74852690035476_3_alg».proof.Proof.Gen.ReferenceIdeal
import proofs.«409179_j74852690035476_3_alg».proof.Proof.Gen.Pre_finite_inputs
import proofs.«409179_j74852690035476_3_alg».proof.Proof.KernelRun
import proofs.«409179_j74852690035476_3_alg».proof.Proof.RefFinal
import proofs.«409179_j74852690035476_3_alg».proof.Proof.BridgeEw
import proofs.«409179_j74852690035476_3_alg».proof.Proof.BridgeOut
import proofs.«409179_j74852690035476_3_alg».proof.Proof.PreDecode
import Idealize.ShloMosaic.Adequacy
import Idealize.ShloMosaic.Init

noncomputable section

namespace Cert.Proof

open Idealize.ShloMosaic Idealize.SL.Sem Idealize.ShloMosaic.ValueIdx

/-- A vector reshaped to one row reads its entry q at (0, q). -/
theorem shapeCast_to_row {α : Type} {N : Nat} (x : (⟨1, ![N]⟩ : Shape).Idx → α)
    (h : (⟨1, ![N]⟩ : Shape).ShapeCasts ⟨2, ![1, N]⟩) (q : Fin N) :
    shapeCast ⟨2, ![1, N]⟩ x h (ix2 0 q) = x (ix1 q) :=
  shapeCast_apply x h _ (ix1 q) (by
    rw [Shape.rowMajor_val_two, Shape.rowMajor_val_one]
    show q.val = 0 * N + q.val
    omega)

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.Hand.RefFinal.ref_run (F := Ideal) m ρ)

theorem preserves : Cert.preserves_Kernel_KernelIdeal := trivial

/-- On the extended reals, from memories that agree on the arguments and satisfy the precondition, both programs run
    and end with the same result. -/
theorem algebraic : Cert.algebraic_KernelIdeal_ReferenceIdeal := by
  intro m ρ m' ρ' hpre hagree
  refine ⟨_, Cert.KernelIdeal.Run.run m ρ, ?_⟩
  refine (θ_run Cert.ReferenceIdeal.defs _ _).mono (fun _ h c => ⟨(h c).1.trans ?_, (h c).2⟩)
    (Cert.Hand.RefFinal.ref_run (F := Ideal) m' ρ')
  obtain ⟨e0, e1, e2, e3, e4, e5, e6⟩ := hagree c
  rw [e0, e1, e2, e3, e4, e5, e6]
  obtain ⟨Hd, He⟩ := Cert.Hand.PreDecode.dst_nonneg_efeat_pos _ _ _ _ _ _ _ (hpre c)
  unfold Cert.KernelIdeal.Run.resultK
  rw [Cert.Hand.BridgeEw.ew_agree _ _ He, Cert.Hand.RefFinal.nrm_agree]
  exact (Cert.Hand.BridgeOut.out_agree _ _ _ _ (fun q => shapeCast_to_row _ _ q) _ _ _ _
    (fun s => Cert.Hand.RefFinal.nrm_range _ _ s) Hd).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
